-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12000x32x4 : Shape := ⟨4, ![4, 12000, 32, 4]⟩
abbrev S4x12000x4 : Shape := ⟨3, ![4, 12000, 4]⟩
abbrev S4x12000 : Shape := ⟨2, ![4, 12000]⟩
abbrev S9x64 : Shape := ⟨2, ![9, 64]⟩
abbrev S64 : Shape := ⟨1, ![64]⟩
abbrev S64x64 : Shape := ⟨2, ![64, 64]⟩
abbrev S_ : Shape := ⟨0, ![]⟩

class Facts : Prop where
  bcast_S_S4x12000x32x4 : S_.BroadcastsInDim S4x12000x32x4 (![] : Fin 0 → Fin S4x12000x32x4.rank)
  reducesTo_S4x12000x32x4_S_d0_1_2_3 : S4x12000x32x4.ReducesTo [0, 1, 2, 3] S_
  h_S_ : 0 < S_.numel
  bcast_S_S9x64 : S_.BroadcastsInDim S9x64 (![] : Fin 0 → Fin S9x64.rank)
  reducesTo_S9x64_S_d0_1 : S9x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64x64 .f32) (main_arg7 : FVec F S64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S4x12000x32x4 .f32) (main_arg1 : IVec S4x12000x4 32) (main_arg2 : IVec S4x12000 32) (main_arg3 : FVec F S9x64 .f32) (main_arg4 : FVec F S64 .f32) (main_arg5 : FVec F S64 .f32) (main_arg6 : FVec F S64x64 .f32) (main_arg7 : FVec F S64 .f32) (main_arg8 : FVec F S64 .f32) : IVec S_ 1 :=
  let main_v0 : FVec F S4x12000x32x4 .f32 := Host.absf main_arg0
  let main_cst : FVec F S_ .f32 := constant S_ .f32 0x7F800000#32
  let main_v1 : FVec F S4x12000x32x4 .f32 := broadcastInDim S4x12000x32x4 ![] bcast_S_S4x12000x32x4 main_cst
  let main_v2 : IVec S4x12000x32x4 1 := cmpf .olt main_v0 main_v1
  let main_c : IVec S_ 1 := constantI S_ 1 1#1
  let main_v3 : IVec S_ 1 := (fun x v => Host.reduce IntOp.andi x v reducesTo_S4x12000x32x4_S_d0_1_2_3 h_S_) main_v2 main_c
  let main_v4 : FVec F S9x64 .f32 := Host.absf main_arg3
  let main_cst_0 : FVec F S_ .f32 := constant S_ .f32 0x7F800000#32
  let main_v5 : FVec F S9x64 .f32 := broadcastInDim S9x64 ![] bcast_S_S9x64 main_cst_0
  let main_v6 : IVec S9x64 1 := cmpf .olt main_v4 main_v5
  let main_c_1 : IVec S_ 1 := constantI S_ 1 1#1
  let main_v7 : IVec S_ 1 := (fun x v => Host.reduce IntOp.andi x v reducesTo_S9x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_v13 main_v16
-- ==== Kernel.lean ====
abbrev S4x12000x32x4 : Shape := ⟨4, ![4, 12000, 32, 4]⟩
abbrev S4x12000x4 : Shape := ⟨3, ![4, 12000, 4]⟩
abbrev S4x12000 : Shape := ⟨2, ![4, 12000]⟩
abbrev S9x64 : Shape := ⟨2, ![9, 64]⟩
abbrev S64 : Shape := ⟨1, ![64]⟩
abbrev S64x64 : Shape := ⟨2, ![64, 64]⟩
abbrev S4x12000x1 : Shape := ⟨3, ![4, 12000, 1]⟩
abbrev S4x200x32x4 : Shape := ⟨4, ![4, 200, 32, 4]⟩
abbrev S4x200x4 : Shape := ⟨3, ![4, 200, 4]⟩
abbrev S4x200x1 : Shape := ⟨3, ![4, 200, 1]⟩
abbrev S4x200x32x3 : Shape := ⟨4, ![4, 200, 32, 3]⟩
abbrev S4x200x32x1 : Shape := ⟨4, ![4, 200, 32, 1]⟩
abbrev S4x200 : Shape := ⟨2, ![4, 200]⟩
abbrev S4x200x32 : Shape := ⟨3, ![4, 200, 32]⟩
abbrev S4x200x32x2 : Shape := ⟨4, ![4, 200, 32, 2]⟩
abbrev S4x200x2 : Shape := ⟨3, ![4, 200, 2]⟩
abbrev S4x200x1x2 : Shape := ⟨4, ![4, 200, 1, 2]⟩
abbrev S4x200x1x1 : Shape := ⟨4, ![4, 200, 1, 1]⟩
abbrev S4x200x32x9 : Shape := ⟨4, ![4, 200, 32, 9]⟩
abbrev S25600x9 : Shape := ⟨2, ![25600, 9]⟩
abbrev S25600x64 : Shape := ⟨2, ![25600, 64]⟩
abbrev S_ : Shape := ⟨0, ![]⟩
abbrev S1x64 : Shape := ⟨2, ![1, 64]⟩
abbrev S4x12000x64 : Shape := ⟨3, ![4, 12000, 64]⟩
abbrev S4x200x64 : Shape := ⟨3, ![4, 200, 64]⟩
abbrev S4x200x32x64 : Shape := ⟨4, ![4, 200, 32, 64]⟩

abbrev nBuf : Space → Nat
  | .hbm => 31
  | .vmem => 41
  | .smem => 0
  | _ => 0

abbrev bufTy : (tb : Table) → Fin (tcTables nBuf tb) → BufTy
  | .hbm, ⟨0, _⟩ => ⟨S4x12000x32x4, .f32⟩
  | .hbm, ⟨1, _⟩ => ⟨S4x12000x4, .i32⟩
  | .hbm, ⟨2, _⟩ => ⟨S4x12000, .i32⟩
  | .hbm, ⟨3, _⟩ => ⟨S9x64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S4x12000x1, .i32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S4x12000x64, .f32⟩
  | .local _ .vmem, ⟨0, _⟩ => ⟨S4x200x32x4, .f32⟩
  | .local _ .vmem, ⟨1, _⟩ => ⟨S4x200x32x4, .f32⟩
  | .local _ .vmem, ⟨2, _⟩ => ⟨S4x200x4, .i32⟩
  | .local _ .vmem, ⟨3, _⟩ => ⟨S4x200x4, .i32⟩
  | .local _ .vmem, ⟨4, _⟩ => ⟨S4x200x1, .i32⟩
  | .local _ .vmem, ⟨5, _⟩ => ⟨S4x200x1, .i32⟩
  | .local _ .vmem, ⟨6, _⟩ => ⟨S9x64, .f32⟩
  | .local _ .vmem, ⟨7, _⟩ => ⟨S64, .f32⟩
  | .local _ .vmem, ⟨8, _⟩ => ⟨S64, .f32⟩
  | .local _ .vmem, ⟨9, _⟩ => ⟨S4x200x32x4, .f32⟩
  | .local _ .vmem, ⟨10, _⟩ => ⟨S4x200x32x4, .f32⟩
  | .local _ .vmem, ⟨11, _⟩ => ⟨S4x200x4, .i32⟩
  | .local _ .vmem, ⟨12, _⟩ => ⟨S4x200x4, .i32⟩
  | .local _ .vmem, ⟨13, _⟩ => ⟨S4x200x1, .i32⟩
  | .local _ .vmem, ⟨14, _⟩ => ⟨S4x200x1, .i32⟩
  | .local _ .vmem, ⟨15, _⟩ => ⟨S9x64, .f32⟩
  | .local _ .vmem, ⟨16, _⟩ => ⟨S64, .f32⟩
  | .local _ .vmem, ⟨17, _⟩ => ⟨S64, .f32⟩
  | .local _ .vmem, ⟨18, _⟩ => ⟨S64, .f32⟩
  | .local _ .vmem, ⟨19, _⟩ => ⟨S64, .f32⟩
  | .local _ .vmem, ⟨20, _⟩ => ⟨S64x64, .f32⟩
  | .local _ .vmem, ⟨21, _⟩ => ⟨S64, .f32⟩
  | .local _ .vmem, ⟨22, _⟩ => ⟨S64, .f32⟩
  | .local _ .vmem, ⟨23, _⟩ => ⟨S4x200x32x4, .f32⟩
  | .local _ .vmem, ⟨24, _⟩ => ⟨S4x200x32x4, .f32⟩
  | .local _ .vmem, ⟨25, _⟩ => ⟨S4x200x4, .i32⟩
  | .local _ .vmem, ⟨26, _⟩ => ⟨S4x200x4, .i32⟩
  | .local _ .vmem, ⟨27, _⟩ => ⟨S4x200x1, .i32⟩
  | .local _ .vmem, ⟨28, _⟩ => ⟨S4x200x1, .i32⟩
  | .local _ .vmem, ⟨29, _⟩ => ⟨S9x64, .f32⟩
  | .local _ .vmem, ⟨30, _⟩ => ⟨S64, .f32⟩
  | .local _ .vmem, ⟨31, _⟩ => ⟨S64, .f32⟩
  | .local _ .vmem, ⟨32, _⟩ => ⟨S64, .f32⟩
  | .local _ .vmem, ⟨33, _⟩ => ⟨S64, .f32⟩
  | .local _ .vmem, ⟨34, _⟩ => ⟨S64x64, .f32⟩
  | .local _ .vmem, ⟨35, _⟩ => ⟨S64, .f32⟩
  | .local _ .vmem, ⟨36, _⟩ => ⟨S64, .f32⟩
  | .local _ .vmem, ⟨37, _⟩ => ⟨S64, .f32⟩
  | .local _ .vmem, ⟨38, _⟩ => ⟨S64, .f32⟩
  | .local _ .vmem, ⟨39, _⟩ => ⟨S4x200x64, .f32⟩
  | .local _ .vmem, ⟨40, _⟩ => ⟨S4x200x64, .f32⟩
  | _, _ => ⟨S4x12000x32x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg10_0 : Ref sig .tc := ⟨.vmem, 36, rfl⟩
abbrev cc2_stg11_0 : Ref sig .tc := ⟨.vmem, 37, rfl⟩
abbrev cc2_stg12_0 : Ref sig .tc := ⟨.vmem, 38, rfl⟩
abbrev cc2_stg13_0 : Ref sig .tc := ⟨.vmem, 39, rfl⟩
abbrev cc2_stg13_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem10_0 : DmaSem sig := 36
abbrev cc2_sem11_0 : DmaSem sig := 37
abbrev cc2_sem12_0 : DmaSem sig := 38
abbrev cc2_sem13_0 : DmaSem sig := 39
abbrev cc2_sem13_1 : DmaSem sig := 40

abbrev nD : Nat := 1
abbrev τ : Topo := Topo.v7x

variable {F : FTy → Type} [FloatOps F]

abbrev grid0 : Pipeline.Grid := ⟨1, ![60], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S4x200x32x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x200x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x200x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S9x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![60], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S4x200x32x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x200x4 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x200x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S9x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev grid2 : Pipeline.Grid := ⟨1, ![60], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_12 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_13 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S4x200x32x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x200x4 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4x200x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S9x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S4x200x64 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

class Facts₀ : Prop where
  bcast_S4x12000_S4x12000x1_0_1 : S4x12000.BroadcastsInDim S4x12000x1 (![0, 1] : Fin 2 → Fin S4x12000x1.rank)
  inb_S64_S64_0 : ∀ a, (![0] : Fin 1 → Nat) a + S64.size a ≤ S64.size a
  h_S64 : 0 < S64.numel
  inb_S4x200x32x4_S4x200x32x4_0_0_0_0 : ∀ a, (![0, 0, 0, 0] : Fin 4 → Nat) a + S4x200x32x4.size a ≤ S4x200x32x4.size a
  h_S4x200x32x4 : 0 < S4x200x32x4.numel
  inb_S4x200x4_S4x200x4_0_0_0 : ∀ a, (![0, 0, 0] : Fin 3 → Nat) a + S4x200x4.size a ≤ S4x200x4.size a
  h_S4x200x4 : 0 < S4x200x4.numel
  inb_S4x200x1_S4x200x1_0_0_0 : ∀ a, (![0, 0, 0] : Fin 3 → Nat) a + S4x200x1.size a ≤ S4x200x1.size a
  h_S4x200x1 : 0 < S4x200x1.numel
  shapeCasts_S4x200x1_S4x200x1 : S4x200x1.ShapeCasts S4x200x1
  slices_S4x200x32x4_o0_0_0_0_S4x200x32x3 : S4x200x32x4.Slices ![0, 0, 0, 0] S4x200x32x3
  slices_S4x200x32x4_o0_0_0_3_S4x200x32x1 : S4x200x32x4.Slices ![0, 0, 0, 3] S4x200x32x1
  slices_S4x200x4_o0_0_3_S4x200x1 : S4x200x4.Slices ![0, 0, 3] S4x200x1
  shapeCasts_S4x200x1_S4x200 : S4x200x1.ShapeCasts S4x200
  slices_S4x200x4_o0_0_2_S4x200x1 : S4x200x4.Slices ![0, 0, 2] S4x200x1
  slices_S4x200x32x3_o0_0_0_0_S4x200x32x1 : S4x200x32x3.Slices ![0, 0, 0, 0] S4x200x32x1
  shapeCasts_S4x200x32x1_S4x200x32 : S4x200x32x1.ShapeCasts S4x200x32
  shapeCasts_S4x200_S4x200x1 : S4x200.ShapeCasts S4x200x1
  broadcasts_S4x200x1_S4x200x32 : S4x200x1.Broadcasts S4x200x32
  slices_S4x200x32x3_o0_0_0_1_S4x200x32x1 : S4x200x32x3.Slices ![0, 0, 0, 1] S4x200x32x1
  shapeCasts_S4x200x32_S4x200x32x1 : S4x200x32.ShapeCasts S4x200x32x1
  concatenates_S4x200x32x1_S4x200x32x1_S4x200x32x2_d3 : Shape.Concatenates [S4x200x32x1, S4x200x32x1] S4x200x32x2 3
  slices_S4x200x32x3_o0_0_0_2_S4x200x32x1 : S4x200x32x3.Slices ![0, 0, 0, 2] S4x200x32x1
  reduces_S4x200x32_S4x200 : S4x200x32.Reduces [2] S4x200
  concatenates_S4x200x1_S4x200x1_S4x200x2_d2 : Shape.Concatenates [S4x200x1, S4x200x1] S4x200x2 2
  shapeCasts_S4x200x2_S4x200x1x2 : S4x200x2.ShapeCasts S4x200x1x2
  shapeCasts_S4x200x1x2_S4x200x1x2 : S4x200x1x2.ShapeCasts S4x200x1x2
  broadcasts_S4x200x1x2_S4x200x32x2 : S4x200x1x2.Broadcasts S4x200x32x2
  shapeCasts_S4x200x1_S4x200x1x1 : S4x200x1.ShapeCasts S4x200x1x1
  shapeCasts_S4x200x1x1_S4x200x1x1 : S4x200x1x1.ShapeCasts S4x200x1x1
  broadcasts_S4x200x1x1_S4x200x32x1 : S4x200x1x1.Broadcasts S4x200x32x1
  concatenates_S4x200x32x3_S4x200x32x1_S4x200x32x2_S4x200x32x2_S4x200x32x1_S4x200x32x9_d3 : Shape.Concatenates [S4x200x32x3, S4x200x32x1, S4x200x32x2, S4x200x32x2, S4x200x32x1] S4x200x32x9 3
  iota_S4x200x32x1_d2_w32 : S4x200x32x1.Iotas .tc 32 [2]
  natLt_1_32 : 1 < 32
  broadcasts_S4x200x32x1_S4x200x32x9 : S4x200x32x1.Broadcasts S4x200x32x9
  shapeCasts_S4x200x32x9_S25600x9 : S4x200x32x9.ShapeCasts S25600x9
  bitsLt_bf16_f32 : FTy.bits .bf16 < FTy.bits .f32
  inb_S9x64_S9x64_0_0 : ∀ a, (![0, 0] : Fin 2 → Nat) a + S9x64.size a ≤ S9x64.size a
  h_S9x64 : 0 < S9x64.numel
  shapeCasts_S64_S64 : S64.ShapeCasts S64
  reduces_S25600x64_S64 : S25600x64.Reduces [0] S64
  bcast_S_S64 : S_.BroadcastsInDim S64 (![] : Fin 0 → Fin S64.rank)
  shapeCasts_S64_S1x64 : S64.ShapeCasts S1x64
  broadcasts_S1x64_S25600x64 : S1x64.Broadcasts S25600x64
  inb_S64x64_S64x64_0_0 : ∀ a, (![0, 0] : Fin 2 → Nat) a + S64x64.size a ≤ S64x64.size a
  h_S64x64 : 0 < S64x64.numel
  shapeCasts_S25600x64_S4x200x32x64 : S25600x64.ShapeCasts S4x200x32x64
  reduces_S4x200x32x64_S4x200x64 : S4x200x32x64.Reduces [2] S4x200x64
  inb_S4x200x64_S4x200x64_0_0_0 : ∀ a, (![0, 0, 0] : Fin 3 → Nat) a + S4x200x64.size a ≤ S4x200x64.size a
  h_S4x200x64 : 0 < S4x200x64.numel
  dot_S25600x9_S9x64_S25600x64_1_0_0_1_n_n_wf : DotDims.WF S25600x9 S9x64 S25600x64 [1] [0] [0] [1] [] []
  dot_S25600x64_S64x64_S25600x64_1_0_0_1_n_n_wf : DotDims.WF S25600x64 S64x64 S25600x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x200x32x4.size a ≤ S4x12000x32x4.size a
  hwx0_0 : ∀ i : grid0.Coords, EltTy.bits .f32 = 32 ∨ (Rect.block (s := S4x12000x32x4) S4x200x32x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x200x4.size a ≤ S4x12000x4.size a
  hwx0_1 : ∀ i : grid0.Coords, EltTy.bits .i32 = 32 ∨ (Rect.block (s := S4x12000x4) S4x200x4.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x200x1.size a ≤ S4x12000x1.size a
  hwx0_2 : ∀ i : grid0.Coords, EltTy.bits .i32 = 32 ∨ (Rect.block (s := S4x12000x1) S4x200x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x64.size a ≤ S9x64.size a
  hwx0_3 : ∀ i : grid0.Coords, EltTy.bits .f32 = 32 ∨ (Rect.block (s := S9x64) S9x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x200x32x4.size a ≤ S4x12000x32x4.size a
  hwx1_0 : ∀ i : grid1.Coords, EltTy.bits .f32 = 32 ∨ (Rect.block (s := S4x12000x32x4) S4x200x32x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x200x4.size a ≤ S4x12000x4.size a
  hwx1_1 : ∀ i : grid1.Coords, EltTy.bits .i32 = 32 ∨ (Rect.block (s := S4x12000x4) S4x200x4.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x200x1.size a ≤ S4x12000x1.size a
  hwx1_2 : ∀ i : grid1.Coords, EltTy.bits .i32 = 32 ∨ (Rect.block (s := S4x12000x1) S4x200x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S9x64.size a ≤ S9x64.size a
  hwx1_3 : ∀ i : grid1.Coords, EltTy.bits .f32 = 32 ∨ (Rect.block (s := S9x64) S9x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64.size a ≤ S64.size a
  hwx1_9 : ∀ i : grid1.Coords, EltTy.bits .f32 = 32 ∨ (Rect.block (s := S64) S64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64.size a ≤ S64.size a
  hwx1_10 : ∀ i : grid1.Coords, EltTy.bits .f32 = 32 ∨ (Rect.block (s := S64) S64.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4x200x32x4.size a ≤ S4x12000x32x4.size a
  hwx2_0 : ∀ i : grid2.Coords, EltTy.bits .f32 = 32 ∨ (Rect.block (s := S4x12000x32x4) S4x200x32x4.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4x200x4.size a ≤ S4x12000x4.size a
  hwx2_1 : ∀ i : grid2.Coords, EltTy.bits .i32 = 32 ∨ (Rect.block (s := S4x12000x4) S4x200x4.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4x200x1.size a ≤ S4x12000x1.size a
  hwx2_2 : ∀ i : grid2.Coords, EltTy.bits .i32 = 32 ∨ (Rect.block (s := S4x12000x1) S4x200x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S9x64.size a ≤ S9x64.size a
  hwx2_3 : ∀ i : grid2.Coords, EltTy.bits .f32 = 32 ∨ (Rect.block (s := S9x64) S9x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64.size a ≤ S64.size a
  hwx2_7 : ∀ i : grid2.Coords, EltTy.bits .f32 = 32 ∨ (Rect.block (s := S64) S64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64.size a ≤ S64.size a
  hwx2_9 : ∀ i : grid2.Coords, EltTy.bits .f32 = 32 ∨ (Rect.block (s := S64) S64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S64.size a ≤ S64.size a
  hwx2_10 : ∀ i : grid2.Coords, EltTy.bits .f32 = 32 ∨ (Rect.block (s := S64) S64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S64.size a ≤ S64.size a
  hwx2_11 : ∀ i : grid2.Coords, EltTy.bits .f32 = 32 ∨ (Rect.block (s := S64) S64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S64.size a ≤ S64.size a
  hwx2_12 : ∀ i : grid2.Coords, EltTy.bits .f32 = 32 ∨ (Rect.block (s := S64) S64.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S4x200x64.size a ≤ S4x12000x64.size a
  hwx2_13 : ∀ i : grid2.Coords, EltTy.bits .f32 = 32 ∨ (Rect.block (s := S4x12000x64) S4x200x64.size (cc2_transform_13 i) (hinb2_13 i)).WholeWords (EltTy.packing .f32)

variable [Facts₀]

def dot_S25600x9_S9x64_S25600x64_1_0_0_1_n_n : DotDims S25600x9 S9x64 S25600x64 where
  lhsContracting := [1]
  rhsContracting := [0]
  lhsNonContracting := [0]
  rhsNonContracting := [1]
  lhsBatch := []
  rhsBatch := []
  wf := dot_S25600x9_S9x64_S25600x64_1_0_0_1_n_n_wf
def dot_S25600x64_S64x64_S25600x64_1_0_0_1_n_n : DotDims S25600x64 S64x64 S25600x64 where
  lhsContracting := [1]
  rhsContracting := [0]
  lhsNonContracting := [0]
  rhsNonContracting := [1]
  lhsBatch := []
  rhsBatch := []
  wf := dot_S25600x64_S64x64_S25600x64_1_0_0_1_n_n_wf

abbrev win0_0 : Pipeline.Window sig grid0 :=
  Pipeline.Window.ofSpec (Memref.whole main_arg0) S4x200x32x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x200x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x200x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S9x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S4x200x32x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4x200x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S4x200x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S9x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg6) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v8_0) S64.size cc1_transform_9 reads1_9 true true 1 stage1_9 sem1_9
    hrank1 hreads1_9 hinb1_9 nbuf1_9 (Memref.isWhole_whole _) hwx1_9 hstage1_9

abbrev win1_10 : Pipeline.Window sig grid1 :=
  Pipeline.Window.ofSpec (Memref.whole main_v8_1) S64.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_arg0) S4x200x32x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S4x200x4.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0) S4x200x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S9x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg4) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg5) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v3) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v7) S64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg6) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg7) S64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg8) S64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v10) S64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v14) S64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v15) S4x200x64.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

class Facts : Prop extends Facts₀ where

variable [Facts]
-- ==== ReferenceIdeal.lean ====
abbrev S4x12000x32x4 : Shape := ⟨4, ![4, 12000, 32, 4]⟩
abbrev S4x12000x4 : Shape := ⟨3, ![4, 12000, 4]⟩
abbrev S4x12000 : Shape := ⟨2, ![4, 12000]⟩
abbrev S9x64 : Shape := ⟨2, ![9, 64]⟩
abbrev S64 : Shape := ⟨1, ![64]⟩
abbrev S64x64 : Shape := ⟨2, ![64, 64]⟩
abbrev S2 : Shape := ⟨1, ![2]⟩
abbrev S4x12000x32x3 : Shape := ⟨4, ![4, 12000, 32, 3]⟩
abbrev S4x12000x32x1 : Shape := ⟨4, ![4, 12000, 32, 1]⟩
abbrev S_ : Shape := ⟨0, ![]⟩
abbrev S2x1 : Shape := ⟨2, ![2, 1]⟩
abbrev S4x12000x2 : Shape := ⟨3, ![4, 12000, 2]⟩
abbrev S1x1x2 : Shape := ⟨3, ![1, 1, 2]⟩
abbrev S4x12000x32x2 : Shape := ⟨4, ![4, 12000, 32, 2]⟩
abbrev S4x12000x1x2 : Shape := ⟨4, ![4, 12000, 1, 2]⟩
abbrev S4x12000x1 : Shape := ⟨3, ![4, 12000, 1]⟩
abbrev S4x12000x1x1 : Shape := ⟨4, ![4, 12000, 1, 1]⟩
abbrev S4x12000x32x9 : Shape := ⟨4, ![4, 12000, 32, 9]⟩
abbrev S32 : Shape := ⟨1, ![32]⟩
abbrev S1x1x32x1 : Shape := ⟨4, ![1, 1, 32, 1]⟩
abbrev S4x12000x32x64 : Shape := ⟨4, ![4, 12000, 32, 64]⟩
abbrev S1x1x1x64 : Shape := ⟨4, ![1, 1, 1, 64]⟩
abbrev S4x12000x64 : Shape := ⟨3, ![4, 12000, 64]⟩

abbrev nBuf : Space → Nat
  | .hbm => 127
  | .vmem => 0
  | .smem => 0
  | _ => 0

abbrev bufTy : (tb : Table) → Fin (tcTables nBuf tb) → BufTy
  | .hbm, ⟨0, _⟩ => ⟨S4x12000x32x4, .f32⟩
  | .hbm, ⟨1, _⟩ => ⟨S4x12000x4, .i32⟩
  | .hbm, ⟨2, _⟩ => ⟨S4x12000, .i32⟩
  | .hbm, ⟨3, _⟩ => ⟨S9x64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S2, .i32⟩
  | .hbm, ⟨10, _⟩ => ⟨S2, .f32⟩
  | .hbm, ⟨11, _⟩ => ⟨S2, .f32⟩
  | .hbm, ⟨12, _⟩ => ⟨S4x12000x32x3, .f32⟩
  | .hbm, ⟨13, _⟩ => ⟨S4x12000x32x1, .f32⟩
  | .hbm, ⟨14, _⟩ => ⟨S_, .i32⟩
  | .hbm, ⟨15, _⟩ => ⟨S2, .i32⟩
  | .hbm, ⟨16, _⟩ => ⟨S2, .i1⟩
  | .hbm, ⟨17, _⟩ => ⟨S_, .i32⟩
  | .hbm, ⟨18, _⟩ => ⟨S2, .i32⟩
  | .hbm, ⟨19, _⟩ => ⟨S2, .i32⟩
  | .hbm, ⟨20, _⟩ => ⟨S2, .i32⟩
  | .hbm, ⟨21, _⟩ => ⟨S2x1, .i32⟩
  | .hbm, ⟨22, _⟩ => ⟨S4x12000x2, .i32⟩
  | .hbm, ⟨23, _⟩ => ⟨S4x12000x2, .f32⟩
  | .hbm, ⟨24, _⟩ => ⟨S_, .f32⟩
  | .hbm, ⟨25, _⟩ => ⟨S4x12000x2, .f32⟩
  | .hbm, ⟨26, _⟩ => ⟨S4x12000x2, .f32⟩
  | .hbm, ⟨27, _⟩ => ⟨S1x1x2, .f32⟩
  | .hbm, ⟨28, _⟩ => ⟨S4x12000x2, .f32⟩
  | .hbm, ⟨29, _⟩ => ⟨S4x12000x2, .f32⟩
  | .hbm, ⟨30, _⟩ => ⟨S1x1x2, .f32⟩
  | .hbm, ⟨31, _⟩ => ⟨S4x12000x2, .f32⟩
  | .hbm, ⟨32, _⟩ => ⟨S4x12000x2, .f32⟩
  | .hbm, ⟨33, _⟩ => ⟨S4x12000x32x2, .f32⟩
  | .hbm, ⟨34, _⟩ => ⟨S4x12000x1x2, .f32⟩
  | .hbm, ⟨35, _⟩ => ⟨S4x12000x32x2, .f32⟩
  | .hbm, ⟨36, _⟩ => ⟨S4x12000x32x2, .f32⟩
  | .hbm, ⟨37, _⟩ => ⟨S4x12000x32x1, .f32⟩
  | .hbm, ⟨38, _⟩ => ⟨S_, .f32⟩
  | .hbm, ⟨39, _⟩ => ⟨S4x12000x1, .f32⟩
  | .hbm, ⟨40, _⟩ => ⟨S4x12000x1x1, .f32⟩
  | .hbm, ⟨41, _⟩ => ⟨S_, .f32⟩
  | .hbm, ⟨42, _⟩ => ⟨S4x12000x1x1, .f32⟩
  | .hbm, ⟨43, _⟩ => ⟨S4x12000x1x1, .f32⟩
  | .hbm, ⟨44, _⟩ => ⟨S4x12000x1x2, .f32⟩
  | .hbm, ⟨45, _⟩ => ⟨S4x12000x32x2, .f32⟩
  | .hbm, ⟨46, _⟩ => ⟨S4x12000x32x1, .f32⟩
  | .hbm, ⟨47, _⟩ => ⟨S4x12000x32x9, .f32⟩
  | .hbm, ⟨48, _⟩ => ⟨S32, .i32⟩
  | .hbm, ⟨49, _⟩ => ⟨S1x1x32x1, .i32⟩
  | .hbm, ⟨50, _⟩ => ⟨S4x12000x1x1, .i32⟩
  | .hbm, ⟨51, _⟩ => ⟨S4x12000x32x1, .i32⟩
  | .hbm, ⟨52, _⟩ => ⟨S4x12000x32x1, .i32⟩
  | .hbm, ⟨53, _⟩ => ⟨S4x12000x32x1, .i1⟩
  | .hbm, ⟨54, _⟩ => ⟨S4x12000x32x1, .f32⟩
  | .hbm, ⟨55, _⟩ => ⟨S4x12000x32x9, .f32⟩
  | .hbm, ⟨56, _⟩ => ⟨S4x12000x32x9, .f32⟩
  | .hbm, ⟨57, _⟩ => ⟨S4x12000x32x64, .f32⟩
  | .hbm, ⟨58, _⟩ => ⟨S_, .f32⟩
  | .hbm, ⟨59, _⟩ => ⟨S64, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S1x1x1x64, .f32⟩
  | .hbm, ⟨64, _⟩ => ⟨S4x12000x32x64, .f32⟩
  | .hbm, ⟨65, _⟩ => ⟨S4x12000x32x64, .f32⟩
  | .hbm, ⟨66, _⟩ => ⟨S4x12000x32x64, .f32⟩
  | .hbm, ⟨67, _⟩ => ⟨S_, .f32⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S1x1x1x64, .f32⟩
  | .hbm, ⟨73, _⟩ => ⟨S4x12000x32x64, .f32⟩
  | .hbm, ⟨74, _⟩ => ⟨S4x12000x32x64, .f32⟩
  | .hbm, ⟨75, _⟩ => ⟨S_, .f32⟩
  | .hbm, ⟨76, _⟩ => ⟨S64, .f32⟩
  | .hbm, ⟨77, _⟩ => ⟨S64, .f32⟩
  | .hbm, ⟨78, _⟩ => ⟨S64, .f32⟩
  | .hbm, ⟨79, _⟩ => ⟨S1x1x1x64, .f32⟩
  | .hbm, ⟨80, _⟩ => ⟨S4x12000x32x64, .f32⟩
  | .hbm, ⟨81, _⟩ => ⟨S4x12000x32x64, .f32⟩
  | .hbm, ⟨82, _⟩ => ⟨S1x1x1x64, .f32⟩
  | .hbm, ⟨83, _⟩ => ⟨S4x12000x32x64, .f32⟩
  | .hbm, ⟨84, _⟩ => ⟨S4x12000x32x64, .f32⟩
  | .hbm, ⟨85, _⟩ => ⟨S1x1x1x64, .f32⟩
  | .hbm, ⟨86, _⟩ => ⟨S4x12000x32x64, .f32⟩
  | .hbm, ⟨87, _⟩ => ⟨S4x12000x32x64, .f32⟩
  | .hbm, ⟨88, _⟩ => ⟨S_, .f32⟩
  | .hbm, ⟨89, _⟩ => ⟨S4x12000x32x64, .f32⟩
  | .hbm, ⟨90, _⟩ => ⟨S4x12000x32x64, .f32⟩
  | .hbm, ⟨91, _⟩ => ⟨S4x12000x32x64, .f32⟩
  | .hbm, ⟨92, _⟩ => ⟨S_, .f32⟩
  | .hbm, ⟨93, _⟩ => ⟨S64, .f32⟩
  | .hbm, ⟨94, _⟩ => ⟨S_, .f32⟩
  | .hbm, ⟨95, _⟩ => ⟨S64, .f32⟩
  | .hbm, ⟨96, _⟩ => ⟨S64, .f32⟩
  | .hbm, ⟨97, _⟩ => ⟨S1x1x1x64, .f32⟩
  | .hbm, ⟨98, _⟩ => ⟨S4x12000x32x64, .f32⟩
  | .hbm, ⟨99, _⟩ => ⟨S4x12000x32x64, .f32⟩
  | .hbm, ⟨100, _⟩ => ⟨S4x12000x32x64, .f32⟩
  | .hbm, ⟨101, _⟩ => ⟨S_, .f32⟩
  | .hbm, ⟨102, _⟩ => ⟨S64, .f32⟩
  | .hbm, ⟨103, _⟩ => ⟨S_, .f32⟩
  | .hbm, ⟨104, _⟩ => ⟨S64, .f32⟩
  | .hbm, ⟨105, _⟩ => ⟨S64, .f32⟩
  | .hbm, ⟨106, _⟩ => ⟨S1x1x1x64, .f32⟩
  | .hbm, ⟨107, _⟩ => ⟨S4x12000x32x64, .f32⟩
  | .hbm, ⟨108, _⟩ => ⟨S4x12000x32x64, .f32⟩
  | .hbm, ⟨109, _⟩ => ⟨S_, .f32⟩
  | .hbm, ⟨110, _⟩ => ⟨S64, .f32⟩
  | .hbm, ⟨111, _⟩ => ⟨S64, .f32⟩
  | .hbm, ⟨112, _⟩ => ⟨S64, .f32⟩
  | .hbm, ⟨113, _⟩ => ⟨S1x1x1x64, .f32⟩
  | .hbm, ⟨114, _⟩ => ⟨S4x12000x32x64, .f32⟩
  | .hbm, ⟨115, _⟩ => ⟨S4x12000x32x64, .f32⟩
  | .hbm, ⟨116, _⟩ => ⟨S1x1x1x64, .f32⟩
  | .hbm, ⟨117, _⟩ => ⟨S4x12000x32x64, .f32⟩
  | .hbm, ⟨118, _⟩ => ⟨S4x12000x32x64, .f32⟩
  | .hbm, ⟨119, _⟩ => ⟨S1x1x1x64, .f32⟩
  | .hbm, ⟨120, _⟩ => ⟨S4x12000x32x64, .f32⟩
  | .hbm, ⟨121, _⟩ => ⟨S4x12000x32x64, .f32⟩
  | .hbm, ⟨122, _⟩ => ⟨S_, .f32⟩
  | .hbm, ⟨123, _⟩ => ⟨S4x12000x32x64, .f32⟩
  | .hbm, ⟨124, _⟩ => ⟨S4x12000x32x64, .f32⟩
  | .hbm, ⟨125, _⟩ => ⟨S_, .f32⟩
  | .hbm, ⟨126, _⟩ => ⟨S4x12000x64, .f32⟩
  | _, _ => ⟨S4x12000x32x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_v1 : Ref sig .tc := ⟨.hbm, 13, rfl⟩
abbrev main_c_1 : Ref sig .tc := ⟨.hbm, 14, rfl⟩
abbrev main_v2 : Ref sig .tc := ⟨.hbm, 15, rfl⟩
abbrev main_v3 : Ref sig .tc := ⟨.hbm, 16, rfl⟩
abbrev main_c_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_call0_cst : Ref sig .tc := ⟨.hbm, 88, rfl⟩
abbrev main_call0_v0 : Ref sig .tc := ⟨.hbm, 89, rfl⟩
abbrev main_v66 : Ref sig .tc := ⟨.hbm, 90, rfl⟩
abbrev main_v67 : Ref sig .tc := ⟨.hbm, 91, rfl⟩
abbrev main_cst_11 : Ref sig .tc := ⟨.hbm, 92, rfl⟩
abbrev main_v68 : Ref sig .tc := ⟨.hbm, 93, rfl⟩
abbrev main_cst_12 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_15 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_call1_cst : Ref sig .tc := ⟨.hbm, 122, rfl⟩
abbrev main_call1_v0 : Ref sig .tc := ⟨.hbm, 123, rfl⟩
abbrev main_v93 : Ref sig .tc := ⟨.hbm, 124, rfl⟩
abbrev main_cst_16 : Ref sig .tc := ⟨.hbm, 125, rfl⟩
abbrev main_v94 : Ref sig .tc := ⟨.hbm, 126, rfl⟩

abbrev nD : Nat := 1
abbrev τ : Topo := Topo.v7x

variable {F : FTy → Type} [FloatOps F]

class Facts₀ : Prop where
  slices_S4x12000x32x4_S4x12000x32x3_0_0_0_0 : S4x12000x32x4.Slices ![0, 0, 0, 0] S4x12000x32x3
  slices_S4x12000x32x4_S4x12000x32x1_0_0_0_3 : S4x12000x32x4.Slices ![0, 0, 0, 3] S4x12000x32x1
  bcast_S_S2 : S_.BroadcastsInDim S2 (![] : Fin 0 → Fin S2.rank)
  bcast_S2_S2x1_0 : S2.BroadcastsInDim S2x1 (![0] : Fin 1 → Fin S2x1.rank)
  bcast_S_S4x12000x2 : S_.BroadcastsInDim S4x12000x2 (![] : Fin 0 → Fin S4x12000x2.rank)
  bcast_S2_S1x1x2_2 : S2.BroadcastsInDim S1x1x2 (![2] : Fin 1 → Fin S1x1x2.rank)
  bcast_S1x1x2_S4x12000x2_0_1_2 : S1x1x2.BroadcastsInDim S4x12000x2 (![0, 1, 2] : Fin 3 → Fin S4x12000x2.rank)
  slices_S4x12000x32x3_S4x12000x32x2_0_0_0_0 : S4x12000x32x3.Slices ![0, 0, 0, 0] S4x12000x32x2
  bcast_S4x12000x2_S4x12000x1x2_0_1_3 : S4x12000x2.BroadcastsInDim S4x12000x1x2 (![0, 1, 3] : Fin 3 → Fin S4x12000x1x2.rank)
  bcast_S4x12000x1x2_S4x12000x32x2_0_1_2_3 : S4x12000x1x2.BroadcastsInDim S4x12000x32x2 (![0, 1, 2, 3] : Fin 4 → Fin S4x12000x32x2.rank)
  slices_S4x12000x32x3_S4x12000x32x1_0_0_0_2 : S4x12000x32x3.Slices ![0, 0, 0, 2] S4x12000x32x1
  reducesTo_S4x12000x32x1_S4x12000x1_d2 : S4x12000x32x1.ReducesTo [2] S4x12000x1
  h_S_ : 0 < S_.numel
  bcast_S4x12000x1_S4x12000x1x1_0_1_3 : S4x12000x1.BroadcastsInDim S4x12000x1x1 (![0, 1, 3] : Fin 3 → Fin S4x12000x1x1.rank)
  bcast_S_S4x12000x1x1 : S_.BroadcastsInDim S4x12000x1x1 (![] : Fin 0 → Fin S4x12000x1x1.rank)
  bcast_S4x12000x1x1_S4x12000x32x1_0_1_2_3 : S4x12000x1x1.BroadcastsInDim S4x12000x32x1 (![0, 1, 2, 3] : Fin 4 → Fin S4x12000x32x1.rank)
  concatenates_S4x12000x32x3_S4x12000x32x1_S4x12000x32x2_S4x12000x32x2_S4x12000x32x1_S4x12000x32x9_d3 : Shape.Concatenates [S4x12000x32x3, S4x12000x32x1, S4x12000x32x2, S4x12000x32x2, S4x12000x32x1] S4x12000x32x9 3
  bcast_S32_S1x1x32x1_2 : S32.BroadcastsInDim S1x1x32x1 (![2] : Fin 1 → Fin S1x1x32x1.rank)
  bcast_S4x12000_S4x12000x1x1_0_1 : S4x12000.BroadcastsInDim S4x12000x1x1 (![0, 1] : Fin 2 → Fin S4x12000x1x1.rank)
  bcast_S1x1x32x1_S4x12000x32x1_0_1_2_3 : S1x1x32x1.BroadcastsInDim S4x12000x32x1 (![0, 1, 2, 3] : Fin 4 → Fin S4x12000x32x1.rank)
  bcast_S4x12000x32x1_S4x12000x32x9_0_1_2_3 : S4x12000x32x1.BroadcastsInDim S4x12000x32x9 (![0, 1, 2, 3] : Fin 4 → Fin S4x12000x32x9.rank)
  reducesTo_S4x12000x32x64_S64_d0_1_2 : S4x12000x32x64.ReducesTo [0, 1, 2] S64
  bcast_S_S64 : S_.BroadcastsInDim S64 (![] : Fin 0 → Fin S64.rank)
  bcast_S64_S1x1x1x64_3 : S64.BroadcastsInDim S1x1x1x64 (![3] : Fin 1 → Fin S1x1x1x64.rank)
  bcast_S1x1x1x64_S4x12000x32x64_0_1_2_3 : S1x1x1x64.BroadcastsInDim S4x12000x32x64 (![0, 1, 2, 3] : Fin 4 → Fin S4x12000x32x64.rank)
  bcast_S_S4x12000x32x64 : S_.BroadcastsInDim S4x12000x32x64 (![] : Fin 0 → Fin S4x12000x32x64.rank)
  reducesTo_S4x12000x32x64_S4x12000x64_d2 : S4x12000x32x64.ReducesTo [2] S4x12000x64
  gather_S4x12000x4_S2x1_S4x12000x2_01_2_n_n_2_1_4120001_wf : GatherDims.WF S4x12000x4 S2x1 S4x12000x2 [0, 1] [2] [] [2] [] 1 ![4, 12000, 1]
  dot_S4x12000x32x9_S9x64_S4x12000x32x64_3_0_012_1_n_n_wf : DotDims.WF S4x12000x32x9 S9x64 S4x12000x32x64 [3] [0] [0, 1, 2] [1] [] []
  dot_S4x12000x32x64_S64x64_S4x12000x32x64_3_0_012_1_n_n_wf : DotDims.WF S4x12000x32x64 S64x64 S4x12000x32x64 [3] [0] [0, 1, 2] [1] [] []

variable [Facts₀]

def gather_S4x12000x4_S2x1_S4x12000x2_01_2_n_n_2_1_4120001 : GatherDims S4x12000x4 S2x1 S4x12000x2 where
  offsetDims := [0, 1]
  collapsedSliceDims := [2]
  operandBatchingDims := []
  startIndicesBatchingDims := []
  startIndexMap := [2]
  indexVectorDim := 1
  sliceSizes := ![4, 12000, 1]
  wf := gather_S4x12000x4_S2x1_S4x12000x2_01_2_n_n_2_1_4120001_wf
def dot_S4x12000x32x9_S9x64_S4x12000x32x64_3_0_012_1_n_n : DotDims S4x12000x32x9 S9x64 S4x12000x32x64 where
  lhsContracting := [3]
  rhsContracting := [0]
  lhsNonContracting := [0, 1, 2]
  rhsNonContracting := [1]
  lhsBatch := []
  rhsBatch := []
  wf := dot_S4x12000x32x9_S9x64_S4x12000x32x64_3_0_012_1_n_n_wf
def dot_S4x12000x32x64_S64x64_S4x12000x32x64_3_0_012_1_n_n : DotDims S4x12000x32x64 S64x64 S4x12000x32x64 where
  lhsContracting := [3]
  rhsContracting := [0]
  lhsNonContracting := [0, 1, 2]
  rhsNonContracting := [1]
  lhsBatch := []
  rhsBatch := []
  wf := dot_S4x12000x32x64_S64x64_S4x12000x32x64_3_0_012_1_n_n_wf

class Facts : Prop extends Facts₀ where

variable [Facts]
-- ==== Proof.KChainTable.lean ====
import proofs.«133398_j52536039964809_1_alg».proof.Proof.Gen.KernelIdeal.Frame
import Idealize.ShloMosaic.Lib.StableHlo.Run

noncomputable section

open Idealize.ShloMosaic Idealize.ShloMosaic.TcCoe Idealize.SL.Sem
open Idealize.ShloMosaic.Pipeline (Dat)

namespace Cert.KernelIdeal.Chain

open Cert.KernelIdeal Cert.KernelIdeal.Gen

variable {F : FTy → Type} [FloatOps F]
variable (m : (ℓ : Loc nD τ sig) → Buf (Elt F) ℓ) (ρ : Dev nD → PrngReg)

theorem V1_main_arg0 (c : Dev nD) : V1 m ρ c main_arg0 = m ((c : Thread nD τ).loc main_arg0) :=
  (show StableHlo.after hostOps0 (W0 m ρ c) (Proc.devRef .tc main_arg0) = W0 m ρ c (Proc.devRef .tc main_arg0) from
    StableHlo.after_of_forall_not_mem _ _ (List.forall_iff_forall_mem.mp (by
      simp only [hostOps0, List.Forall, StableHlo.nullary_writes, StableHlo.unary_writes, StableHlo.binary_writes, Finset.mem_singleton]
      repeat' apply And.intro
      all_goals exact StableHlo.devRef_ne_of_ne (by decide)))).trans rfl
theorem V1_main_arg1 (c : Dev nD) : V1 m ρ c main_arg1 = m ((c : Thread nD τ).loc main_arg1) :=
  (show StableHlo.after hostOps0 (W0 m ρ c) (Proc.devRef .tc main_arg1) = W0 m ρ c (Proc.devRef .tc main_arg1) from
    StableHlo.after_of_forall_not_mem _ _ (List.forall_iff_forall_mem.mp (by
      simp only [hostOps0, List.Forall, StableHlo.nullary_writes, StableHlo.unary_writes, StableHlo.binary_writes, Finset.mem_singleton]
      repeat' apply And.intro
      all_goals exact StableHlo.devRef_ne_of_ne (by decide)))).trans rfl
theorem V1_main_arg3 (c : Dev nD) : V1 m ρ c main_arg3 = m ((c : Thread nD τ).loc main_arg3) :=
  (show StableHlo.after hostOps0 (W0 m ρ c) (Proc.devRef .tc main_arg3) = W0 m ρ c (Proc.devRef .tc main_arg3) from
    StableHlo.after_of_forall_not_mem _ _ (List.forall_iff_forall_mem.mp (by
      simp only [hostOps0, List.Forall, StableHlo.nullary_writes, StableHlo.unary_writes, StableHlo.binary_writes, Finset.mem_singleton]
      repeat' apply And.intro
      all_goals exact StableHlo.devRef_ne_of_ne (by decide)))).trans rfl
theorem V1_main_arg4 (c : Dev nD) : V1 m ρ c main_arg4 = m ((c : Thread nD τ).loc main_arg4) :=
  (show StableHlo.after hostOps0 (W0 m ρ c) (Proc.devRef .tc main_arg4) = W0 m ρ c (Proc.devRef .tc main_arg4) from
    StableHlo.after_of_forall_not_mem _ _ (List.forall_iff_forall_mem.mp (by
      simp only [hostOps0, List.Forall, StableHlo.nullary_writes, StableHlo.unary_writes, StableHlo.binary_writes, Finset.mem_singleton]
      repeat' apply And.intro
      all_goals exact StableHlo.devRef_ne_of_ne (by decide)))).trans rfl
theorem V1_main_arg5 (c : Dev nD) : V1 m ρ c main_arg5 = m ((c : Thread nD τ).loc main_arg5) :=
  (show StableHlo.after hostOps0 (W0 m ρ c) (Proc.devRef .tc main_arg5) = W0 m ρ c (Proc.devRef .tc main_arg5) from
    StableHlo.after_of_forall_not_mem _ _ (List.forall_iff_forall_mem.mp (by
      simp only [hostOps0, List.Forall, StableHlo.nullary_writes, StableHlo.unary_writes, StableHlo.binary_writes, Finset.mem_singleton]
      repeat' apply And.intro
      all_goals exact StableHlo.devRef_ne_of_ne (by decide)))).trans rfl
theorem V1_main_arg6 (c : Dev nD) : V1 m ρ c main_arg6 = m ((c : Thread nD τ).loc main_arg6) :=
  (show StableHlo.after hostOps0 (W0 m ρ c) (Proc.devRef .tc main_arg6) = W0 m ρ c (Proc.devRef .tc main_arg6) from
    StableHlo.after_of_forall_not_mem _ _ (List.forall_iff_forall_mem.mp (by
      simp only [hostOps0, List.Forall, StableHlo.nullary_writes, StableHlo.unary_writes, StableHlo.binary_writes, Finset.mem_singleton]
      repeat' apply And.intro
      all_goals exact StableHlo.devRef_ne_of_ne (by decide)))).trans rfl
theorem V1_main_arg7 (c : Dev nD) : V1 m ρ c main_arg7 = m ((c : Thread nD τ).loc main_arg7) :=
  (show StableHlo.after hostOps0 (W0 m ρ c) (Proc.devRef .tc main_arg7) = W0 m ρ c (Proc.devRef .tc main_arg7) from
    StableHlo.after_of_forall_not_mem _ _ (List.forall_iff_forall_mem.mp (by
      simp only [hostOps0, List.Forall, StableHlo.nullary_writes, StableHlo.unary_writes, StableHlo.binary_writes, Finset.mem_singleton]
      repeat' apply And.intro
      all_goals exact StableHlo.devRef_ne_of_ne (by decide)))).trans rfl
theorem V1_main_arg8 (c : Dev nD) : V1 m ρ c main_arg8 = m ((c : Thread nD τ).loc main_arg8) :=
  (show StableHlo.after hostOps0 (W0 m ρ c) (Proc.devRef .tc main_arg8) = W0 m ρ c (Proc.devRef .tc main_arg8) from
    StableHlo.after_of_forall_not_mem _ _ (List.forall_iff_forall_mem.mp (by
      simp only [hostOps0, List.Forall, StableHlo.nullary_writes, StableHlo.unary_writes, StableHlo.binary_writes, Finset.mem_singleton]
      repeat' apply And.intro
      all_goals exact StableHlo.devRef_ne_of_ne (by decide)))).trans rfl
theorem V3_main_arg0 (c : Dev nD) : V3 m ρ c main_arg0 = V1 m ρ c main_arg0 :=
  (show StableHlo.after hostOps1 (W2 m ρ c) (Proc.devRef .tc main_arg0) = W2 m ρ c (Proc.devRef .tc main_arg0) from
    StableHlo.after_of_forall_not_mem _ _ (List.forall_iff_forall_mem.mp (by
      simp only [hostOps1, List.Forall, StableHlo.nullary_writes, StableHlo.unary_writes, StableHlo.binary_writes, Finset.mem_singleton]
      repeat' apply And.intro
      all_goals exact StableHlo.devRef_ne_of_ne (by decide)))).trans ((W2_arr m ρ c 0).trans (((dat0 (V1 m ρ) c).arrAt_in 0 rfl _).trans (A_eq0 (V1 m ρ) c 0)))
theorem V3_main_arg1 (c : Dev nD) : V3 m ρ c main_arg1 = V1 m ρ c main_arg1 :=
  (show StableHlo.after hostOps1 (W2 m ρ c) (Proc.devRef .tc main_arg1) = W2 m ρ c (Proc.devRef .tc main_arg1) from
    StableHlo.after_of_forall_not_mem _ _ (List.forall_iff_forall_mem.mp (by
      simp only [hostOps1, List.Forall, StableHlo.nullary_writes, StableHlo.unary_writes, StableHlo.binary_writes, Finset.mem_singleton]
      repeat' apply And.intro
      all_goals exact StableHlo.devRef_ne_of_ne (by decide)))).trans ((W2_arr m ρ c 1).trans (((dat0 (V1 m ρ) c).arrAt_in 1 rfl _).trans (A_eq0 (V1 m ρ) c 1)))
theorem V3_main_v0 (c : Dev nD) : V3 m ρ c main_v0 = V1 m ρ c main_v0 :=
  (show StableHlo.after hostOps1 (W2 m ρ c) (Proc.devRef .tc main_v0) = W2 m ρ c (Proc.devRef .tc main_v0) from
    StableHlo.after_of_forall_not_mem _ _ (List.forall_iff_forall_mem.mp (by
      simp only [hostOps1, List.Forall, StableHlo.nullary_writes, StableHlo.unary_writes, StableHlo.binary_writes, Finset.mem_singleton]
      repeat' apply And.intro
      all_goals exact StableHlo.devRef_ne_of_ne (by decide)))).trans ((W2_arr m ρ c 2).trans (((dat0 (V1 m ρ) c).arrAt_in 2 rfl _).trans (A_eq0 (V1 m ρ) c 2)))
theorem V3_main_arg3 (c : Dev nD) : V3 m ρ c main_arg3 = V1 m ρ c main_arg3 :=
  (show StableHlo.after hostOps1 (W2 m ρ c) (Proc.devRef .tc main_arg3) = W2 m ρ c (Proc.devRef .tc main_arg3) from
    StableHlo.after_of_forall_not_mem _ _ (List.forall_iff_forall_mem.mp (by
      simp only [hostOps1, List.Forall, StableHlo.nullary_writes, StableHlo.unary_writes, StableHlo.binary_writes, Finset.mem_singleton]
      repeat' apply And.intro
      all_goals exact StableHlo.devRef_ne_of_ne (by decide)))).trans ((W2_arr m ρ c 3).trans (((dat0 (V1 m ρ) c).arrAt_in 3 rfl _).trans (A_eq0 (V1 m ρ) c 3)))
theorem V3_main_arg4 (c : Dev nD) : V3 m ρ c main_arg4 = V1 m ρ c main_arg4 :=
  (show StableHlo.after hostOps1 (W2 m ρ c) (Proc.devRef .tc main_arg4) = W2 m ρ c (Proc.devRef .tc main_arg4) from
    StableHlo.after_of_forall_not_mem _ _ (List.forall_iff_forall_mem.mp (by
      simp only [hostOps1, List.Forall, StableHlo.nullary_writes, StableHlo.unary_writes, StableHlo.binary_writes, Finset.mem_singleton]
      repeat' apply And.intro
      all_goals exact StableHlo.devRef_ne_of_ne (by decide)))).trans (W2_of_ne m ρ c main_arg4 (by decide))
theorem V3_main_arg5 (c : Dev nD) : V3 m ρ c main_arg5 = V1 m ρ c main_arg5 :=
  (show StableHlo.after hostOps1 (W2 m ρ c) (Proc.devRef .tc main_arg5) = W2 m ρ c (Proc.devRef .tc main_arg5) from
    StableHlo.after_of_forall_not_mem _ _ (List.forall_iff_forall_mem.mp (by
      simp only [hostOps1, List.Forall, StableHlo.nullary_writes, StableHlo.unary_writes, StableHlo.binary_writes, Finset.mem_singleton]
      repeat' apply And.intro
      all_goals exact StableHlo.devRef_ne_of_ne (by decide)))).trans (W2_of_ne m ρ c main_arg5 (by decide))
theorem V3_main_arg6 (c : Dev nD) : V3 m ρ c main_arg6 = V1 m ρ c main_arg6 :=
  (show StableHlo.after hostOps1 (W2 m ρ c) (Proc.devRef .tc main_arg6) = W2 m ρ c (Proc.devRef .tc main_arg6) from
    StableHlo.after_of_forall_not_mem _ _ (List.forall_iff_forall_mem.mp (by
      simp only [hostOps1, List.Forall, StableHlo.nullary_writes, StableHlo.unary_writes, StableHlo.binary_writes, Finset.mem_singleton]
      repeat' apply And.intro
      all_goals exact StableHlo.devRef_ne_of_ne (by decide)))).trans (W2_of_ne m ρ c main_arg6 (by decide))
theorem V3_main_arg7 (c : Dev nD) : V3 m ρ c main_arg7 = V1 m ρ c main_arg7 :=
  (show StableHlo.after hostOps1 (W2 m ρ c) (Proc.devRef .tc main_arg7) = W2 m ρ c (Proc.devRef .tc main_arg7) from
    StableHlo.after_of_forall_not_mem _ _ (List.forall_iff_forall_mem.mp (by
      simp only [hostOps1, List.Forall, StableHlo.nullary_writes, StableHlo.unary_writes, StableHlo.binary_writes, Finset.mem_singleton]
      repeat' apply And.intro
      all_goals exact StableHlo.devRef_ne_of_ne (by decide)))).trans (W2_of_ne m ρ c main_arg7 (by decide))
theorem V3_main_arg8 (c : Dev nD) : V3 m ρ c main_arg8 = V1 m ρ c main_arg8 :=
  (show StableHlo.after hostOps1 (W2 m ρ c) (Proc.devRef .tc main_arg8) = W2 m ρ c (Proc.devRef .tc main_arg8) from
    StableHlo.after_of_forall_not_mem _ _ (List.forall_iff_forall_mem.mp (by
      simp only [hostOps1, List.Forall, StableHlo.nullary_writes, StableHlo.unary_writes, StableHlo.binary_writes, Finset.mem_singleton]
      repeat' apply And.intro
      all_goals exact StableHlo.devRef_ne_of_ne (by decide)))).trans (W2_of_ne m ρ c main_arg8 (by decide))
theorem V5_main_arg0 (c : Dev nD) : V5 m ρ c main_arg0 = V3 m ρ c main_arg0 :=
  (show StableHlo.after hostOps2 (W4 m ρ c) (Proc.devRef .tc main_arg0) = W4 m ρ c (Proc.devRef .tc main_arg0) from
    StableHlo.after_of_forall_not_mem _ _ (List.forall_iff_forall_mem.mp (by
      simp only [hostOps2, List.Forall, StableHlo.nullary_writes, StableHlo.unary_writes, StableHlo.binary_writes, Finset.mem_singleton]
      repeat' apply And.intro
      all_goals exact StableHlo.devRef_ne_of_ne (by decide)))).trans ((W4_arr m ρ c 0).trans (((dat1 (V3 m ρ) c).arrAt_in 0 rfl _).trans (A_eq1 (V3 m ρ) c 0)))
theorem V5_main_arg1 (c : Dev nD) : V5 m ρ c main_arg1 = V3 m ρ c main_arg1 :=
  (show StableHlo.after hostOps2 (W4 m ρ c) (Proc.devRef .tc main_arg1) = W4 m ρ c (Proc.devRef .tc main_arg1) from
    StableHlo.after_of_forall_not_mem _ _ (List.forall_iff_forall_mem.mp (by
      simp only [hostOps2, List.Forall, StableHlo.nullary_writes, StableHlo.unary_writes, StableHlo.binary_writes, Finset.mem_singleton]
      repeat' apply And.intro
      all_goals exact StableHlo.devRef_ne_of_ne (by decide)))).trans ((W4_arr m ρ c 1).trans (((dat1 (V3 m ρ) c).arrAt_in 1 rfl _).trans (A_eq1 (V3 m ρ) c 1)))
theorem V5_main_v0 (c : Dev nD) : V5 m ρ c main_v0 = V3 m ρ c main_v0 :=
  (show StableHlo.after hostOps2 (W4 m ρ c) (Proc.devRef .tc main_v0) = W4 m ρ c (Proc.devRef .tc main_v0) from
    StableHlo.after_of_forall_not_mem _ _ (List.forall_iff_forall_mem.mp (by
      simp only [hostOps2, List.Forall, StableHlo.nullary_writes, StableHlo.unary_writes, StableHlo.binary_writes, Finset.mem_singleton]
      repeat' apply And.intro
      all_goals exact StableHlo.devRef_ne_of_ne (by decide)))).trans ((W4_arr m ρ c 2).trans (((dat1 (V3 m ρ) c).arrAt_in 2 rfl _).trans (A_eq1 (V3 m ρ) c 2)))
theorem V5_main_arg3 (c : Dev nD) : V5 m ρ c main_arg3 = V3 m ρ c main_arg3 :=
  (show StableHlo.after hostOps2 (W4 m ρ c) (Proc.devRef .tc main_arg3) = W4 m ρ c (Proc.devRef .tc main_arg3) from
    StableHlo.after_of_forall_not_mem _ _ (List.forall_iff_forall_mem.mp (by
      simp only [hostOps2, List.Forall, StableHlo.nullary_writes, StableHlo.unary_writes, StableHlo.binary_writes, Finset.mem_singleton]
      repeat' apply And.intro
      all_goals exact StableHlo.devRef_ne_of_ne (by decide)))).trans ((W4_arr m ρ c 3).trans (((dat1 (V3 m ρ) c).arrAt_in 3 rfl _).trans (A_eq1 (V3 m ρ) c 3)))
theorem V5_main_arg4 (c : Dev nD) : V5 m ρ c main_arg4 = V3 m ρ c main_arg4 :=
  (show StableHlo.after hostOps2 (W4 m ρ c) (Proc.devRef .tc main_arg4) = W4 m ρ c (Proc.devRef .tc main_arg4) from
    StableHlo.after_of_forall_not_mem _ _ (List.forall_iff_forall_mem.mp (by
      simp only [hostOps2, List.Forall, StableHlo.nullary_writes, StableHlo.unary_writes, StableHlo.binary_writes, Finset.mem_singleton]
      repeat' apply And.intro
      all_goals exact StableHlo.devRef_ne_of_ne (by decide)))).trans ((W4_arr m ρ c 4).trans (((dat1 (V3 m ρ) c).arrAt_in 4 rfl _).trans (A_eq1 (V3 m ρ) c 4)))
theorem V5_main_arg5 (c : Dev nD) : V5 m ρ c main_arg5 = V3 m ρ c main_arg5 :=
  (show StableHlo.after hostOps2 (W4 m ρ c) (Proc.devRef .tc main_arg5) = W4 m ρ c (Proc.devRef .tc main_arg5) from
    StableHlo.after_of_forall_not_mem _ _ (List.forall_iff_forall_mem.mp (by
      simp only [hostOps2, List.Forall, StableHlo.nullary_writes, StableHlo.unary_writes, StableHlo.binary_writes, Finset.mem_singleton]
      repeat' apply And.intro
      all_goals exact StableHlo.devRef_ne_of_ne (by decide)))).trans ((W4_arr m ρ c 5).trans (((dat1 (V3 m ρ) c).arrAt_in 5 rfl _).trans (A_eq1 (V3 m ρ) c 5)))
theorem V5_main_v3 (c : Dev nD) : V5 m ρ c main_v3 = V3 m ρ c main_v3 :=
  (show StableHlo.after hostOps2 (W4 m ρ c) (Proc.devRef .tc main_v3) = W4 m ρ c (Proc.devRef .tc main_v3) from
    StableHlo.after_of_forall_not_mem _ _ (List.forall_iff_forall_mem.mp (by
      simp only [hostOps2, List.Forall, StableHlo.nullary_writes, StableHlo.unary_writes, StableHlo.binary_writes, Finset.mem_singleton]
      repeat' apply And.intro
      all_goals exact StableHlo.devRef_ne_of_ne (by decide)))).trans ((W4_arr m ρ c 6).trans (((dat1 (V3 m ρ) c).arrAt_in 6 rfl _).trans (A_eq1 (V3 m ρ) c 6)))
theorem V5_main_v7 (c : Dev nD) : V5 m ρ c main_v7 = V3 m ρ c main_v7 :=
  (show StableHlo.after hostOps2 (W4 m ρ c) (Proc.devRef .tc main_v7) = W4 m ρ c (Proc.devRef .tc main_v7) from
    StableHlo.after_of_forall_not_mem _ _ (List.forall_iff_forall_mem.mp (by
      simp only [hostOps2, List.Forall, StableHlo.nullary_writes, StableHlo.unary_writes, StableHlo.binary_writes, Finset.mem_singleton]
      repeat' apply And.intro
      all_goals exact StableHlo.devRef_ne_of_ne (by decide)))).trans ((W4_arr m ρ c 7).trans (((dat1 (V3 m ρ) c).arrAt_in 7 rfl _).trans (A_eq1 (V3 m ρ) c 7)))
theorem V5_main_arg6 (c : Dev nD) : V5 m ρ c main_arg6 = V3 m ρ c main_arg6 :=
  (show StableHlo.after hostOps2 (W4 m ρ c) (Proc.devRef .tc main_arg6) = W4 m ρ c (Proc.devRef .tc main_arg6) from
    StableHlo.after_of_forall_not_mem _ _ (List.forall_iff_forall_mem.mp (by
      simp only [hostOps2, List.Forall, StableHlo.nullary_writes, StableHlo.unary_writes, StableHlo.binary_writes, Finset.mem_singleton]
      repeat' apply And.intro
      all_goals exact StableHlo.devRef_ne_of_ne (by decide)))).trans ((W4_arr m ρ c 8).trans (((dat1 (V3 m ρ) c).arrAt_in 8 rfl _).trans (A_eq1 (V3 m ρ) c 8)))
theorem V5_main_arg7 (c : Dev nD) : V5 m ρ c main_arg7 = V3 m ρ c main_arg7 :=
  (show StableHlo.after hostOps2 (W4 m ρ c) (Proc.devRef .tc main_arg7) = W4 m ρ c (Proc.devRef .tc main_arg7) from
    StableHlo.after_of_forall_not_mem _ _ (List.forall_iff_forall_mem.mp (by
      simp only [hostOps2, List.Forall, StableHlo.nullary_writes, StableHlo.unary_writes, StableHlo.binary_writes, Finset.mem_singleton]
      repeat' apply And.intro
      all_goals exact StableHlo.devRef_ne_of_ne (by decide)))).trans (W4_of_ne m ρ c main_arg7 (by decide))
theorem V5_main_arg8 (c : Dev nD) : V5 m ρ c main_arg8 = V3 m ρ c main_arg8 :=
  (show StableHlo.after hostOps2 (W4 m ρ c) (Proc.devRef .tc main_arg8) = W4 m ρ c (Proc.devRef .tc main_arg8) from
    StableHlo.after_of_forall_not_mem _ _ (List.forall_iff_forall_mem.mp (by
      simp only [hostOps2, List.Forall, StableHlo.nullary_writes, StableHlo.unary_writes, StableHlo.binary_writes, Finset.mem_singleton]
      repeat' apply And.intro
      all_goals exact StableHlo.devRef_ne_of_ne (by decide)))).trans (W4_of_ne m ρ c main_arg8 (by decide))

end Cert.KernelIdeal.Chain

end
-- ==== Proof.Spec.lean ====
/-
  The mathematics of the pillar feature network, stated once over the extended reals, index by index.

  A point cloud is cut into pillars: `vox` holds, for each of 4 × 12000 pillars, up to 32 points with 4 channels
  (x, y, z, r); `coords` the pillar's grid cell; `npts` how many of its 32 slots hold a real point. Each point is
  decorated to 9 features — its 4 channels, its offset from the pillar's centre in x and y, that centre, and the mean
  z of the pillar's slots — and the features of an empty slot are multiplied by 0. Two linear layers follow, each
  normalised per output channel by the mean and the (biased) variance over ALL 4 · 12000 · 32 points, scaled, shifted and
  clipped below at 0; the result is the maximum over a pillar's 32 slots.

  The variance is written twice: `varK`, the mean of the squares minus the square of the mean, and `varR`, the mean of
  the squared deviations. Over the reals they are one number; `outK` and `outR` are the network with the one and with
  the other.
-/
import Idealize.ShloMosaic.PureOps.Ideal
import Idealize.ShloMosaic.Lib.ValueIdx

noncomputable section

open scoped BigOperators

namespace Cert.PFN

open Idealize.ShloMosaic Idealize.ShloMosaic.ValueIdx

/-! ## The arrays' shapes -/

abbrev SVox : Shape := ⟨4, ![4, 12000, 32, 4]⟩
abbrev SCoord : Shape := ⟨3, ![4, 12000, 4]⟩
abbrev SNpts : Shape := ⟨2, ![4, 12000]⟩
abbrev SW1 : Shape := ⟨2, ![9, 64]⟩
abbrev SW2 : Shape := ⟨2, ![64, 64]⟩
abbrev SC : Shape := ⟨1, ![64]⟩
abbrev SOut : Shape := ⟨3, ![4, 12000, 64]⟩

/-- A value per point and output channel. -/
abbrev Act : Type := Fin 4 → Fin 12000 → Fin 32 → Fin 64 → EReal

/-! ## The constants, as the words both programs spell -/

/-- one half -/
abbrev cHalf : EReal := Ideal.ofBits .f32 0x3F000000#32
/-- the cell's edge, 0.16 as a float -/
abbrev cCell : EReal := Ideal.ofBits .f32 0x3E23D70A#32
/-- the grid's origin in x, zero -/
abbrev cZero : EReal := Ideal.ofBits .f32 0x00000000#32
/-- the grid's origin in y, -39.68 as a float -/
abbrev cOrgY : EReal := Ideal.ofBits .f32 0xC21EB852#32
/-- the slots of a pillar, 32 -/
abbrev cSlots : EReal := Ideal.ofBits .f32 0x42000000#32
/-- the number of points, 4 · 12000 · 32 = 1536000 -/
abbrev cCount : EReal := Ideal.ofBits .f32 0x49BB8000#32
/-- the variance's guard, 0.001 as a float -/
abbrev cEps : EReal := Ideal.ofBits .f32 0x3A83126F#32
/-- minus infinity, where a maximum starts -/
abbrev cNegInf : EReal := Ideal.ofBits .f32 0xFF800000#32

section Features

variable (vox : SVox.Idx → EReal) (coords : SCoord.Idx → BitVec 32) (npts : SNpts.Idx → BitVec 32)

/-- The pillar's centre in x: (cell index + 1/2) · edge + origin. -/
def cx (b : Fin 4) (p : Fin 12000) : EReal :=
  ((((coords (ix3 b p 3)).toInt : ℝ) : EReal) + cHalf) * cCell + cZero

/-- The pillar's centre in y. -/
def cy (b : Fin 4) (p : Fin 12000) : EReal :=
  ((((coords (ix3 b p 2)).toInt : ℝ) : EReal) + cHalf) * cCell + cOrgY

/-- The mean z of the pillar's 32 slots. -/
def zmean (b : Fin 4) (p : Fin 12000) : EReal :=
  Ideal.div (∑ q : Fin 32, vox (ix4 b p q 2)) cSlots

/-- Slot `q` of pillar (b, p) holds a point: `q < npts`, compared signed, as one bit. -/
def mbit (b : Fin 4) (p : Fin 12000) (q : Fin 32) : BitVec 1 :=
  IntOp.cmpi .slt (BitVec.ofNat 32 q.val) (npts (ix2 b p))

/-- The same as a number, 0 or 1. -/
def mask (b : Fin 4) (p : Fin 12000) (q : Fin 32) : EReal :=
  (((mbit npts b p q).toNat : ℝ) : EReal)

/-- The nine features of a point before the mask. -/
def rawFeat (b : Fin 4) (p : Fin 12000) (q : Fin 32) : Fin 9 → EReal :=
  ![vox (ix4 b p q 0), vox (ix4 b p q 1), vox (ix4 b p q 2), vox (ix4 b p q 3),
    vox (ix4 b p q 0) - cx coords b p, vox (ix4 b p q 1) - cy coords b p,
    cx coords b p, cy coords b p, zmean vox b p]

/-- The nine features of a point, an empty slot's multiplied by 0. -/
def feat (b : Fin 4) (p : Fin 12000) (q : Fin 32) (k : Fin 9) : EReal :=
  rawFeat vox coords b p q k * mask npts b p q

/-- The first linear layer. -/
def lin1 (w1 : SW1.Idx → EReal) : Act :=
  fun b p q o => ∑ k : Fin 9, feat vox coords npts b p q k * w1 (ix2 k o)

end Features

/-! ## Statistics over all points, normalisation, the second layer, the pooling -/

/-- The sum over all points, per channel. -/
def tot (x : Act) (o : Fin 64) : EReal := ∑ b : Fin 4, ∑ p : Fin 12000, ∑ q : Fin 32, x b p q o

/-- The squares. -/
def sq (x : Act) : Act := fun b p q o => x b p q o * x b p q o

/-- The mean over all points. -/
def mean (x : Act) (o : Fin 64) : EReal := Ideal.div (tot x o) cCount

/-- The variance as the mean of the squares minus the square of the mean. -/
def varK (x : Act) (o : Fin 64) : EReal := Ideal.div (tot (sq x) o) cCount - mean x o * mean x o

/-- The deviations from the mean. -/
def dev (x : Act) : Act := fun b p q o => x b p q o - mean x o

/-- The variance as the mean of the squared deviations. -/
def varR (x : Act) (o : Fin 64) : EReal := Ideal.div (tot (sq (dev x)) o) cCount

/-- Normalise by a mean and a variance, scale, shift, clip below at zero. -/
def bnrelu (x : Act) (mu var : Fin 64 → EReal) (g be : SC.Idx → EReal) : Act :=
  fun b p q o => max (((x b p q o - mu o) * Ideal.rsqrt (var o + cEps)) * g (ix1 o) + be (ix1 o)) cZero

/-- The second linear layer. -/
def lin2 (h : Act) (w2 : SW2.Idx → EReal) : Act :=
  fun b p q o => ∑ k : Fin 64, h b p q k * w2 (ix2 k o)

/-- The maximum over a pillar's 32 slots. -/
def pool (h : Act) : SOut.Idx → EReal :=
  fun i => (Finset.univ : Finset (Fin 32)).fold max cNegInf (fun q => h (i 0) (i 1) q (i 2))

section Net

variable (var : Act → Fin 64 → EReal)
variable (vox : SVox.Idx → EReal) (coords : SCoord.Idx → BitVec 32) (npts : SNpts.Idx → BitVec 32)
  (w1 : SW1.Idx → EReal) (g1 b1 : SC.Idx → EReal) (w2 : SW2.Idx → EReal) (g2 b2 : SC.Idx → EReal)

/-- The first layer's activations, the variance computed by `var`. -/
def act1 : Act := bnrelu (lin1 vox coords npts w1) (mean (lin1 vox coords npts w1)) (var (lin1 vox coords npts w1)) g1 b1

/-- The second layer before its normalisation. -/
def pre2 : Act := lin2 (act1 var vox coords npts w1 g1 b1) w2

/-- The whole network, the variance computed by `var`. -/
def out : SOut.Idx → EReal :=
  pool (bnrelu (pre2 var vox coords npts w1 g1 b1 w2) (mean (pre2 var vox coords npts w1 g1 b1 w2))
    (var (pre2 var vox coords npts w1 g1 b1 w2)) g2 b2)

end Net

/-- The network with the variance as the mean of squares minus the squared mean. -/
abbrev outK := out varK
/-- The network with the variance as the mean of the squared deviations. -/
abbrev outR := out varR

end Cert.PFN

end
-- ==== Proof.SumLemmas.lean ====
/-
  Sums over the points of the cloud, regrouped: the 12000 pillars of a batch entry are 60 blocks of 200, and the
  25600 points of a block (4 batch entries × 200 pillars × 32 slots) are numbered row-major.
-/
import proofs.«133398_j52536039964809_1_alg».proof.Proof.Spec
import Idealize.ShloMosaic.PureOps.Ideal.Laws
import Mathlib.Algebra.BigOperators.Fin

noncomputable section

open scoped BigOperators

namespace Cert.PFN

open Idealize.ShloMosaic Idealize.ShloMosaic.ValueIdx

/-- Row of slot `q` of the block's pillar (b, p): (b · 200 + p) · 32 + q. -/
def row (b : Fin 4) (p : Fin 200) (q : Fin 32) : Fin 25600 :=
  ⟨(b.val * 200 + p.val) * 32 + q.val, by have := b.isLt; have := p.isLt; have := q.isLt; omega⟩

/-- Pillar `p` of block `t` among the 12000 pillars of a batch entry: 200 · t + p. -/
def pil (t : Fin 60) (p : Fin 200) : Fin 12000 := ⟨200 * t.val + p.val, by have := t.isLt; have := p.isLt; omega⟩

/-- The index i · n + j of the pair (i, j) lies below m · n. -/
theorem pair_lt {m n : ℕ} (i : Fin m) (j : Fin n) : i.val * n + j.val < m * n := by
  have hi := i.isLt
  have hj := j.isLt
  calc i.val * n + j.val < i.val * n + n := by omega
    _ = (i.val + 1) * n := by ring
    _ ≤ m * n := Nat.mul_le_mul_right n hi

/-- A sum over m · n indices is the sum over the pairs (i, j), the pair numbered i · n + j: every index below
m · n is i · n + j for exactly one pair (quotient and remainder by n). -/
theorem sum_fin_pairs {M : Type*} [AddCommMonoid M] (m n N : ℕ) (h : N = m * n) (f : Fin N → M) :
    ∑ r : Fin N, f r = ∑ i : Fin m, ∑ j : Fin n, f ⟨i.val * n + j.val, h ▸ pair_lt i j⟩ := by
  subst h
  rw [← finProdFinEquiv.sum_comp, Fintype.sum_prod_type]
  refine Finset.sum_congr rfl fun i _ => Finset.sum_congr rfl fun j _ => ?_
  congr 1
  apply Fin.ext
  simp only [finProdFinEquiv_apply_val]
  ring

/-- A sum over the 25600 rows of a block is the sum over batch entry, pillar and slot. -/
theorem sum_rows {M : Type*} [AddCommMonoid M] (f : Fin 25600 → M) :
    ∑ r : Fin 25600, f r = ∑ b : Fin 4, ∑ p : Fin 200, ∑ q : Fin 32, f (row b p q) := by
  -- first the 25600 rows as 800 pillars of 32 slots, then the 800 pillars as 4 batch entries of 200
  rw [sum_fin_pairs 800 32 25600 (by norm_num) f,
    sum_fin_pairs 4 200 800 (by norm_num) (fun a : Fin 800 => ∑ q : Fin 32, f ⟨a.val * 32 + q.val, pair_lt a q⟩)]
  rfl

/-- A sum over the 12000 pillars is the sum over the 60 blocks of the sums over a block's 200. -/
theorem sum_pillars {M : Type*} [AddCommMonoid M] (g : Fin 12000 → M) :
    ∑ p : Fin 12000, g p = ∑ t : Fin 60, ∑ p : Fin 200, g (pil t p) := by
  rw [sum_fin_pairs 60 200 12000 (by norm_num) g]
  refine Finset.sum_congr rfl fun t _ => Finset.sum_congr rfl fun p _ => ?_
  congr 1
  apply Fin.ext
  simp only [pil]
  ring

/-- The total over all points, block by block and row by row. -/
theorem tot_eq_blocks (x : Act) (o : Fin 64) :
    tot x o = ∑ t : Fin 60, ∑ b : Fin 4, ∑ p : Fin 200, ∑ q : Fin 32, x b (pil t p) q o := by
  -- per batch entry the pillars regroup into blocks; then the sums over batch entries and over blocks change places
  have h : ∀ b : Fin 4, ∑ p : Fin 12000, ∑ q : Fin 32, x b p q o
      = ∑ t : Fin 60, ∑ p : Fin 200, ∑ q : Fin 32, x b (pil t p) q o :=
    fun b => sum_pillars (fun p : Fin 12000 => ∑ q : Fin 32, x b p q o)
  unfold tot
  rw [Finset.sum_congr rfl (fun b _ => h b)]
  exact Finset.sum_comm

/-- The zero word denotes zero. -/
theorem cZero_eq : cZero = 0 := Ideal.ofBits_zero_f32

end Cert.PFN

end
-- ==== Proof.KBlock.lean ====
/-
  A block of 4 × 200 pillars, as each of the three passes reads it: the 25600 points of the block are the rows of a
  matrix, row (b · 200 + p) · 32 + q for slot q of the block's pillar (b, p). What a pass computes on a block is, row by
  row, what the network computes point by point. Here are the two pieces the passes share: the first linear layer on a
  block, and the normalisation of rows by a mean and a variance per channel.
-/
import proofs.«133398_j52536039964809_1_alg».proof.KernelIdeal
import proofs.«133398_j52536039964809_1_alg».proof.Proof.Gen.KernelIdeal.Skeleton

noncomputable section

open scoped BigOperators

namespace Cert.KernelIdeal.Blk

open Idealize.ShloMosaic Cert.KernelIdeal Cert.KernelIdeal.Gen

variable {F : FTy → Type} [FloatOps F]

/-- The first linear layer on a block: the matrix of its 25600 points' nine masked features times the 9 × 64 weights. -/
def h1preB (x0 : Vec F S4x200x32x4 .f32) (x1 : Vec F S4x200x4 .i32) (x2 : Vec F S4x200x1 .i32) (w : Vec F S9x64 .f32) :
    FVec F S25600x64 .f32 :=
  k0_pay1 (k0_pay6 x2) (k0_pay7 x0) (k0_pay8 x0) (k0_pay9 x1) (k0_pay10 x1) (k0_pay11 x0 x1) w

/-- Rows normalised by a mean and a variance per channel, scaled and shifted (not yet clipped). -/
def bnB (x : FVec F S25600x64 .f32) (mu var g be : Vec F S64 .f32) : FVec F S25600x64 .f32 :=
  addf (mulf (mulf (subf x (broadcastTo S25600x64 (shapeCast S1x64 (shapeCast S64 mu shapeCasts_S64_S64) shapeCasts_S64_S1x64) broadcasts_S1x64_S25600x64))
      (broadcastTo S25600x64 (shapeCast S1x64 (rsqrt (addf (shapeCast S64 var shapeCasts_S64_S64) (broadcast S64 (Scalar.ofBits .f32 0x3A83126F#32)))) shapeCasts_S64_S1x64) broadcasts_S1x64_S25600x64))
      (broadcastTo S25600x64 (shapeCast S1x64 g shapeCasts_S64_S1x64) broadcasts_S1x64_S25600x64))
    (broadcastTo S25600x64 (shapeCast S1x64 be shapeCasts_S64_S1x64) broadcasts_S1x64_S25600x64)

end Cert.KernelIdeal.Blk

end
-- ==== Proof.KFeat.lean ====
/-
  The first linear layer on a block, read at a row and a channel: row (b · 200 + p) · 32 + q of block t is point
  (b, 200 t + p, q) of the cloud, and its nine masked features are the network's.
-/
import proofs.«133398_j52536039964809_1_alg».proof.Proof.KBlock
import proofs.«133398_j52536039964809_1_alg».proof.Proof.SumLemmas
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Blk

open Idealize.ShloMosaic Idealize.ShloMosaic.ValueIdx Cert.KernelIdeal Cert.KernelIdeal.Gen Cert.PFN

namespace Feat

/-! ## Layout operations of the block's shapes, read at coordinates -/

section Layout
variable {α : Type}

/-- A rank-4 array cut along its last axis from `o` reads, at `(a, b, c, j)`, the source at `(a, b, c, k)` with
`k = o + j`. -/
theorem slice4_axis3_apply {n0 n1 n2 n3 m : Nat} (o : Nat) (X : (⟨4, ![n0, n1, n2, n3]⟩ : Shape).Idx → α)
    (h : (⟨4, ![n0, n1, n2, n3]⟩ : Shape).Slices ![0, 0, 0, o] ⟨4, ![n0, n1, n2, m]⟩)
    (a : Fin n0) (b : Fin n1) (c : Fin n2) (j : Fin m) (k : Fin n3) (hk : k.val = o + j.val) :
    extractStridedSlice ⟨4, ![n0, n1, n2, m]⟩ ![0, 0, 0, o] X h (ix4 a b c j) = X (ix4 a b c k) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => exact hk)

/-- A rank-3 array cut along its last axis from `o` reads, at `(a, b, j)`, the source at `(a, b, k)` with `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- An `[a, b, c, 1]` array cast to `[a, b, c]` reads, at `(i, j, k)`, the operand at `(i, j, k, 0)`. -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- An `[a, b, c]` array cast to `[a, b, c, 1]` reads, at `(i, j, k, u)`, the operand at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b, c]` array cast to `[a, b, 1, c]` reads, at `(i, j, u, k)`, the operand at `(i, j, k)`. -/
theorem shapeCast_abc_ab1c_apply {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_four, Shape.rowMajor_val_three]
    show (i.val * b + j.val) * c + k.val = ((i.val * b + j.val) * 1 + u.val) * c + k.val
    rw [hu, Nat.mul_one, Nat.add_zero])

/-- The 25600 rows of a block: row (b · 200 + p) · 32 + q, column k, of the matrix is entry (b, p, q, k) of the block. -/
theorem shapeCast_rows_apply {n : ℕ} (x : (⟨4, ![4, 200, 32, n]⟩ : Shape).Idx → α)
    (h : (⟨4, ![4, 200, 32, n]⟩ : Shape).ShapeCasts ⟨2, ![25600, n]⟩) (b : Fin 4) (p : Fin 200) (q : Fin 32) (k : Fin n) :
    shapeCast ⟨2, ![25600, n]⟩ x h (ix2 (row b p q) k) = x (ix4 b p q k) :=
  shapeCast_apply x h _ _ (by
    rw [Shape.rowMajor_val_four, Shape.rowMajor_val_two]
    rfl)

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b, 1, d]` array broadcast to `[a, b, c, d]` reads, at `(i, j, k, l)`, the operand at `(i, j, 0, l)`. -/
theorem broadcastTo_ab1d_abcd_apply {a b c d : ℕ} (v : (⟨4, ![a, b, 1, d]⟩ : Shape).Idx → α)
    (h : (⟨4, ![a, b, 1, d]⟩ : Shape).Broadcasts ⟨4, ![a, b, c, d]⟩) (i : Fin a) (j : Fin b) (k : Fin c) (l : Fin d) :
    broadcastTo ⟨4, ![a, b, c, d]⟩ v h (ix4 i j k l) = v (ix4 i j (0 : Fin 1) l) := by
  refine broadcastTo_apply v h (ix4 i j k l) (ix4 i j (0 : Fin 1) l) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl
  | ⟨3, _⟩ =>
    show l.val = if d = 1 then 0 else l.val
    split
    · have := l.isLt; omega
    · rfl

/-- An `[a, b, c, 1]` array broadcast to `[a, b, c, d]` reads, at `(i, j, k, l)`, the operand at `(i, j, k, 0)`. -/
theorem broadcastTo_abc1_abcd_apply {a b c d : ℕ} (v : (⟨4, ![a, b, c, 1]⟩ : Shape).Idx → α)
    (h : (⟨4, ![a, b, c, 1]⟩ : Shape).Broadcasts ⟨4, ![a, b, c, d]⟩) (i : Fin a) (j : Fin b) (k : Fin c) (l : Fin d) :
    broadcastTo ⟨4, ![a, b, c, d]⟩ v h (ix4 i j k l) = v (ix4 i j k (0 : Fin 1)) := by
  refine broadcastTo_apply v h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

end Layout

/-! ## The matrix product, the concatenations and the lane sum, read at coordinates -/

section Ops
variable {α : Type}

/-- The product of a block's 25600 × 9 feature matrix with the 9 × 64 weights into a zero accumulator, at a row and a
    channel: the sum over the nine features. -/
theorem matmul9_apply {φ₁ φ₂ : FTy} (A : FVec Ideal S25600x9 φ₁) (B : FVec Ideal S9x64 φ₂) (r : Fin 25600) (o : Fin 64) :
    matmul dot_S25600x9_S9x64_S25600x64_1_0_0_1_n_n none A B (constant S25600x64 .f32 0x00000000#32) (ix2 r o)
      = ∑ k : Fin 9, A (ix2 r k) * B (ix2 k o) := by
  show FloatOps.matmul _ none A B _ (ix2 r o) = _
  rw [Ideal.matmul_constant_zero_apply,
    ← Equiv.sum_comp (contrEquiv1 dot_S25600x9_S9x64_S25600x64_1_0_0_1_n_n 9 rfl rfl).symm]
  refine Finset.sum_congr rfl fun c _ => ?_
  have c2 := contrEquiv1_symm_val dot_S25600x9_S9x64_S25600x64_1_0_0_1_n_n 9 rfl rfl c
  have l2 : dot_S25600x9_S9x64_S25600x64_1_0_0_1_n_n.lhsIdx (ix2 r o) ((contrEquiv1 _ 9 rfl rfl).symm c) = ix2 r c := by
    funext ax; apply Fin.ext
    match ax with
    | ⟨0, _⟩ => simp [DotDims.lhsIdx, dot_S25600x9_S9x64_S25600x64_1_0_0_1_n_n]; rfl
    | ⟨1, _⟩ => simp [DotDims.lhsIdx, dot_S25600x9_S9x64_S25600x64_1_0_0_1_n_n]; exact c2
  have r2 : dot_S25600x9_S9x64_S25600x64_1_0_0_1_n_n.rhsIdx (ix2 r o) ((contrEquiv1 _ 9 rfl rfl).symm c) = ix2 c o := by
    funext ax; apply Fin.ext
    match ax with
    | ⟨0, _⟩ => simp [DotDims.rhsIdx, dot_S25600x9_S9x64_S25600x64_1_0_0_1_n_n]; exact c2
    | ⟨1, _⟩ => simp [DotDims.rhsIdx, dot_S25600x9_S9x64_S25600x64_1_0_0_1_n_n]; rfl
  rw [l2, r2]

end Ops

/-! ## The concatenations read at a column -/

section Cat
variable {α : Type}

/-- Two columns side by side, `[a, b, c, 1]` twice into `[a, b, c, 2]`: column 0 is the first. -/
theorem cat2_axis3_left {a b c : ℕ} (x₁ x₂ : (⟨4, ![a, b, c, 1]⟩ : Shape).Idx → α)
    (h : Shape.Concatenates [⟨4, ![a, b, c, 1]⟩, ⟨4, ![a, b, c, 1]⟩] ⟨4, ![a, b, c, 2]⟩ 3)
    (i : Fin a) (j : Fin b) (k : Fin c) :
    concatenate (⟨4, ![a, b, c, 2]⟩ : Shape) 3 [⟨⟨4, ![a, b, c, 1]⟩, x₁⟩, ⟨⟨4, ![a, b, c, 1]⟩, x₂⟩] h (ix4 i j k (0 : Fin 2))
      = x₁ (ix4 i j k (0 : Fin 1)) :=
  concatenate_pair_apply_left _ x₁ x₂ h _ rfl _ (fun ax => by
    match ax with
    | ⟨0, _⟩ => rfl
    | ⟨1, _⟩ => rfl
    | ⟨2, _⟩ => rfl
    | ⟨3, _⟩ => rfl)

/-- … and column 1 is the second. -/
theorem cat2_axis3_right {a b c : ℕ} (x₁ x₂ : (⟨4, ![a, b, c, 1]⟩ : Shape).Idx → α)
    (h : Shape.Concatenates [⟨4, ![a, b, c, 1]⟩, ⟨4, ![a, b, c, 1]⟩] ⟨4, ![a, b, c, 2]⟩ 3)
    (i : Fin a) (j : Fin b) (k : Fin c) :
    concatenate (⟨4, ![a, b, c, 2]⟩ : Shape) 3 [⟨⟨4, ![a, b, c, 1]⟩, x₁⟩, ⟨⟨4, ![a, b, c, 1]⟩, x₂⟩] h (ix4 i j k (1 : Fin 2))
      = x₂ (ix4 i j k (0 : Fin 1)) :=
  concatenate_pair_apply_right _ x₁ x₂ h _ rfl rfl _ (fun ax hne => by
    match ax with
    | ⟨0, _⟩ => rfl
    | ⟨1, _⟩ => rfl
    | ⟨2, _⟩ => rfl
    | ⟨3, _⟩ => exact absurd rfl hne) rfl

/-- Two columns side by side, `[a, b, 1]` twice into `[a, b, 2]`: column 0 is the first. -/
theorem cat2_axis2_left {a b : ℕ} (x₁ x₂ : (⟨3, ![a, b, 1]⟩ : Shape).Idx → α)
    (h : Shape.Concatenates [⟨3, ![a, b, 1]⟩, ⟨3, ![a, b, 1]⟩] ⟨3, ![a, b, 2]⟩ 2) (i : Fin a) (j : Fin b) :
    concatenate (⟨3, ![a, b, 2]⟩ : Shape) 2 [⟨⟨3, ![a, b, 1]⟩, x₁⟩, ⟨⟨3, ![a, b, 1]⟩, x₂⟩] h (ix3 i j (0 : Fin 2))
      = x₁ (ix3 i j (0 : Fin 1)) :=
  concatenate_pair_apply_left _ x₁ x₂ h _ rfl _ (fun ax => by
    match ax with
    | ⟨0, _⟩ => rfl
    | ⟨1, _⟩ => rfl
    | ⟨2, _⟩ => rfl)

/-- … and column 1 is the second. -/
theorem cat2_axis2_right {a b : ℕ} (x₁ x₂ : (⟨3, ![a, b, 1]⟩ : Shape).Idx → α)
    (h : Shape.Concatenates [⟨3, ![a, b, 1]⟩, ⟨3, ![a, b, 1]⟩] ⟨3, ![a, b, 2]⟩ 2) (i : Fin a) (j : Fin b) :
    concatenate (⟨3, ![a, b, 2]⟩ : Shape) 2 [⟨⟨3, ![a, b, 1]⟩, x₁⟩, ⟨⟨3, ![a, b, 1]⟩, x₂⟩] h (ix3 i j (1 : Fin 2))
      = x₂ (ix3 i j (0 : Fin 1)) :=
  concatenate_pair_apply_right _ x₁ x₂ h _ rfl rfl _ (fun ax hne => by
    match ax with
    | ⟨0, _⟩ => rfl
    | ⟨1, _⟩ => rfl
    | ⟨2, _⟩ => exact absurd rfl hne) rfl

/-- The nine feature columns are five pieces side by side, of widths 3, 1, 2, 2 and 1. Piece number `n`, of width
    `m`, after `pre` columns, is read at column `pre + c` of the whole at its own column `c`. -/
theorem cat5_apply (v0 : S4x200x32x3.Idx → α) (v1 : S4x200x32x1.Idx → α) (v2 v3 : S4x200x32x2.Idx → α)
    (v4 : S4x200x32x1.Idx → α)
    (h : Shape.Concatenates [S4x200x32x3, S4x200x32x1, S4x200x32x2, S4x200x32x2, S4x200x32x1] S4x200x32x9 3)
    (b : Fin 4) (p : Fin 200) (q : Fin 32) (k : Fin 9)
    (n : Nat) (hn : n < 5) {m : Nat} (x : (⟨4, ![4, 200, 32, m]⟩ : Shape).Idx → α)
    (hx : [(⟨S4x200x32x3, v0⟩ : (s : Shape) × (s.Idx → α)), ⟨S4x200x32x1, v1⟩, ⟨S4x200x32x2, v2⟩, ⟨S4x200x32x2, v3⟩,
      ⟨S4x200x32x1, v4⟩][n] = ⟨⟨4, ![4, 200, 32, m]⟩, x⟩)
    (pre : Nat)
    (hpre : ((([(⟨S4x200x32x3, v0⟩ : (s : Shape) × (s.Idx → α)), ⟨S4x200x32x1, v1⟩, ⟨S4x200x32x2, v2⟩, ⟨S4x200x32x2, v3⟩,
      ⟨S4x200x32x1, v4⟩].take n).map (·.1)).map fun s => if h : s.rank = S4x200x32x9.rank then s.size ((3 : Fin S4x200x32x9.rank).cast h.symm) else 0).sum = pre)
    (c : Fin m) (hc : pre + c.val = k.val) :
    concatenate S4x200x32x9 3 [⟨S4x200x32x3, v0⟩, ⟨S4x200x32x1, v1⟩, ⟨S4x200x32x2, v2⟩, ⟨S4x200x32x2, v3⟩, ⟨S4x200x32x1, v4⟩] h
        (ix4 b p q k) = x (ix4 b p q c) :=
  concatenate_apply_piece (t := S4x200x32x9) 3
    [⟨S4x200x32x3, v0⟩, ⟨S4x200x32x1, v1⟩, ⟨S4x200x32x2, v2⟩, ⟨S4x200x32x2, v3⟩, ⟨S4x200x32x1, v4⟩] h (ix4 b p q k) n hn
    ⟨4, ![4, 200, 32, m]⟩ x hx rfl pre hpre (ix4 b p q c) (fun ax hne => by
    match ax with
    | ⟨0, _⟩ => rfl
    | ⟨1, _⟩ => rfl
    | ⟨2, _⟩ => rfl
    | ⟨3, _⟩ => exact absurd rfl hne) hc

end Cat

/-! ## The lane sum and the mask bit -/

/-- The sum over a pillar's 32 slots. -/
theorem lanesum_apply (v : FVec Ideal S4x200x32 .f32) (b : Fin 4) (p : Fin 200) :
    multiReduction (F := Ideal) .add [2] S4x200 v 0x00000000#32 reduces_S4x200x32_S4x200 (.inl rfl) rfl (ix2 b p)
      = ∑ q : Fin 32, v (ix3 b p q) := by
  refine (Ideal.multiReduction_add_single v 0x00000000#32 reduces_S4x200x32_S4x200 (.inl rfl) rfl (ix2 b p)).trans ?_
  refine Finset.sum_congr rfl fun q _ => congrArg v ?_
  funext ax; apply Fin.ext
  match ax with
  | ⟨0, _⟩ => rfl
  | ⟨1, _⟩ => rfl
  | ⟨2, _⟩ => rfl

/-- A one-bit word widened to 32 bits and read as a signed integer is the bit, 0 or 1. -/
theorem bit_toInt (m : BitVec 1) : (((m.setWidth 32).toInt : ℝ) : EReal) = ((m.toNat : ℝ) : EReal) := by
  have e : (m.setWidth 32).toInt = (m.toNat : ℤ) := by
    rcases BitVec.eq_zero_or_eq_one m with h | h <;> subst h <;> decide
  rw [e, Int.cast_natCast]

/-! ## The block's pieces at coordinates -/

/-- The point counts pass through unchanged. -/
theorem pay6_apply (x2 : Vec Ideal S4x200x1 .i32) : k0_pay6 (F := Ideal) x2 = x2 :=
  shapeCast_self x2 _

/-- The first three channels of a slot. -/
theorem pay7_apply (x0 : Vec Ideal S4x200x32x4 .f32) (b : Fin 4) (p : Fin 200) (q : Fin 32) (k : Fin 3) (k' : Fin 4)
    (hk : k'.val = k.val) : k0_pay7 (F := Ideal) x0 (ix4 b p q k) = x0 (ix4 b p q k') :=
  slice4_axis3_apply 0 x0 slices_S4x200x32x4_o0_0_0_0_S4x200x32x3 b p q k k' (by omega)

/-- The fourth channel of a slot. -/
theorem pay8_apply (x0 : Vec Ideal S4x200x32x4 .f32) (b : Fin 4) (p : Fin 200) (q : Fin 32) (u : Fin 1) :
    k0_pay8 (F := Ideal) x0 (ix4 b p q u) = x0 (ix4 b p q (3 : Fin 4)) :=
  slice4_axis3_apply 3 x0 slices_S4x200x32x4_o0_0_0_3_S4x200x32x1 b p q u 3 (by have := u.isLt; show 3 = 3 + u.val; omega)

/-- The pillar's centre in x, from its cell index. -/
theorem pay9_apply (x1 : Vec Ideal S4x200x4 .i32) (b : Fin 4) (p : Fin 200) :
    k0_pay9 (F := Ideal) x1 (ix2 b p) = ((((x1 (ix3 b p 3)).toInt : ℝ) : EReal) + cHalf) * cCell + cZero := by
  have e : shapeCast S4x200 (extractStridedSlice S4x200x1 ![0, 0, 3] x1 slices_S4x200x4_o0_0_3_S4x200x1) shapeCasts_S4x200x1_S4x200
      (ix2 b p) = x1 (ix3 b p 3) :=
    (shapeCast_ab1_ab_apply _ _ b p).trans (slice3_axis2_apply 3 x1 _ b p 0 3 rfl)
  exact congrArg (fun w : BitVec 32 => ((((w.toInt : ℝ) : EReal) + cHalf) * cCell + cZero)) e

/-- The pillar's centre in y, from its cell index. -/
theorem pay10_apply (x1 : Vec Ideal S4x200x4 .i32) (b : Fin 4) (p : Fin 200) :
    k0_pay10 (F := Ideal) x1 (ix2 b p) = ((((x1 (ix3 b p 2)).toInt : ℝ) : EReal) + cHalf) * cCell + cOrgY := by
  have e : shapeCast S4x200 (extractStridedSlice S4x200x1 ![0, 0, 2] x1 slices_S4x200x4_o0_0_2_S4x200x1) shapeCasts_S4x200x1_S4x200
      (ix2 b p) = x1 (ix3 b p 2) :=
    (shapeCast_ab1_ab_apply _ _ b p).trans (slice3_axis2_apply 2 x1 _ b p 0 2 rfl)
  exact congrArg (fun w : BitVec 32 => ((((w.toInt : ℝ) : EReal) + cHalf) * cCell + cOrgY)) e

/-- A slot's offset from its pillar's centre in x … -/
theorem pay11_apply0 (x0 : Vec Ideal S4x200x32x4 .f32) (x1 : Vec Ideal S4x200x4 .i32) (b : Fin 4) (p : Fin 200) (q : Fin 32) :
    k0_pay11 (F := Ideal) x0 x1 (ix4 b p q (0 : Fin 2)) = x0 (ix4 b p q (0 : Fin 4)) - k0_pay9 (F := Ideal) x1 (ix2 b p) := by
  unfold k0_pay11
  refine (cat2_axis3_left _ _ concatenates_S4x200x32x1_S4x200x32x1_S4x200x32x2_d3 b p q).trans ?_
  refine (shapeCast_abc_abc1_apply _ shapeCasts_S4x200x32_S4x200x32x1 b p q 0).trans ?_
  rw [subf_apply]
  refine congrArg₂ (· - ·) ?_ ?_
  · exact (shapeCast_abc1_abc_apply _ shapeCasts_S4x200x32x1_S4x200x32 b p q).trans
      ((slice4_axis3_apply 0 _ slices_S4x200x32x3_o0_0_0_0_S4x200x32x1 b p q 0 0 rfl).trans (pay7_apply x0 b p q 0 0 rfl))
  · exact (broadcastTo_ab1_abc_apply _ broadcasts_S4x200x1_S4x200x32 b p q).trans
      (shapeCast_ab_ab1_apply _ shapeCasts_S4x200_S4x200x1 b p 0)

/-- … and in y. -/
theorem pay11_apply1 (x0 : Vec Ideal S4x200x32x4 .f32) (x1 : Vec Ideal S4x200x4 .i32) (b : Fin 4) (p : Fin 200) (q : Fin 32) :
    k0_pay11 (F := Ideal) x0 x1 (ix4 b p q (1 : Fin 2)) = x0 (ix4 b p q (1 : Fin 4)) - k0_pay10 (F := Ideal) x1 (ix2 b p) := by
  unfold k0_pay11
  refine (cat2_axis3_right _ _ concatenates_S4x200x32x1_S4x200x32x1_S4x200x32x2_d3 b p q).trans ?_
  refine (shapeCast_abc_abc1_apply _ shapeCasts_S4x200x32_S4x200x32x1 b p q 0).trans ?_
  rw [subf_apply]
  refine congrArg₂ (· - ·) ?_ ?_
  · exact (shapeCast_abc1_abc_apply _ shapeCasts_S4x200x32x1_S4x200x32 b p q).trans
      ((slice4_axis3_apply 1 _ slices_S4x200x32x3_o0_0_0_1_S4x200x32x1 b p q 0 1 rfl).trans (pay7_apply x0 b p q 1 1 rfl))
  · exact (broadcastTo_ab1_abc_apply _ broadcasts_S4x200x1_S4x200x32 b p q).trans
      (shapeCast_ab_ab1_apply _ shapeCasts_S4x200_S4x200x1 b p 0)

/-! ## The feature matrix times the weights, at a row and a channel -/

/-- The nine features of slot q of the block's pillar (b, p), from the pieces they are assembled from, before the mask. -/
def rawB (v7 : FVec Ideal S4x200x32x3 .f32) (v8 : FVec Ideal S4x200x32x1 .f32) (v20 v26 : FVec Ideal S4x200 .f32)
    (v39 : FVec Ideal S4x200x32x2 .f32) (b : Fin 4) (p : Fin 200) (q : Fin 32) : Fin 9 → EReal :=
  ![v7 (ix4 b p q 0), v7 (ix4 b p q 1), v7 (ix4 b p q 2), v8 (ix4 b p q 0), v39 (ix4 b p q 0), v39 (ix4 b p q 1),
    v20 (ix2 b p), v26 (ix2 b p), Ideal.div (∑ q' : Fin 32, v7 (ix4 b p q' 2)) cSlots]

/-- The feature matrix times the weights at the row of slot q of pillar (b, p): the nine features, each times the
    slot's mask bit, times the weights. -/
theorem k0_pay1_apply (v6 : IVec S4x200x1 32) (v7 : FVec Ideal S4x200x32x3 .f32) (v8 : FVec Ideal S4x200x32x1 .f32)
    (v20 v26 : FVec Ideal S4x200 .f32) (v39 : FVec Ideal S4x200x32x2 .f32) (w : Vec Ideal S9x64 .f32)
    (b : Fin 4) (p : Fin 200) (q : Fin 32) (o : Fin 64) :
    k0_pay1 (F := Ideal) v6 v7 v8 v20 v26 v39 w (ix2 (row b p q) o)
      = ∑ k : Fin 9, (rawB v7 v8 v20 v26 v39 b p q k
          * (((IntOp.cmpi .slt (BitVec.ofNat 32 q.val) (v6 (ix3 b p 0))).toNat : ℝ) : EReal)) * w (ix2 k o) := by
  unfold k0_pay1
  refine (matmul9_apply _ _ (row b p q) o).trans ?_
  refine Finset.sum_congr rfl fun k _ => ?_
  refine congrArg₂ (· * ·) ?_ rfl
  rw [truncf_apply]
  refine (shapeCast_rows_apply _ shapeCasts_S4x200x32x9_S25600x9 b p q k).trans ?_
  rw [mulf_apply]
  refine congrArg₂ (· * ·) ?_ ?_
  · match k with
    | ⟨0, _⟩ => exact cat5_apply _ _ _ _ _ concatenates_S4x200x32x3_S4x200x32x1_S4x200x32x2_S4x200x32x2_S4x200x32x1_S4x200x32x9_d3 b p q _ 0 (by decide) v7 rfl 0 rfl 0 rfl
    | ⟨1, _⟩ => exact cat5_apply _ _ _ _ _ concatenates_S4x200x32x3_S4x200x32x1_S4x200x32x2_S4x200x32x2_S4x200x32x1_S4x200x32x9_d3 b p q _ 0 (by decide) v7 rfl 0 rfl 1 rfl
    | ⟨2, _⟩ => exact cat5_apply _ _ _ _ _ concatenates_S4x200x32x3_S4x200x32x1_S4x200x32x2_S4x200x32x2_S4x200x32x1_S4x200x32x9_d3 b p q _ 0 (by decide) v7 rfl 0 rfl 2 rfl
    | ⟨3, _⟩ => exact cat5_apply _ _ _ _ _ concatenates_S4x200x32x3_S4x200x32x1_S4x200x32x2_S4x200x32x2_S4x200x32x1_S4x200x32x9_d3 b p q _ 1 (by decide) v8 rfl 3 rfl 0 rfl
    | ⟨4, _⟩ => exact cat5_apply _ _ _ _ _ concatenates_S4x200x32x3_S4x200x32x1_S4x200x32x2_S4x200x32x2_S4x200x32x1_S4x200x32x9_d3 b p q _ 2 (by decide) v39 rfl 4 rfl 0 rfl
    | ⟨5, _⟩ => exact cat5_apply _ _ _ _ _ concatenates_S4x200x32x3_S4x200x32x1_S4x200x32x2_S4x200x32x2_S4x200x32x1_S4x200x32x9_d3 b p q _ 2 (by decide) v39 rfl 4 rfl 1 rfl
    | ⟨6, _⟩ =>
      show _ = v20 (ix2 b p)
      refine (cat5_apply _ _ _ _ _ concatenates_S4x200x32x3_S4x200x32x1_S4x200x32x2_S4x200x32x2_S4x200x32x1_S4x200x32x9_d3 b p q _ 3 (by decide) _ rfl 6 rfl 0 rfl).trans ?_
      refine (broadcastTo_ab1d_abcd_apply _ broadcasts_S4x200x1x2_S4x200x32x2 b p q 0).trans ?_
      rw [shapeCast_self]
      refine (shapeCast_abc_ab1c_apply _ shapeCasts_S4x200x2_S4x200x1x2 b p 0 0).trans ?_
      refine (cat2_axis2_left _ _ concatenates_S4x200x1_S4x200x1_S4x200x2_d2 b p).trans ?_
      exact shapeCast_ab_ab1_apply _ shapeCasts_S4x200_S4x200x1 b p 0
    | ⟨7, _⟩ =>
      show _ = v26 (ix2 b p)
      refine (cat5_apply _ _ _ _ _ concatenates_S4x200x32x3_S4x200x32x1_S4x200x32x2_S4x200x32x2_S4x200x32x1_S4x200x32x9_d3 b p q _ 3 (by decide) _ rfl 6 rfl 1 rfl).trans ?_
      refine (broadcastTo_ab1d_abcd_apply _ broadcasts_S4x200x1x2_S4x200x32x2 b p q 1).trans ?_
      rw [shapeCast_self]
      refine (shapeCast_abc_ab1c_apply _ shapeCasts_S4x200x2_S4x200x1x2 b p 0 1).trans ?_
      refine (cat2_axis2_right _ _ concatenates_S4x200x1_S4x200x1_S4x200x2_d2 b p).trans ?_
      exact shapeCast_ab_ab1_apply _ shapeCasts_S4x200_S4x200x1 b p 0
    | ⟨8, _⟩ =>
      show _ = Ideal.div (∑ q' : Fin 32, v7 (ix4 b p q' 2)) cSlots
      refine (cat5_apply _ _ _ _ _ concatenates_S4x200x32x3_S4x200x32x1_S4x200x32x2_S4x200x32x2_S4x200x32x1_S4x200x32x9_d3 b p q _ 4 (by decide) _ rfl 8 rfl 0 rfl).trans ?_
      refine (broadcastTo_ab1d_abcd_apply _ broadcasts_S4x200x1x1_S4x200x32x1 b p q 0).trans ?_
      rw [shapeCast_self]
      refine (shapeCast_abc_abc1_apply _ shapeCasts_S4x200x1_S4x200x1x1 b p 0 0).trans ?_
      rw [divf_apply]
      refine congrArg₂ Ideal.div ?_ rfl
      refine (shapeCast_ab_ab1_apply _ shapeCasts_S4x200_S4x200x1 b p 0).trans ?_
      refine (lanesum_apply _ b p).trans ?_
      refine Finset.sum_congr rfl fun q' _ => ?_
      exact (shapeCast_abc1_abc_apply _ shapeCasts_S4x200x32x1_S4x200x32 b p q').trans
        (slice4_axis3_apply 2 v7 slices_S4x200x32x3_o0_0_0_2_S4x200x32x1 b p q' 0 2 rfl)
  · refine (broadcastTo_abc1_abcd_apply _ broadcasts_S4x200x32x1_S4x200x32x9 b p q k).trans ?_
    refine (bit_toInt _).trans ?_
    refine congrArg (fun m : BitVec 1 => ((m.toNat : ℝ) : EReal)) ?_
    refine congrArg₂ (IntOp.cmpi .slt) ?_ ?_
    · exact iota_single_apply .tc S4x200x32x1 32 2 iota_S4x200x32x1_d2_w32 (ix4 b p q 0)
    · exact (broadcastTo_ab1d_abcd_apply _ broadcasts_S4x200x1x1_S4x200x32x1 b p q 0).trans
        (shapeCast_abc_abc1_apply _ shapeCasts_S4x200x1_S4x200x1x1 b p 0 0)

end Feat

open Feat

/-- The first layer of block `t` at the row of slot q of pillar (b, p), when the three blocks are the windows of whole
    arrays `vox`, `coords` and a column `nptsCol` of point counts: the network's first layer at point (b, 200 t + p, q). -/
theorem h1preB_apply (vox : SVox.Idx → EReal) (coords : SCoord.Idx → BitVec 32) (nptsCol : S4x12000x1.Idx → BitVec 32)
    (w : S9x64.Idx → EReal) (t : Fin 60)
    (x0 : Vec Ideal S4x200x32x4 .f32) (hx0 : ∀ (b : Fin 4) (p : Fin 200) (q : Fin 32) (k : Fin 4), x0 (ix4 b p q k) = vox (ix4 b (pil t p) q k))
    (x1 : Vec Ideal S4x200x4 .i32) (hx1 : ∀ (b : Fin 4) (p : Fin 200) (k : Fin 4), x1 (ix3 b p k) = coords (ix3 b (pil t p) k))
    (x2 : Vec Ideal S4x200x1 .i32) (hx2 : ∀ (b : Fin 4) (p : Fin 200), x2 (ix3 b p 0) = nptsCol (ix3 b (pil t p) 0))
    (b : Fin 4) (p : Fin 200) (q : Fin 32) (o : Fin 64) :
    h1preB (F := Ideal) x0 x1 x2 w (ix2 (row b p q) o)
      = lin1 vox coords (fun i => nptsCol (ix3 (i 0) (i 1) 0)) w b (pil t p) q o := by
  have hcx : k0_pay9 (F := Ideal) x1 (ix2 b p) = cx coords b (pil t p) :=
    (pay9_apply x1 b p).trans
      (congrArg (fun w : BitVec 32 => ((((w.toInt : ℝ) : EReal) + cHalf) * cCell + cZero)) (hx1 b p 3))
  have hcy : k0_pay10 (F := Ideal) x1 (ix2 b p) = cy coords b (pil t p) :=
    (pay10_apply x1 b p).trans
      (congrArg (fun w : BitVec 32 => ((((w.toInt : ℝ) : EReal) + cHalf) * cCell + cOrgY)) (hx1 b p 2))
  unfold h1preB
  refine (k0_pay1_apply _ _ _ _ _ _ w b p q o).trans ?_
  unfold lin1
  refine Finset.sum_congr rfl fun k _ => ?_
  refine congrArg (· * w (ix2 k o)) ?_
  unfold feat
  refine congrArg₂ (· * ·) ?_ ?_
  · match k with
    | ⟨0, _⟩ =>
      show k0_pay7 (F := Ideal) x0 (ix4 b p q 0) = vox (ix4 b (pil t p) q 0)
      exact (pay7_apply x0 b p q 0 0 rfl).trans (hx0 b p q 0)
    | ⟨1, _⟩ =>
      show k0_pay7 (F := Ideal) x0 (ix4 b p q 1) = vox (ix4 b (pil t p) q 1)
      exact (pay7_apply x0 b p q 1 1 rfl).trans (hx0 b p q 1)
    | ⟨2, _⟩ =>
      show k0_pay7 (F := Ideal) x0 (ix4 b p q 2) = vox (ix4 b (pil t p) q 2)
      exact (pay7_apply x0 b p q 2 2 rfl).trans (hx0 b p q 2)
    | ⟨3, _⟩ =>
      show k0_pay8 (F := Ideal) x0 (ix4 b p q 0) = vox (ix4 b (pil t p) q 3)
      exact (pay8_apply x0 b p q 0).trans (hx0 b p q 3)
    | ⟨4, _⟩ =>
      show k0_pay11 (F := Ideal) x0 x1 (ix4 b p q 0) = vox (ix4 b (pil t p) q 0) - cx coords b (pil t p)
      exact (pay11_apply0 x0 x1 b p q).trans (congrArg₂ (· - ·) (hx0 b p q 0) hcx)
    | ⟨5, _⟩ =>
      show k0_pay11 (F := Ideal) x0 x1 (ix4 b p q 1) = vox (ix4 b (pil t p) q 1) - cy coords b (pil t p)
      exact (pay11_apply1 x0 x1 b p q).trans (congrArg₂ (· - ·) (hx0 b p q 1) hcy)
    | ⟨6, _⟩ => exact hcx
    | ⟨7, _⟩ => exact hcy
    | ⟨8, _⟩ =>
      show Ideal.div (∑ q' : Fin 32, k0_pay7 (F := Ideal) x0 (ix4 b p q' 2)) cSlots = zmean vox b (pil t p)
      exact congrArg (Ideal.div · cSlots)
        (Finset.sum_congr rfl fun q' _ => (pay7_apply x0 b p q' 2 2 rfl).trans (hx0 b p q' 2))
  · show (((IntOp.cmpi .slt (BitVec.ofNat 32 q.val) (k0_pay6 (F := Ideal) x2 (ix3 b p 0))).toNat : ℝ) : EReal)
      = (((IntOp.cmpi .slt (BitVec.ofNat 32 q.val) (nptsCol (ix3 b (pil t p) 0))).toNat : ℝ) : EReal)
    rw [pay6_apply, hx2]

end Cert.KernelIdeal.Blk

end
-- ==== Proof.KOps.lean ====
/-
  The other pieces of a pass on a block, read at an index over the extended reals: the normalisation, the clip with the
  second linear layer, a sum down the rows, and the last pass's maximum over a pillar's rows; and that the second and the last
  pass compute the same first layer as the first.
-/
import proofs.«133398_j52536039964809_1_alg».proof.Proof.KBlock
import proofs.«133398_j52536039964809_1_alg».proof.Proof.SumLemmas
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Blk

open Idealize.ShloMosaic Idealize.ShloMosaic.ValueIdx Cert.KernelIdeal Cert.KernelIdeal.Gen Cert.PFN

section Generic

variable {F : FTy → Type} [FloatOps F]

/-- The second pass's normalised first layer is `bnB` of `h1preB`: the two print the same operations in the same order. -/
theorem k1_pay12_eq (x0 : Vec F S4x200x32x4 .f32) (x1 : Vec F S4x200x4 .i32) (x2 : Vec F S4x200x1 .i32) (w : Vec F S9x64 .f32)
    (mu var g be : Vec F S64 .f32) :
    k1_pay12 (k1_pay6 x2) (k1_pay7 x0) (k1_pay8 x0) (k1_pay9 x1) (k1_pay10 x1) (k1_pay11 x0 x1) w mu var g be
      = bnB (h1preB x0 x1 x2 w) mu var g be := by
  rfl

/-- The last pass's first layer, normalised, clipped and narrowed, is the same. -/
theorem k2_pay9_eq (x0 : Vec F S4x200x32x4 .f32) (x1 : Vec F S4x200x4 .i32) (x2 : Vec F S4x200x1 .i32) (w : Vec F S9x64 .f32)
    (mu var g be : Vec F S64 .f32) :
    k2_pay9 (k2_pay2 x2) (k2_pay3 x0) (k2_pay4 x0) (k2_pay5 x1) (k2_pay6 x1) (k2_pay7 x0 x1) (k2_pay8 x0) (Scalar.ofBits .f32 0x42000000#32) w mu var g be
      = truncf .bf16 (maximumf (bnB (h1preB x0 x1 x2 w) mu var g be) (broadcast S25600x64 (Scalar.ofBits .f32 0x00000000#32))) bitsLt_bf16_f32 := by
  rfl

end Generic

/-- A per-channel vector laid out as one row and repeated down the 25600 rows reads, at row r and channel o, the vector at o. -/
theorem rowBcast_apply (v : FVec Ideal S64 .f32) (r : Fin 25600) (o : Fin 64) :
    broadcastTo S25600x64 (shapeCast S1x64 v shapeCasts_S64_S1x64) broadcasts_S1x64_S25600x64 (ix2 r o) = v (ix1 o) := by
  rw [broadcastTo_1b_ab_apply, shapeCast_a_1a_apply]

/-- The normalisation at a row and a channel. -/
theorem bnB_apply (x : FVec Ideal S25600x64 .f32) (mu var g be : Vec Ideal S64 .f32) (r : Fin 25600) (o : Fin 64) :
    bnB (F := Ideal) x mu var g be (ix2 r o)
      = ((x (ix2 r o) - mu (ix1 o)) * Ideal.rsqrt (var (ix1 o) + cEps)) * g (ix1 o) + be (ix1 o) := by
  unfold bnB
  rw [addf_apply, mulf_apply, mulf_apply, subf_apply, rowBcast_apply, rowBcast_apply, rowBcast_apply, rowBcast_apply,
    shapeCast_self, shapeCast_self]
  rfl

/-! The 64-wide matrix product: which operand entries meet at an output entry and a contraction index. -/

theorem lhs_mm64_0 (i : S25600x64.Idx) (q : dot_S25600x64_S64x64_S25600x64_1_0_0_1_n_n.contr.Idx) :
    (dot_S25600x64_S64x64_S25600x64_1_0_0_1_n_n.lhsIdx i q 0).val = (i 0).val := by
  unfold DotDims.lhsIdx
  rw [dif_neg (show ¬(0 : Fin S25600x64.rank) ∈ dot_S25600x64_S64x64_S25600x64_1_0_0_1_n_n.lhsBatch by decide),
    dif_pos (show (0 : Fin S25600x64.rank) ∈ dot_S25600x64_S64x64_S25600x64_1_0_0_1_n_n.lhsNonContracting by decide)]
  rfl

theorem lhs_mm64_1 (i : S25600x64.Idx) (q : dot_S25600x64_S64x64_S25600x64_1_0_0_1_n_n.contr.Idx) :
    (dot_S25600x64_S64x64_S25600x64_1_0_0_1_n_n.lhsIdx i q 1).val = (q ⟨0, by decide⟩).val :=
  dot_S25600x64_S64x64_S25600x64_1_0_0_1_n_n.lhsIdx_val_of_single rfl i q

theorem rhs_mm64_0 (i : S25600x64.Idx) (q : dot_S25600x64_S64x64_S25600x64_1_0_0_1_n_n.contr.Idx) :
    (dot_S25600x64_S64x64_S25600x64_1_0_0_1_n_n.rhsIdx i q 0).val = (q ⟨0, by decide⟩).val :=
  dot_S25600x64_S64x64_S25600x64_1_0_0_1_n_n.rhsIdx_val_of_single rfl i q

theorem rhs_mm64_1 (i : S25600x64.Idx) (q : dot_S25600x64_S64x64_S25600x64_1_0_0_1_n_n.contr.Idx) :
    (dot_S25600x64_S64x64_S25600x64_1_0_0_1_n_n.rhsIdx i q 1).val = (i 1).val := by
  unfold DotDims.rhsIdx
  rw [dif_neg (show ¬(1 : Fin S64x64.rank) ∈ dot_S25600x64_S64x64_S25600x64_1_0_0_1_n_n.rhsBatch by decide),
    dif_pos (show (1 : Fin S64x64.rank) ∈ dot_S25600x64_S64x64_S25600x64_1_0_0_1_n_n.rhsNonContracting by decide)]
  rfl

/-- The 25600 × 64 by 64 × 64 product into a zero accumulator, at a row and a channel: the sum over the 64 inner indices. -/
theorem mm64_apply (l : FVec Ideal S25600x64 .bf16) (w : FVec Ideal S64x64 .bf16) (r : Fin 25600) (o : Fin 64) :
    matmul dot_S25600x64_S64x64_S25600x64_1_0_0_1_n_n none l w (constant S25600x64 .f32 0x00000000#32) (ix2 r o)
      = ∑ k : Fin 64, l (ix2 r k) * w (ix2 k o) := by
  simp only [matmul]
  rw [Ideal.matmul_constant_zero_apply,
    ← Equiv.sum_comp (contrEquiv1 dot_S25600x64_S64x64_S25600x64_1_0_0_1_n_n 64 rfl rfl).symm]
  refine Finset.sum_congr rfl fun k _ => ?_
  have hk := contrEquiv1_symm_val dot_S25600x64_S64x64_S25600x64_1_0_0_1_n_n 64 rfl rfl k
  have el : dot_S25600x64_S64x64_S25600x64_1_0_0_1_n_n.lhsIdx (ix2 r o)
      ((contrEquiv1 dot_S25600x64_S64x64_S25600x64_1_0_0_1_n_n 64 rfl rfl).symm k) = ix2 r k := funext fun a => Fin.ext (by
    match a with
    | ⟨0, _⟩ => exact lhs_mm64_0 _ _
    | ⟨1, _⟩ => exact (lhs_mm64_1 _ _).trans hk)
  have er : dot_S25600x64_S64x64_S25600x64_1_0_0_1_n_n.rhsIdx (ix2 r o)
      ((contrEquiv1 dot_S25600x64_S64x64_S25600x64_1_0_0_1_n_n 64 rfl rfl).symm k) = ix2 k o := funext fun a => Fin.ext (by
    match a with
    | ⟨0, _⟩ => exact (rhs_mm64_0 _ _).trans hk
    | ⟨1, _⟩ => exact rhs_mm64_1 _ _)
  rw [el, er]

/-- The clip at zero and the second linear layer at a row and a channel. -/
theorem k1_pay1_apply (a : FVec Ideal S25600x64 .f32) (w2 : Vec Ideal S64x64 .f32) (r : Fin 25600) (o : Fin 64) :
    k1_pay1 (F := Ideal) a w2 (ix2 r o) = ∑ k : Fin 64, max (a (ix2 r k)) cZero * w2 (ix2 k o) := by
  show matmul dot_S25600x64_S64x64_S25600x64_1_0_0_1_n_n none
      (truncf .bf16 (maximumf a (broadcast S25600x64 (Scalar.ofBits .f32 0x00000000#32))) bitsLt_bf16_f32)
      (truncf .bf16 w2 bitsLt_bf16_f32) (constant S25600x64 .f32 0x00000000#32) (ix2 r o) = _
  rw [mm64_apply]
  rfl

/-- A sum down the 25600 rows, per channel. -/
theorem colsum_apply (x : FVec Ideal S25600x64 .f32) (o : Fin 64) :
    multiReduction (F := Ideal) .add [0] S64 x 0x00000000#32 reduces_S25600x64_S64 (.inl rfl) rfl (ix1 o)
      = ∑ r : Fin 25600, x (ix2 r o) := by
  refine (Ideal.multiReduction_add_single x 0x00000000#32 reduces_S25600x64_S64 (.inl rfl) rfl (ix1 o)).trans ?_
  refine Finset.sum_congr rfl fun r _ => congrArg x ?_
  funext a
  match a with
  | ⟨0, _⟩ => rfl
  | ⟨1, _⟩ => rfl

/-- The 25600 rows regrouped as 4 × 200 pillars of 32 slots: entry (b, p, q, o) is the matrix at row (b·200 + p)·32 + q. -/
theorem regroup_apply (x : FVec Ideal S25600x64 .f32) (b : Fin 4) (p : Fin 200) (q : Fin 32) (o : Fin 64) :
    shapeCast S4x200x32x64 x shapeCasts_S25600x64_S4x200x32x64 (ix4 b p q o) = x (ix2 (row b p q) o) :=
  shapeCast_apply x shapeCasts_S25600x64_S4x200x32x64 _ _ (by
    rw [Shape.rowMajor_val_two, Shape.rowMajor_val_four]
    rfl)

/-- The maximum over a pillar's 32 slots, from minus infinity, at pillar (b, p) and channel o. -/
theorem poolmax_apply (x : FVec Ideal S4x200x32x64 .f32) (b : Fin 4) (p : Fin 200) (o : Fin 64) :
    multiReduction (F := Ideal) .maximumf [2] S4x200x64 x 0xFF800000#32 reduces_S4x200x32x64_S4x200x64 (.inl rfl) rfl (ix3 b p o)
      = (Finset.univ : Finset (Fin 32)).fold max cNegInf (fun q => x (ix4 b p q o)) := by
  refine (Ideal.multiReduction_maximumf_single x 0xFF800000#32 reduces_S4x200x32x64_S4x200x64 (.inl rfl) rfl (ix3 b p o)).trans ?_
  refine congrArg (fun f => (Finset.univ : Finset (Fin 32)).fold max cNegInf f) (funext fun q => congrArg x ?_)
  funext c
  match c with
  | ⟨0, _⟩ => rfl
  | ⟨1, _⟩ => rfl
  | ⟨2, _⟩ => rfl
  | ⟨3, _⟩ => rfl

/-- The last pass's payload, its normalisation named. -/
theorem k2_pay1_eq (a : FVec Ideal S25600x64 .bf16) (w2 : Vec Ideal S64x64 .f32) (mu var g be : Vec Ideal S64 .f32) :
    k2_pay1 (F := Ideal) a w2 mu var g be
      = multiReduction (F := Ideal) .maximumf [2] S4x200x64
          (shapeCast S4x200x32x64
            (maximumf (bnB (matmul dot_S25600x64_S64x64_S25600x64_1_0_0_1_n_n none a (truncf .bf16 w2 bitsLt_bf16_f32)
                (constant S25600x64 .f32 0x00000000#32)) mu var g be)
              (broadcast S25600x64 (Scalar.ofBits .f32 0x00000000#32)))
            shapeCasts_S25600x64_S4x200x32x64)
          0xFF800000#32 reduces_S4x200x32x64_S4x200x64 (.inl rfl) rfl := rfl

/-- The last pass on a block, at pillar (b, p) and channel o: the second layer of the already clipped first layer,
    normalised, clipped, and the maximum over the pillar's 32 rows. -/
theorem k2_pay1_apply (a : FVec Ideal S25600x64 .bf16) (w2 : Vec Ideal S64x64 .f32) (mu var g be : Vec Ideal S64 .f32)
    (b : Fin 4) (p : Fin 200) (o : Fin 64) :
    k2_pay1 (F := Ideal) a w2 mu var g be (ix3 b p o)
      = (Finset.univ : Finset (Fin 32)).fold max cNegInf (fun q =>
          max ((((∑ k : Fin 64, a (ix2 (row b p q) k) * w2 (ix2 k o)) - mu (ix1 o)) * Ideal.rsqrt (var (ix1 o) + cEps)) * g (ix1 o)
            + be (ix1 o)) cZero) := by
  rw [k2_pay1_eq, poolmax_apply]
  refine congrArg (fun f => (Finset.univ : Finset (Fin 32)).fold max cNegInf f) (funext fun q => ?_)
  rw [regroup_apply, maximumf_apply, bnB_apply, mm64_apply]
  rfl

end Cert.KernelIdeal.Blk

end
-- ==== Proof.KReg0.lean ====
/-
  The first pass. Its 60 grid points walk the 60 blocks of 200 pillars; the two output vectors stay in place from
  point to point: at point 0 they are set to zero, and every point adds to them the sums down the block's 25600 rows of the
  first linear layer and of its squares. After the last point they hold the totals over all points of the cloud.

  In order: what the body leaves in the two vectors in each of its two cases (the zeroing point, every other point), as
  one step function of the point's blocks and the running contents; the blocks as windows of the whole arrays; the step
  read channel by channel over the extended reals (zero plus x is x, so the first point leaves the first block's sums);
  by induction on the point, the running contents are the sums over the blocks met so far; the two vectors are written
  back once, after the last point, and their one block is the whole array; and the 60 blocks' sums, regrouped row by row
  into batch entry, pillar and slot, are the total over the cloud.
-/
import proofs.«133398_j52536039964809_1_alg».proof.Proof.Gen.KernelIdeal.Frame
import proofs.«133398_j52536039964809_1_alg».proof.Proof.Spec
import proofs.«133398_j52536039964809_1_alg».proof.Proof.SumLemmas
import proofs.«133398_j52536039964809_1_alg».proof.Proof.KBlock
import proofs.«133398_j52536039964809_1_alg».proof.Proof.KFeat
import proofs.«133398_j52536039964809_1_alg».proof.Proof.KOps
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

noncomputable section

open scoped BigOperators

open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen Cert.KernelIdeal.Blk Cert.PFN

section Generic
variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- What a point adds to the first vector: the running contents plus the sums down the rows of the block's first layer. -/
def step4 (x0 : Vec F S4x200x32x4 .f32) (x1 : Vec F S4x200x4 .i32) (x2 : Vec F S4x200x1 .i32) (x3 : Vec F S9x64 .f32) (acc : Vec F S64 .f32) : FVec F S64 .f32 :=
  k0_pay2 (k0_pay6 x2) (k0_pay7 x0) (k0_pay8 x0) (k0_pay9 x1) (k0_pay10 x1) (k0_pay11 x0 x1) x3 acc

/-- What a point adds to the second vector: the running contents plus the sums down the rows of the squares. -/
def step5 (x0 : Vec F S4x200x32x4 .f32) (x1 : Vec F S4x200x4 .i32) (x2 : Vec F S4x200x1 .i32) (x3 : Vec F S9x64 .f32) (acc : Vec F S64 .f32) : FVec F S64 .f32 :=
  k0_pay3 (k0_pay6 x2) (k0_pay7 x0) (k0_pay8 x0) (k0_pay9 x1) (k0_pay10 x1) (k0_pay11 x0 x1) x3 acc

/-- At the first point the first vector is zeroed, read back, and the block's sums are added to it. -/
theorem out_A_4 (c : Dev nD) (i : grid0.Coords) (a1 : Memref sig .tc .vmem S4x200x32x4 .f32) (h1 : a1.IsWhole)
    (a2 : Memref sig .tc .vmem S4x200x4 .i32) (h2 : a2.IsWhole) (a3 : Memref sig .tc .vmem S4x200x1 .i32) (h3 : a3.IsWhole)
    (a4 : Memref sig .tc .vmem S9x64 .f32) (h4 : a4.IsWhole) (a5 : Memref sig .tc .vmem S64 .f32) (h5 : a5.IsWhole)
    (a6 : Memref sig .tc .vmem S64 .f32) (h6 : a6.IsWhole) (hc : cond0_0 i) (x0 : Vec F S4x200x32x4 .f32) (x1 : Vec F S4x200x4 .i32) (x2 : Vec F S4x200x1 .i32) (x3 : Vec F S9x64 .f32) :
    out0_A_4 c i a1 h1 a2 h2 a3 h3 a4 h4 a5 h5 a6 h6 hc x0 x1 x2 x3 = step4 x0 x1 x2 x3 k0_pay4 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_cons_unit_zero (S := S64) hz1, View.readCov_unit_zero (S := S64) _ hz1]
  unfold step4
  simp only [View.readAt_eq_ld, h1.read_unread, h2.read_unread, h3.read_unread, h4.read_unread,
    View.ld_unit_zero (S := S4x200x32x4) hz4, View.ld_unit_zero (S := S4x200x4) hz3, View.ld_unit_zero (S := S4x200x1) hz3,
    View.ld_unit_zero (S := S9x64) hz2]

/-- The same for the second vector. -/
theorem out_A_5 (c : Dev nD) (i : grid0.Coords) (a1 : Memref sig .tc .vmem S4x200x32x4 .f32) (h1 : a1.IsWhole)
    (a2 : Memref sig .tc .vmem S4x200x4 .i32) (h2 : a2.IsWhole) (a3 : Memref sig .tc .vmem S4x200x1 .i32) (h3 : a3.IsWhole)
    (a4 : Memref sig .tc .vmem S9x64 .f32) (h4 : a4.IsWhole) (a5 : Memref sig .tc .vmem S64 .f32) (h5 : a5.IsWhole)
    (a6 : Memref sig .tc .vmem S64 .f32) (h6 : a6.IsWhole) (hc : cond0_0 i) (x0 : Vec F S4x200x32x4 .f32) (x1 : Vec F S4x200x4 .i32) (x2 : Vec F S4x200x1 .i32) (x3 : Vec F S9x64 .f32) :
    out0_A_5 c i a1 h1 a2 h2 a3 h3 a4 h4 a5 h5 a6 h6 hc x0 x1 x2 x3 = step5 x0 x1 x2 x3 k0_pay5 := by
  unfold out0_A_5
  rw [View.read_writes_eq_canon _ _ _ (cover0_A_5 c i a1 h1 a2 h2 a3 h3 a4 h4 a5 h5 a6 h6 hc x0 x1 x2 x3)]
  unfold kernelRun0_A
  dsimp only
  sl_unfold_words
  rw [View.canon_cons_unit_zero (S := S64) hz1, View.readCov_unit_zero (S := S64) _ hz1]
  unfold step5
  simp only [View.readAt_eq_ld, h1.read_unread, h2.read_unread, h3.read_unread, h4.read_unread,
    View.ld_unit_zero (S := S4x200x32x4) hz4, View.ld_unit_zero (S := S4x200x4) hz3, View.ld_unit_zero (S := S4x200x1) hz3,
    View.ld_unit_zero (S := S9x64) hz2]

/-- At every later point the block's sums are added to what the first vector held. -/
theorem out_B_4 (c : Dev nD) (i : grid0.Coords) (a1 : Memref sig .tc .vmem S4x200x32x4 .f32) (h1 : a1.IsWhole)
    (a2 : Memref sig .tc .vmem S4x200x4 .i32) (h2 : a2.IsWhole) (a3 : Memref sig .tc .vmem S4x200x1 .i32) (h3 : a3.IsWhole)
    (a4 : Memref sig .tc .vmem S9x64 .f32) (h4 : a4.IsWhole) (a5 : Memref sig .tc .vmem S64 .f32) (h5 : a5.IsWhole)
    (a6 : Memref sig .tc .vmem S64 .f32) (h6 : a6.IsWhole) (hc : ¬cond0_0 i) (x0 : Vec F S4x200x32x4 .f32) (x1 : Vec F S4x200x4 .i32) (x2 : Vec F S4x200x1 .i32) (x3 : Vec F S9x64 .f32) (xo4 xo5 : Vec F S64 .f32) :
    out0_B_4 c i a1 h1 a2 h2 a3 h3 a4 h4 a5 h5 a6 h6 hc x0 x1 x2 x3 xo4 xo5 = step4 x0 x1 x2 x3 xo4 := by
  unfold out0_B_4
  rw [View.read_writes_eq_canon _ _ _ (cover0_B_4 c i a1 h1 a2 h2 a3 h3 a4 h4 a5 h5 a6 h6 hc x0 x1 x2 x3 xo4 xo5)]
  unfold kernelRun0_B
  dsimp only
  sl_unfold_words
  rw [View.canon_unit_zero (S := S64) hz1]
  unfold step4
  simp only [View.readAt_eq_ld, h1.read_unread, h2.read_unread, h3.read_unread, h4.read_unread, h5.read_unread,
    View.ld_unit_zero (S := S4x200x32x4) hz4, View.ld_unit_zero (S := S4x200x4) hz3, View.ld_unit_zero (S := S4x200x1) hz3,
    View.ld_unit_zero (S := S9x64) hz2, View.ld_unit_zero (S := S64) hz1]

/-- The same for the second vector. -/
theorem out_B_5 (c : Dev nD) (i : grid0.Coords) (a1 : Memref sig .tc .vmem S4x200x32x4 .f32) (h1 : a1.IsWhole)
    (a2 : Memref sig .tc .vmem S4x200x4 .i32) (h2 : a2.IsWhole) (a3 : Memref sig .tc .vmem S4x200x1 .i32) (h3 : a3.IsWhole)
    (a4 : Memref sig .tc .vmem S9x64 .f32) (h4 : a4.IsWhole) (a5 : Memref sig .tc .vmem S64 .f32) (h5 : a5.IsWhole)
    (a6 : Memref sig .tc .vmem S64 .f32) (h6 : a6.IsWhole) (hc : ¬cond0_0 i) (x0 : Vec F S4x200x32x4 .f32) (x1 : Vec F S4x200x4 .i32) (x2 : Vec F S4x200x1 .i32) (x3 : Vec F S9x64 .f32) (xo4 xo5 : Vec F S64 .f32) :
    out0_B_5 c i a1 h1 a2 h2 a3 h3 a4 h4 a5 h5 a6 h6 hc x0 x1 x2 x3 xo4 xo5 = step5 x0 x1 x2 x3 xo5 := by
  unfold out0_B_5
  rw [View.read_writes_eq_canon _ _ _ (cover0_B_5 c i a1 h1 a2 h2 a3 h3 a4 h4 a5 h5 a6 h6 hc x0 x1 x2 x3 xo4 xo5)]
  unfold kernelRun0_B
  dsimp only
  sl_unfold_words
  rw [View.canon_unit_zero (S := S64) hz1]
  unfold step5
  simp only [View.readAt_eq_ld, h1.read_unread, h2.read_unread, h3.read_unread, h4.read_unread, h6.read_unread,
    View.ld_unit_zero (S := S4x200x32x4) hz4, View.ld_unit_zero (S := S4x200x4) hz3, View.ld_unit_zero (S := S4x200x1) hz3,
    View.ld_unit_zero (S := S9x64) hz2, View.ld_unit_zero (S := S64) hz1]

end Generic

variable (V : (c : Dev nD) → (b : Ref sig .tc) → Buf (Elt Ideal) ((c : Thread nD τ).loc b))

/-- The first layer over the whole cloud, from the arrays the pass finds: the voxels, the coordinates, the column of
    point counts and the first weights. -/
abbrev pre1 (c : Dev nD) : Act :=
  lin1 (V c main_arg0) (V c main_arg1) (fun j => V c main_v0 (ix3 (j 0) (j 1) 0)) (V c main_arg3)

/-- A grid point as one of the 60 blocks of pillars. -/
def blkOf (t : Fin cfg0.N) : Fin 60 := ⟨t.val, lt_of_lt_of_eq t.isLt (show cfg0.N = 60 from N_0)⟩

/-- The point's block of voxels, of coordinates, of point counts, and the weights. -/
abbrev xb0 (c : Dev nD) (t : Fin cfg0.N) : Vec Ideal S4x200x32x4 .f32 := iblk0 V c 0 t
abbrev xb1 (c : Dev nD) (t : Fin cfg0.N) : Vec Ideal S4x200x4 .i32 := iblk0 V c 1 t
abbrev xb2 (c : Dev nD) (t : Fin cfg0.N) : Vec Ideal S4x200x1 .i32 := iblk0 V c 2 t
abbrev xb3 (c : Dev nD) (t : Fin cfg0.N) : Vec Ideal S9x64 .f32 := iblk0 V c 3 t

/-- Block t of the voxels is the pillars 200 t … 200 t + 199 of every batch entry. -/
theorem xb0_apply (c : Dev nD) (t : Fin cfg0.N) (b : Fin 4) (p : Fin 200) (q : Fin 32) (k : Fin 4) :
    xb0 V c t (ix4 b p q k) = (V c main_arg0 : SVox.Idx → EReal) (ix4 b (pil (blkOf t) p) q k) := by
  have hi : win0_0.index t 0 = 0 ∧ win0_0.index t 1 = t.val ∧ win0_0.index t 2 = 0 ∧ win0_0.index t 3 = 0 :=
    (by decide +kernel : ∀ t : Fin grid0.N, win0_0.index t 0 = 0 ∧ win0_0.index t 1 = t.val ∧ win0_0.index t 2 = 0
      ∧ win0_0.index t 3 = 0) t
  show iblk0 V c 0 t (ix4 b p q k) = _
  unfold iblk0
  rw [View.read_apply]
  show V c main_arg0 _ = V c main_arg0 _
  congr 1
  funext a
  apply Fin.ext
  match a with
  | ⟨0, _⟩ => show win0_0.index t 0 * 4 + 1 * b.val = b.val; rw [hi.1]; omega
  | ⟨1, _⟩ => show win0_0.index t 1 * 200 + 1 * p.val = 200 * t.val + p.val; rw [hi.2.1]; omega
  | ⟨2, _⟩ => show win0_0.index t 2 * 32 + 1 * q.val = q.val; rw [hi.2.2.1]; omega
  | ⟨3, _⟩ => show win0_0.index t 3 * 4 + 1 * k.val = k.val; rw [hi.2.2.2]; omega

/-- Block t of the coordinates likewise. -/
theorem xb1_apply (c : Dev nD) (t : Fin cfg0.N) (b : Fin 4) (p : Fin 200) (k : Fin 4) :
    xb1 V c t (ix3 b p k) = (V c main_arg1 : SCoord.Idx → BitVec 32) (ix3 b (pil (blkOf t) p) k) := by
  have hi : win0_1.index t 0 = 0 ∧ win0_1.index t 1 = t.val ∧ win0_1.index t 2 = 0 :=
    (by decide +kernel : ∀ t : Fin grid0.N, win0_1.index t 0 = 0 ∧ win0_1.index t 1 = t.val ∧ win0_1.index t 2 = 0) t
  show iblk0 V c 1 t (ix3 b p k) = _
  unfold iblk0
  rw [View.read_apply]
  show V c main_arg1 _ = V c main_arg1 _
  congr 1
  funext a
  apply Fin.ext
  match a with
  | ⟨0, _⟩ => show win0_1.index t 0 * 4 + 1 * b.val = b.val; rw [hi.1]; omega
  | ⟨1, _⟩ => show win0_1.index t 1 * 200 + 1 * p.val = 200 * t.val + p.val; rw [hi.2.1]; omega
  | ⟨2, _⟩ => show win0_1.index t 2 * 4 + 1 * k.val = k.val; rw [hi.2.2]; omega

/-- Block t of the column of point counts likewise. -/
theorem xb2_apply (c : Dev nD) (t : Fin cfg0.N) (b : Fin 4) (p : Fin 200) :
    xb2 V c t (ix3 b p 0) = (V c main_v0 : S4x12000x1.Idx → BitVec 32) (ix3 b (pil (blkOf t) p) 0) := by
  have hi : win0_2.index t 0 = 0 ∧ win0_2.index t 1 = t.val ∧ win0_2.index t 2 = 0 :=
    (by decide +kernel : ∀ t : Fin grid0.N, win0_2.index t 0 = 0 ∧ win0_2.index t 1 = t.val ∧ win0_2.index t 2 = 0) t
  show iblk0 V c 2 t (ix3 b p 0) = _
  unfold iblk0
  rw [View.read_apply]
  show V c main_v0 _ = V c main_v0 _
  congr 1
  funext a
  apply Fin.ext
  match a with
  | ⟨0, _⟩ => show win0_2.index t 0 * 4 + 1 * b.val = b.val; rw [hi.1]; omega
  | ⟨1, _⟩ => show win0_2.index t 1 * 200 + 1 * p.val = 200 * t.val + p.val; rw [hi.2.1]; omega
  | ⟨2, _⟩ => show win0_2.index t 2 * 1 + 1 * 0 = 0; rw [hi.2.2]

/-- The weights' one block is the whole array. -/
theorem xb3_eq (c : Dev nD) (t : Fin cfg0.N) : xb3 V c t = (V c main_arg3 : S9x64.Idx → EReal) := by
  have hi : win0_3.index t 0 = 0 ∧ win0_3.index t 1 = 0 :=
    (by decide +kernel : ∀ t : Fin grid0.N, win0_3.index t 0 = 0 ∧ win0_3.index t 1 = 0) t
  funext j
  show iblk0 V c 3 t j = _
  unfold iblk0
  rw [View.read_apply]
  show V c main_arg3 _ = V c main_arg3 _
  congr 1
  funext a
  apply Fin.ext
  match a with
  | ⟨0, _⟩ => show win0_3.index t 0 * 9 + 1 * (j 0).val = (j 0).val; rw [hi.1]; omega
  | ⟨1, _⟩ => show win0_3.index t 1 * 64 + 1 * (j 1).val = (j 1).val; rw [hi.2]; omega

/-- The first step, channel by channel: what was there plus the sum of the first layer down the block's rows. -/
theorem step4_apply (x0 : Vec Ideal S4x200x32x4 .f32) (x1 : Vec Ideal S4x200x4 .i32) (x2 : Vec Ideal S4x200x1 .i32)
    (x3 : Vec Ideal S9x64 .f32) (acc : Vec Ideal S64 .f32) (o : Fin 64) :
    step4 (F := Ideal) x0 x1 x2 x3 acc (ix1 o)
      = (acc (ix1 o) : EReal) + ∑ r : Fin 25600, h1preB (F := Ideal) x0 x1 x2 x3 (ix2 r o) := by
  show (shapeCast S64 acc shapeCasts_S64_S64 (ix1 o) : EReal)
      + multiReduction (F := Ideal) .add [0] S64 (h1preB (F := Ideal) x0 x1 x2 x3) 0x00000000#32 reduces_S25600x64_S64 (.inl rfl) rfl (ix1 o) = _
  rw [shapeCast_self, colsum_apply]

/-- The second step: what was there plus the sum of the squares down the block's rows. -/
theorem step5_apply (x0 : Vec Ideal S4x200x32x4 .f32) (x1 : Vec Ideal S4x200x4 .i32) (x2 : Vec Ideal S4x200x1 .i32)
    (x3 : Vec Ideal S9x64 .f32) (acc : Vec Ideal S64 .f32) (o : Fin 64) :
    step5 (F := Ideal) x0 x1 x2 x3 acc (ix1 o)
      = (acc (ix1 o) : EReal)
        + ∑ r : Fin 25600, h1preB (F := Ideal) x0 x1 x2 x3 (ix2 r o) * h1preB (F := Ideal) x0 x1 x2 x3 (ix2 r o) := by
  show (shapeCast S64 acc shapeCasts_S64_S64 (ix1 o) : EReal)
      + multiReduction (F := Ideal) .add [0] S64 (mulf (h1preB (F := Ideal) x0 x1 x2 x3) (h1preB (F := Ideal) x0 x1 x2 x3))
          0x00000000#32 reduces_S25600x64_S64 (.inl rfl) rfl (ix1 o) = _
  rw [shapeCast_self, colsum_apply]
  rfl

/-- The zeros the first point stores are the number zero. -/
theorem zero4_apply (o : Fin 64) : (k0_pay4 (F := Ideal) (ix1 o) : EReal) = 0 := cZero_eq
theorem zero5_apply (o : Fin 64) : (k0_pay5 (F := Ideal) (ix1 o) : EReal) = 0 := cZero_eq

/-- The sum of the first layer down the rows of block t, per channel; -/
def bsum (c : Dev nD) (t : Fin cfg0.N) (o : Fin 64) : EReal :=
  ∑ r : Fin 25600, h1preB (F := Ideal) (xb0 V c t) (xb1 V c t) (xb2 V c t) (xb3 V c t) (ix2 r o)

/-- and of its squares. -/
def bsq (c : Dev nD) (t : Fin cfg0.N) (o : Fin 64) : EReal :=
  ∑ r : Fin 25600, h1preB (F := Ideal) (xb0 V c t) (xb1 V c t) (xb2 V c t) (xb3 V c t) (ix2 r o) * h1preB (F := Ideal) (xb0 V c t) (xb1 V c t) (xb2 V c t) (xb3 V c t) (ix2 r o)

/-- The same over every natural number, zero past the grid: the addend of point s. -/
def bsumN (c : Dev nD) (s : ℕ) (o : Fin 64) : EReal := if h : s < cfg0.N then bsum V c ⟨s, h⟩ o else 0
def bsqN (c : Dev nD) (s : ℕ) (o : Fin 64) : EReal := if h : s < cfg0.N then bsq V c ⟨s, h⟩ o else 0

/-- After the first point the two vectors hold that block's sums: zero was stored, read back and added to. -/
theorem first_eq (c : Dev nD) (h : 0 < cfg0.N) (o : Fin 64) :
    ((outsAt0 V c 0 h).1 (ix1 o) : EReal) = bsum V c ⟨0, h⟩ o
    ∧ ((outsAt0 V c 0 h).2 (ix1 o) : EReal) = bsq V c ⟨0, h⟩ o := by
  have hA : (⟨0, h⟩ : Fin cfg0.N).val % 60 = 0 := Nat.zero_mod 60
  rw [outsAt0_A V c ⟨0, h⟩ hA]
  dsimp only
  constructor
  · refine (congrFun (out_A_4 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩)
      ((hcond0_0 ⟨0, h⟩).mpr hA) (xb0 V c ⟨0, h⟩) (xb1 V c ⟨0, h⟩) (xb2 V c ⟨0, h⟩) (xb3 V c ⟨0, h⟩)) (ix1 o)).trans ?_
    rw [step4_apply, zero4_apply, zero_add]
    rfl
  · refine (congrFun (out_A_5 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩)
      ((hcond0_0 ⟨0, h⟩).mpr hA) (xb0 V c ⟨0, h⟩) (xb1 V c ⟨0, h⟩) (xb2 V c ⟨0, h⟩) (xb3 V c ⟨0, h⟩)) (ix1 o)).trans ?_
    rw [step5_apply, zero5_apply, zero_add]
    rfl

/-- Every later point adds its block's sums to what the point before left. -/
theorem next_eq (c : Dev nD) (n : ℕ) (h : n + 1 < cfg0.N) (o : Fin 64) :
    ((outsAt0 V c (n + 1) h).1 (ix1 o) : EReal)
        = ((outsAt0 V c n (Nat.lt_of_succ_lt h)).1 (ix1 o) : EReal) + bsum V c ⟨n + 1, h⟩ o
    ∧ ((outsAt0 V c (n + 1) h).2 (ix1 o) : EReal)
        = ((outsAt0 V c n (Nat.lt_of_succ_lt h)).2 (ix1 o) : EReal) + bsq V c ⟨n + 1, h⟩ o := by
  have hN : cfg0.N = 60 := N_0
  have hB : ¬(⟨n + 1, h⟩ : Fin cfg0.N).val % 60 = 0 := by dsimp only; omega
  rw [outsAt0_B V c ⟨n + 1, h⟩ hB]
  dsimp only
  constructor
  · refine (congrFun (out_B_4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩)
      (fun hh => hB ((hcond0_0 ⟨n + 1, h⟩).mp hh)) (xb0 V c ⟨n + 1, h⟩) (xb1 V c ⟨n + 1, h⟩) (xb2 V c ⟨n + 1, h⟩) (xb3 V c ⟨n + 1, h⟩)
      (outsAt0 V c n (Nat.lt_of_succ_lt h)).1 (outsAt0 V c n (Nat.lt_of_succ_lt h)).2) (ix1 o)).trans ?_
    rw [step4_apply]
    rfl
  · refine (congrFun (out_B_5 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩)
      (fun hh => hB ((hcond0_0 ⟨n + 1, h⟩).mp hh)) (xb0 V c ⟨n + 1, h⟩) (xb1 V c ⟨n + 1, h⟩) (xb2 V c ⟨n + 1, h⟩) (xb3 V c ⟨n + 1, h⟩)
      (outsAt0 V c n (Nat.lt_of_succ_lt h)).1 (outsAt0 V c n (Nat.lt_of_succ_lt h)).2) (ix1 o)).trans ?_
    rw [step5_apply]
    rfl

/-- So after point n the two vectors hold the sums over the blocks 0 … n: by induction on the point. -/
theorem acc_eq (c : Dev nD) : ∀ (n : ℕ) (h : n < cfg0.N) (o : Fin 64),
    ((outsAt0 V c n h).1 (ix1 o) : EReal) = ∑ s ∈ Finset.range (n + 1), bsumN V c s o
    ∧ ((outsAt0 V c n h).2 (ix1 o) : EReal) = ∑ s ∈ Finset.range (n + 1), bsqN V c s o
  | 0, h, o => by
    rw [Finset.sum_range_one, Finset.sum_range_one]
    unfold bsumN bsqN
    rw [dif_pos h, dif_pos h]
    exact first_eq V c h o
  | n + 1, h, o => by
    have ih := acc_eq c n (Nat.lt_of_succ_lt h) o
    have hs := next_eq V c n h o
    rw [Finset.sum_range_succ _ (n + 1), Finset.sum_range_succ _ (n + 1), ← ih.1, ← ih.2]
    unfold bsumN bsqN
    rw [dif_pos h, dif_pos h]
    exact hs

/-- Block t's sums are the network's first layer summed over the block's points: a row of the block is a point of the
    cloud, and the block's first layer at that row is the network's at that point. -/
theorem bsum_eq (c : Dev nD) (t : Fin cfg0.N) (o : Fin 64) :
    bsum V c t o = ∑ b : Fin 4, ∑ p : Fin 200, ∑ q : Fin 32, pre1 V c b (pil (blkOf t) p) q o := by
  unfold bsum
  rw [sum_rows]
  refine Finset.sum_congr rfl fun b _ => Finset.sum_congr rfl fun p _ => Finset.sum_congr rfl fun q _ => ?_
  rw [xb3_eq]
  exact h1preB_apply (V c main_arg0) (V c main_arg1) (V c main_v0) (V c main_arg3) (blkOf t)
    (xb0 V c t) (xb0_apply V c t) (xb1 V c t) (xb1_apply V c t) (xb2 V c t) (xb2_apply V c t) b p q o

/-- Likewise the sums of the squares. -/
theorem bsq_eq (c : Dev nD) (t : Fin cfg0.N) (o : Fin 64) :
    bsq V c t o = ∑ b : Fin 4, ∑ p : Fin 200, ∑ q : Fin 32, sq (pre1 V c) b (pil (blkOf t) p) q o := by
  unfold bsq
  rw [sum_rows]
  refine Finset.sum_congr rfl fun b _ => Finset.sum_congr rfl fun p _ => Finset.sum_congr rfl fun q _ => ?_
  rw [xb3_eq]
  have e := h1preB_apply (V c main_arg0) (V c main_arg1) (V c main_v0) (V c main_arg3) (blkOf t)
    (xb0 V c t) (xb0_apply V c t) (xb1 V c t) (xb1_apply V c t) (xb2 V c t) (xb2_apply V c t) b p q o
  rw [e]
  rfl

/-- The 60 blocks' sums together are the total over all points of the cloud. -/
theorem total_eq (c : Dev nD) (o : Fin 64) : ∑ s ∈ Finset.range 60, bsumN V c s o = tot (pre1 V c) o := by
  rw [tot_eq_blocks, Finset.sum_range]
  refine Finset.sum_congr rfl fun t _ => ?_
  have h : t.val < cfg0.N := lt_of_lt_of_eq t.isLt (show 60 = cfg0.N from N_0.symm)
  unfold bsumN
  rw [dif_pos h, bsum_eq]
  rfl

theorem totalsq_eq (c : Dev nD) (o : Fin 64) : ∑ s ∈ Finset.range 60, bsqN V c s o = tot (sq (pre1 V c)) o := by
  rw [tot_eq_blocks, Finset.sum_range]
  refine Finset.sum_congr rfl fun t _ => ?_
  have h : t.val < cfg0.N := lt_of_lt_of_eq t.isLt (show 60 = cfg0.N from N_0.symm)
  unfold bsqN
  rw [dif_pos h, bsq_eq]
  rfl

/-- The last point. -/
theorem h59 : 59 < cfg0.N := by rw [show cfg0.N = 60 from N_0]; decide

/-- What the two vectors hold after the last point, as contents of the two output arrays. -/
abbrev res4 (c : Dev nD) : Buf (Elt Ideal) ((c : Thread nD τ).loc main_v1_0) := (outsAt0 V c 59 h59).1
abbrev res5 (c : Dev nD) : Buf (Elt Ideal) ((c : Thread nD τ).loc main_v1_1) := (outsAt0 V c 59 h59).2

/-- The first output is written back once, after the last point; its one block is the whole array. -/
theorem flushed4_eq (c : Dev nD) (t : Fin cfg0.N) (hf : (cfg0.win 4).flush t = true) :
    (dat0 V c).flushed 4 t = ((cfg0.win 4).blk t).view.read (Elt Ideal) (res4 V c) := by
  have hN : cfg0.N = 60 := N_0
  have h3 : t.val = 59 := by have := (flush0_4 t).mp hf; have := t.isLt; omega
  obtain rfl : t = ⟨59, h59⟩ := Fin.ext h3
  show (cfg0.win 4).cut (grid0.coords ⟨59, h59⟩) ((dat0 V c).after 4 ⟨59, h59⟩) = _
  rw [after0_4]
  have hi : win0_4.index ⟨59, h59⟩ 0 = 0 := (by decide +kernel : ∀ t : Fin grid0.N, win0_4.index t 0 = 0) ⟨59, h59⟩
  have hz' : (fun a => win0_4.index ⟨59, h59⟩ a * main_v1_0.ty.shape.size a) = fun _ => 0 :=
    funext fun a => by
      match a with
      | ⟨0, _⟩ => show win0_4.index ⟨59, h59⟩ 0 * 64 = 0; rw [hi]
  exact (Memref.read_access_unit_zero (Elt Ideal) main_v1_0 hz' (fun a => by rw [congrFun hz' a]; simp) (res4 V c)).symm

/-- The second likewise. -/
theorem flushed5_eq (c : Dev nD) (t : Fin cfg0.N) (hf : (cfg0.win 5).flush t = true) :
    (dat0 V c).flushed 5 t = ((cfg0.win 5).blk t).view.read (Elt Ideal) (res5 V c) := by
  have hN : cfg0.N = 60 := N_0
  have h3 : t.val = 59 := by have := (flush0_5 t).mp hf; have := t.isLt; omega
  obtain rfl : t = ⟨59, h59⟩ := Fin.ext h3
  show (cfg0.win 5).cut (grid0.coords ⟨59, h59⟩) ((dat0 V c).after 5 ⟨59, h59⟩) = _
  rw [after0_5]
  have hi : win0_5.index ⟨59, h59⟩ 0 = 0 := (by decide +kernel : ∀ t : Fin grid0.N, win0_5.index t 0 = 0) ⟨59, h59⟩
  have hz' : (fun a => win0_5.index ⟨59, h59⟩ a * main_v1_1.ty.shape.size a) = fun _ => 0 :=
    funext fun a => by
      match a with
      | ⟨0, _⟩ => show win0_5.index ⟨59, h59⟩ 0 * 64 = 0; rw [hi]
  exact (Memref.read_access_unit_zero (Elt Ideal) main_v1_1 hz' (fun a => by rw [congrFun hz' a]; simp) (res5 V c)).symm

/-- So the first output array ends holding what the first vector held after the last point. -/
theorem final4 (c : Dev nD) : (dat0 V c).arrAt 4 cfg0.N = res4 V c :=
  (dat0 V c).arrAt_eq_of_cover 4 (res4 V c) (flushed4_eq V c) fun i =>
    ⟨⟨59, h59⟩, (flush0_4 ⟨59, h59⟩).mpr rfl, by
      show i ∈ ((View.whole main_v1_0).slice (win0_4.rect ⟨59, h59⟩)).set
      rw [View.set_slice_whole, Rect.mem_set_unit]
      intro a
      have h0 : (i 0 : Nat) < 64 := (i 0).isLt
      have hi : win0_4.index ⟨59, h59⟩ 0 = 0 := (by decide +kernel : ∀ t : Fin grid0.N, win0_4.index t 0 = 0) ⟨59, h59⟩
      match a with
      | ⟨0, _⟩ =>
        show win0_4.index ⟨59, h59⟩ 0 * 64 ≤ (i 0 : Nat) ∧ (i 0 : Nat) < win0_4.index ⟨59, h59⟩ 0 * 64 + 64
        rw [hi]; omega⟩

theorem final5 (c : Dev nD) : (dat0 V c).arrAt 5 cfg0.N = res5 V c :=
  (dat0 V c).arrAt_eq_of_cover 5 (res5 V c) (flushed5_eq V c) fun i =>
    ⟨⟨59, h59⟩, (flush0_5 ⟨59, h59⟩).mpr rfl, by
      show i ∈ ((View.whole main_v1_1).slice (win0_5.rect ⟨59, h59⟩)).set
      rw [View.set_slice_whole, Rect.mem_set_unit]
      intro a
      have h0 : (i 0 : Nat) < 64 := (i 0).isLt
      have hi : win0_5.index ⟨59, h59⟩ 0 = 0 := (by decide +kernel : ∀ t : Fin grid0.N, win0_5.index t 0 = 0) ⟨59, h59⟩
      match a with
      | ⟨0, _⟩ =>
        show win0_5.index ⟨59, h59⟩ 0 * 64 ≤ (i 0 : Nat) ∧ (i 0 : Nat) < win0_5.index ⟨59, h59⟩ 0 * 64 + 64
        rw [hi]; omega⟩

/-- An index of a vector of 64 is its one coordinate. -/
theorem idx64 (i : S64.Idx) : i = ix1 (i 0) := funext fun a => by
  match a with
  | ⟨0, _⟩ => rfl

/-- After the pass the first output array holds the total of the first layer over all points, per channel. -/
theorem sum_eq (c : Dev nD) :
    ((dat0 (F := Ideal) V c).arrAt 4 cfg0.N : S64.Idx → EReal) = fun i => tot (pre1 V c) (i 0) := by
  rw [final4]
  funext i
  rw [idx64 i]
  exact ((acc_eq V c 59 h59 (i 0)).1).trans (total_eq V c (i 0))

/-- After the pass the second output array holds the total of its squares. -/
theorem sumsq_eq (c : Dev nD) :
    ((dat0 (F := Ideal) V c).arrAt 5 cfg0.N : S64.Idx → EReal) = fun i => tot (sq (pre1 V c)) (i 0) := by
  rw [final5]
  funext i
  rw [idx64 i]
  exact ((acc_eq V c 59 h59 (i 0)).2).trans (totalsq_eq V c (i 0))

end Cert.KernelIdeal.Reg0

end
-- ==== Proof.KReg1.lean ====
/-
  The second pass. The same walk over the 60 blocks; each point recomputes the first layer of its block, normalises it
  by the mean and variance the pass is given, clips it at zero, applies the second linear layer, and adds the sums down
  the rows of that and of its squares to two vectors that are zeroed at point 0 and stay in place. After the last point
  they hold the totals over all points.
-/
import proofs.«133398_j52536039964809_1_alg».proof.Proof.Gen.KernelIdeal.Frame
import proofs.«133398_j52536039964809_1_alg».proof.Proof.Spec
import proofs.«133398_j52536039964809_1_alg».proof.Proof.SumLemmas
import proofs.«133398_j52536039964809_1_alg».proof.Proof.KBlock
import proofs.«133398_j52536039964809_1_alg».proof.Proof.KFeat
import proofs.«133398_j52536039964809_1_alg».proof.Proof.KOps
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

noncomputable section

open scoped BigOperators

open Idealize.ShloMosaic Idealize.ShloMosaic.TcCoe Idealize.SL.Sem Idealize.ShloMosaic.ValueIdx
open Idealize.ShloMosaic.Pipeline (Dat)

namespace Cert.KernelIdeal.Reg1

open Cert.KernelIdeal Cert.KernelIdeal.Gen Cert.KernelIdeal.Blk Cert.PFN

section Pieces

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The block's first layer, normalised by the mean `mu` and the variance `var`, scaled by `g` and shifted by `be`. -/
abbrev nrm (x0 : Vec F S4x200x32x4 .f32) (x1 : Vec F S4x200x4 .i32) (x2 : Vec F S4x200x1 .i32) (w1 : Vec F S9x64 .f32)
    (g be mu var : Vec F S64 .f32) : FVec F S25600x64 .f32 :=
  k1_pay12 (k1_pay6 x2) (k1_pay7 x0) (k1_pay8 x0) (k1_pay9 x1) (k1_pay10 x1) (k1_pay11 x0 x1) w1 mu var g be

/-- At a point after the first the pass leaves in output 9's buffer, which held `xo9`, the sum of `xo9` and the block's
    contribution: its one store covers the buffer, and every load reads a whole buffer. -/
theorem out_B_9 (c : Dev nD) (i : grid1.Coords) (a1 : Memref sig .tc .vmem S4x200x32x4 .f32) (h1 : a1.IsWhole) (a2 : Memref sig .tc .vmem S4x200x4 .i32) (h2 : a2.IsWhole) (a3 : Memref sig .tc .vmem S4x200x1 .i32) (h3 : a3.IsWhole) (a4 : Memref sig .tc .vmem S9x64 .f32) (h4 : a4.IsWhole) (a5 : Memref sig .tc .vmem S64 .f32) (h5 : a5.IsWhole) (a6 : Memref sig .tc .vmem S64 .f32) (h6 : a6.IsWhole) (a7 : Memref sig .tc .vmem S64 .f32) (h7 : a7.IsWhole) (a8 : Memref sig .tc .vmem S64 .f32) (h8 : a8.IsWhole) (a9 : Memref sig .tc .vmem S64x64 .f32) (h9 : a9.IsWhole) (a10 : Memref sig .tc .vmem S64 .f32) (h10 : a10.IsWhole) (a11 : Memref sig .tc .vmem S64 .f32) (h11 : a11.IsWhole) (hc : ¬cond1_0 i)
    (x0 : Vec F S4x200x32x4 .f32) (x1 : Vec F S4x200x4 .i32) (x2 : Vec F S4x200x1 .i32) (x3 : Vec F S9x64 .f32) (x4 : Vec F S64 .f32) (x5 : Vec F S64 .f32) (x6 : Vec F S64 .f32) (x7 : Vec F S64 .f32) (x8 : Vec F S64x64 .f32) (xo9 xo10 : Vec F S64 .f32) :
    out1_B_9 c i a1 h1 a2 h2 a3 h3 a4 h4 a5 h5 a6 h6 a7 h7 a8 h8 a9 h9 a10 h10 a11 h11 hc x0 x1 x2 x3 x4 x5 x6 x7 x8 xo9 xo10 = k1_pay2 (nrm x0 x1 x2 x3 x4 x5 x6 x7) x8 xo9 := by
  unfold out1_B_9
  rw [View.read_writes_eq_canon _ _ _ (cover1_B_9 c i a1 h1 a2 h2 a3 h3 a4 h4 a5 h5 a6 h6 a7 h7 a8 h8 a9 h9 a10 h10 a11 h11 hc x0 x1 x2 x3 x4 x5 x6 x7 x8 xo9 xo10)]
  unfold kernelRun1_B
  dsimp only
  sl_unfold_words
  rw [View.canon_unit_zero (S := S64) hz1]
  simp only [View.readAt_eq_ld, h1.read_unread, h2.read_unread, h3.read_unread, h4.read_unread, h5.read_unread, h6.read_unread,
    h7.read_unread, h8.read_unread, h9.read_unread, h10.read_unread, h11.read_unread,
    View.ld_unit_zero (S := S4x200x32x4) hz4, View.ld_unit_zero (S := S4x200x4) hz3, View.ld_unit_zero (S := S4x200x1) hz3,
    View.ld_unit_zero (S := S9x64) hz2, View.ld_unit_zero (S := S64x64) hz2, View.ld_unit_zero (S := S64) hz1]

/-- At a point after the first the pass leaves in output 10's buffer, which held `xo10`, the sum of `xo10` and the block's
    contribution: its one store covers the buffer, and every load reads a whole buffer. -/
theorem out_B_10 (c : Dev nD) (i : grid1.Coords) (a1 : Memref sig .tc .vmem S4x200x32x4 .f32) (h1 : a1.IsWhole) (a2 : Memref sig .tc .vmem S4x200x4 .i32) (h2 : a2.IsWhole) (a3 : Memref sig .tc .vmem S4x200x1 .i32) (h3 : a3.IsWhole) (a4 : Memref sig .tc .vmem S9x64 .f32) (h4 : a4.IsWhole) (a5 : Memref sig .tc .vmem S64 .f32) (h5 : a5.IsWhole) (a6 : Memref sig .tc .vmem S64 .f32) (h6 : a6.IsWhole) (a7 : Memref sig .tc .vmem S64 .f32) (h7 : a7.IsWhole) (a8 : Memref sig .tc .vmem S64 .f32) (h8 : a8.IsWhole) (a9 : Memref sig .tc .vmem S64x64 .f32) (h9 : a9.IsWhole) (a10 : Memref sig .tc .vmem S64 .f32) (h10 : a10.IsWhole) (a11 : Memref sig .tc .vmem S64 .f32) (h11 : a11.IsWhole) (hc : ¬cond1_0 i)
    (x0 : Vec F S4x200x32x4 .f32) (x1 : Vec F S4x200x4 .i32) (x2 : Vec F S4x200x1 .i32) (x3 : Vec F S9x64 .f32) (x4 : Vec F S64 .f32) (x5 : Vec F S64 .f32) (x6 : Vec F S64 .f32) (x7 : Vec F S64 .f32) (x8 : Vec F S64x64 .f32) (xo9 xo10 : Vec F S64 .f32) :
    out1_B_10 c i a1 h1 a2 h2 a3 h3 a4 h4 a5 h5 a6 h6 a7 h7 a8 h8 a9 h9 a10 h10 a11 h11 hc x0 x1 x2 x3 x4 x5 x6 x7 x8 xo9 xo10 = k1_pay3 (nrm x0 x1 x2 x3 x4 x5 x6 x7) x8 xo10 := by
  unfold out1_B_10
  rw [View.read_writes_eq_canon _ _ _ (cover1_B_10 c i a1 h1 a2 h2 a3 h3 a4 h4 a5 h5 a6 h6 a7 h7 a8 h8 a9 h9 a10 h10 a11 h11 hc x0 x1 x2 x3 x4 x5 x6 x7 x8 xo9 xo10)]
  unfold kernelRun1_B
  dsimp only
  sl_unfold_words
  rw [View.canon_unit_zero (S := S64) hz1]
  simp only [View.readAt_eq_ld, h1.read_unread, h2.read_unread, h3.read_unread, h4.read_unread, h5.read_unread, h6.read_unread,
    h7.read_unread, h8.read_unread, h9.read_unread, h10.read_unread, h11.read_unread,
    View.ld_unit_zero (S := S4x200x32x4) hz4, View.ld_unit_zero (S := S4x200x4) hz3, View.ld_unit_zero (S := S4x200x1) hz3,
    View.ld_unit_zero (S := S9x64) hz2, View.ld_unit_zero (S := S64x64) hz2, View.ld_unit_zero (S := S64) hz1]

/-- At the first point the pass stores the zero vector in output 9's buffer, reads it back, and leaves the sum of it and the
    block's contribution. -/
theorem out_A_9 (c : Dev nD) (i : grid1.Coords) (a1 : Memref sig .tc .vmem S4x200x32x4 .f32) (h1 : a1.IsWhole) (a2 : Memref sig .tc .vmem S4x200x4 .i32) (h2 : a2.IsWhole) (a3 : Memref sig .tc .vmem S4x200x1 .i32) (h3 : a3.IsWhole) (a4 : Memref sig .tc .vmem S9x64 .f32) (h4 : a4.IsWhole) (a5 : Memref sig .tc .vmem S64 .f32) (h5 : a5.IsWhole) (a6 : Memref sig .tc .vmem S64 .f32) (h6 : a6.IsWhole) (a7 : Memref sig .tc .vmem S64 .f32) (h7 : a7.IsWhole) (a8 : Memref sig .tc .vmem S64 .f32) (h8 : a8.IsWhole) (a9 : Memref sig .tc .vmem S64x64 .f32) (h9 : a9.IsWhole) (a10 : Memref sig .tc .vmem S64 .f32) (h10 : a10.IsWhole) (a11 : Memref sig .tc .vmem S64 .f32) (h11 : a11.IsWhole) (hc : cond1_0 i)
    (x0 : Vec F S4x200x32x4 .f32) (x1 : Vec F S4x200x4 .i32) (x2 : Vec F S4x200x1 .i32) (x3 : Vec F S9x64 .f32) (x4 : Vec F S64 .f32) (x5 : Vec F S64 .f32) (x6 : Vec F S64 .f32) (x7 : Vec F S64 .f32) (x8 : Vec F S64x64 .f32) :
    out1_A_9 c i a1 h1 a2 h2 a3 h3 a4 h4 a5 h5 a6 h6 a7 h7 a8 h8 a9 h9 a10 h10 a11 h11 hc x0 x1 x2 x3 x4 x5 x6 x7 x8 = k1_pay2 (nrm x0 x1 x2 x3 x4 x5 x6 x7) x8 k1_pay4 := by
  unfold out1_A_9
  rw [View.read_writes_eq_canon _ _ _ (cover1_A_9 c i a1 h1 a2 h2 a3 h3 a4 h4 a5 h5 a6 h6 a7 h7 a8 h8 a9 h9 a10 h10 a11 h11 hc x0 x1 x2 x3 x4 x5 x6 x7 x8)]
  unfold kernelRun1_A
  dsimp only
  sl_unfold_words
  rw [View.canon_cons_unit_zero (S := S64) hz1]
  simp only [View.readAt_eq_ld, h1.read_unread, h2.read_unread, h3.read_unread, h4.read_unread, h5.read_unread, h6.read_unread,
    h7.read_unread, h8.read_unread, h9.read_unread, View.readCov_unit_zero (S := S64) _ hz1,
    View.ld_unit_zero (S := S4x200x32x4) hz4, View.ld_unit_zero (S := S4x200x4) hz3, View.ld_unit_zero (S := S4x200x1) hz3,
    View.ld_unit_zero (S := S9x64) hz2, View.ld_unit_zero (S := S64x64) hz2, View.ld_unit_zero (S := S64) hz1]

/-- At the first point the pass stores the zero vector in output 10's buffer, reads it back, and leaves the sum of it and the
    block's contribution. -/
theorem out_A_10 (c : Dev nD) (i : grid1.Coords) (a1 : Memref sig .tc .vmem S4x200x32x4 .f32) (h1 : a1.IsWhole) (a2 : Memref sig .tc .vmem S4x200x4 .i32) (h2 : a2.IsWhole) (a3 : Memref sig .tc .vmem S4x200x1 .i32) (h3 : a3.IsWhole) (a4 : Memref sig .tc .vmem S9x64 .f32) (h4 : a4.IsWhole) (a5 : Memref sig .tc .vmem S64 .f32) (h5 : a5.IsWhole) (a6 : Memref sig .tc .vmem S64 .f32) (h6 : a6.IsWhole) (a7 : Memref sig .tc .vmem S64 .f32) (h7 : a7.IsWhole) (a8 : Memref sig .tc .vmem S64 .f32) (h8 : a8.IsWhole) (a9 : Memref sig .tc .vmem S64x64 .f32) (h9 : a9.IsWhole) (a10 : Memref sig .tc .vmem S64 .f32) (h10 : a10.IsWhole) (a11 : Memref sig .tc .vmem S64 .f32) (h11 : a11.IsWhole) (hc : cond1_0 i)
    (x0 : Vec F S4x200x32x4 .f32) (x1 : Vec F S4x200x4 .i32) (x2 : Vec F S4x200x1 .i32) (x3 : Vec F S9x64 .f32) (x4 : Vec F S64 .f32) (x5 : Vec F S64 .f32) (x6 : Vec F S64 .f32) (x7 : Vec F S64 .f32) (x8 : Vec F S64x64 .f32) :
    out1_A_10 c i a1 h1 a2 h2 a3 h3 a4 h4 a5 h5 a6 h6 a7 h7 a8 h8 a9 h9 a10 h10 a11 h11 hc x0 x1 x2 x3 x4 x5 x6 x7 x8 = k1_pay3 (nrm x0 x1 x2 x3 x4 x5 x6 x7) x8 k1_pay5 := by
  unfold out1_A_10
  rw [View.read_writes_eq_canon _ _ _ (cover1_A_10 c i a1 h1 a2 h2 a3 h3 a4 h4 a5 h5 a6 h6 a7 h7 a8 h8 a9 h9 a10 h10 a11 h11 hc x0 x1 x2 x3 x4 x5 x6 x7 x8)]
  unfold kernelRun1_A
  dsimp only
  sl_unfold_words
  rw [View.canon_cons_unit_zero (S := S64) hz1]
  simp only [View.readAt_eq_ld, h1.read_unread, h2.read_unread, h3.read_unread, h4.read_unread, h5.read_unread, h6.read_unread,
    h7.read_unread, h8.read_unread, h9.read_unread, View.readCov_unit_zero (S := S64) _ hz1,
    View.ld_unit_zero (S := S4x200x32x4) hz4, View.ld_unit_zero (S := S4x200x4) hz3, View.ld_unit_zero (S := S4x200x1) hz3,
    View.ld_unit_zero (S := S9x64) hz2, View.ld_unit_zero (S := S64x64) hz2, View.ld_unit_zero (S := S64) hz1]

end Pieces

variable (V : (c : Dev nD) → (b : Ref sig .tc) → Buf (Elt Ideal) ((c : Thread nD τ).loc b))

section Values

/-! ## The pass's stores, read at a channel -/

/-- The vector a total starts from is zero. -/
theorem pay4_apply (o : Fin 64) : k1_pay4 (F := Ideal) (ix1 o) = 0 := cZero_eq
theorem pay5_apply (o : Fin 64) : k1_pay5 (F := Ideal) (ix1 o) = 0 := cZero_eq

/-- The first total's update: the old value plus the sum down the block's rows of the second layer. -/
theorem pay2_apply (a : FVec Ideal S25600x64 .f32) (w2 : Vec Ideal S64x64 .f32) (acc : Vec Ideal S64 .f32) (o : Fin 64) :
    k1_pay2 (F := Ideal) a w2 acc (ix1 o) = acc (ix1 o) + ∑ r : Fin 25600, k1_pay1 (F := Ideal) a w2 (ix2 r o) := by
  have e1 : shapeCast S64 acc shapeCasts_S64_S64 = acc := shapeCast_self acc shapeCasts_S64_S64
  show (shapeCast S64 acc shapeCasts_S64_S64) (ix1 o)
    + multiReduction (F := Ideal) .add [0] S64 (k1_pay1 (F := Ideal) a w2) 0x00000000#32 reduces_S25600x64_S64 (.inl rfl) rfl (ix1 o) = _
  rw [e1, colsum_apply]

/-- The second total's update: the old value plus the sum down the block's rows of the second layer's squares. -/
theorem pay3_apply (a : FVec Ideal S25600x64 .f32) (w2 : Vec Ideal S64x64 .f32) (acc : Vec Ideal S64 .f32) (o : Fin 64) :
    k1_pay3 (F := Ideal) a w2 acc (ix1 o)
      = acc (ix1 o) + ∑ r : Fin 25600, k1_pay1 (F := Ideal) a w2 (ix2 r o) * k1_pay1 (F := Ideal) a w2 (ix2 r o) := by
  have e1 : shapeCast S64 acc shapeCasts_S64_S64 = acc := shapeCast_self acc shapeCasts_S64_S64
  show (shapeCast S64 acc shapeCasts_S64_S64) (ix1 o)
    + multiReduction (F := Ideal) .add [0] S64 (mulf (k1_pay1 (F := Ideal) a w2) (k1_pay1 (F := Ideal) a w2)) 0x00000000#32
        reduces_S25600x64_S64 (.inl rfl) rfl (ix1 o) = _
  rw [e1, colsum_apply]
  rfl

/-! ## The windows' blocks -/

/-- Point `t` of the walk is block `t` of the 60. -/
def blkOf (t : Fin cfg1.N) : Fin 60 := ⟨t.val, lt_of_lt_of_eq t.isLt N_1⟩

abbrev xb0 (c : Dev nD) (t : Fin cfg1.N) : Vec Ideal S4x200x32x4 .f32 := iblk1 V c 0 t
abbrev xb1 (c : Dev nD) (t : Fin cfg1.N) : Vec Ideal S4x200x4 .i32 := iblk1 V c 1 t
abbrev xb2 (c : Dev nD) (t : Fin cfg1.N) : Vec Ideal S4x200x1 .i32 := iblk1 V c 2 t
abbrev xb3 (c : Dev nD) (t : Fin cfg1.N) : Vec Ideal S9x64 .f32 := iblk1 V c 3 t
abbrev xb4 (c : Dev nD) (t : Fin cfg1.N) : Vec Ideal S64 .f32 := iblk1 V c 4 t
abbrev xb5 (c : Dev nD) (t : Fin cfg1.N) : Vec Ideal S64 .f32 := iblk1 V c 5 t
abbrev xb6 (c : Dev nD) (t : Fin cfg1.N) : Vec Ideal S64 .f32 := iblk1 V c 6 t
abbrev xb7 (c : Dev nD) (t : Fin cfg1.N) : Vec Ideal S64 .f32 := iblk1 V c 7 t
abbrev xb8 (c : Dev nD) (t : Fin cfg1.N) : Vec Ideal S64x64 .f32 := iblk1 V c 8 t

/-- The voxel window at point `t` holds the pillars 200 t … 200 t + 199 of every batch entry: entry (b, p, q, k) of the
    block is entry (b, 200 t + p, q, k) of the array (a block's coordinate is its index times its size plus the
    coordinate inside). -/
theorem xb0_apply (c : Dev nD) (t : Fin cfg1.N) (b : Fin 4) (p : Fin 200) (q : Fin 32) (k : Fin 4) :
    xb0 V c t (ix4 b p q k) = V c main_arg0 (ix4 b (pil (blkOf t) p) q k) := by
  have hi : win1_0.index t 0 = 0 ∧ win1_0.index t 1 = t.val ∧ win1_0.index t 2 = 0 ∧ win1_0.index t 3 = 0 :=
    (by decide +kernel : ∀ t : Fin grid1.N, win1_0.index t 0 = 0 ∧ win1_0.index t 1 = t.val ∧ win1_0.index t 2 = 0 ∧ win1_0.index t 3 = 0) t
  unfold xb0 iblk1
  rw [View.read_apply]
  show V c main_arg0 _ = V c main_arg0 _
  congr 1
  funext a
  apply Fin.ext
  match a with
  | ⟨0, _⟩ => show win1_0.index t 0 * 4 + 1 * b.val = b.val; rw [hi.1]; omega
  | ⟨1, _⟩ => show win1_0.index t 1 * 200 + 1 * p.val = 200 * t.val + p.val; rw [hi.2.1]; omega
  | ⟨2, _⟩ => show win1_0.index t 2 * 32 + 1 * q.val = q.val; rw [hi.2.2.1]; omega
  | ⟨3, _⟩ => show win1_0.index t 3 * 4 + 1 * k.val = k.val; rw [hi.2.2.2]; omega

/-- The same for the pillars' grid cells. -/
theorem xb1_apply (c : Dev nD) (t : Fin cfg1.N) (b : Fin 4) (p : Fin 200) (k : Fin 4) :
    xb1 V c t (ix3 b p k) = V c main_arg1 (ix3 b (pil (blkOf t) p) k) := by
  have hi : win1_1.index t 0 = 0 ∧ win1_1.index t 1 = t.val ∧ win1_1.index t 2 = 0 :=
    (by decide +kernel : ∀ t : Fin grid1.N, win1_1.index t 0 = 0 ∧ win1_1.index t 1 = t.val ∧ win1_1.index t 2 = 0) t
  unfold xb1 iblk1
  rw [View.read_apply]
  show V c main_arg1 _ = V c main_arg1 _
  congr 1
  funext a
  apply Fin.ext
  match a with
  | ⟨0, _⟩ => show win1_1.index t 0 * 4 + 1 * b.val = b.val; rw [hi.1]; omega
  | ⟨1, _⟩ => show win1_1.index t 1 * 200 + 1 * p.val = 200 * t.val + p.val; rw [hi.2.1]; omega
  | ⟨2, _⟩ => show win1_1.index t 2 * 4 + 1 * k.val = k.val; rw [hi.2.2]; omega

/-- The same for the column of point counts. -/
theorem xb2_apply (c : Dev nD) (t : Fin cfg1.N) (b : Fin 4) (p : Fin 200) :
    xb2 V c t (ix3 b p 0) = V c main_v0 (ix3 b (pil (blkOf t) p) 0) := by
  have hi : win1_2.index t 0 = 0 ∧ win1_2.index t 1 = t.val ∧ win1_2.index t 2 = 0 :=
    (by decide +kernel : ∀ t : Fin grid1.N, win1_2.index t 0 = 0 ∧ win1_2.index t 1 = t.val ∧ win1_2.index t 2 = 0) t
  unfold xb2 iblk1
  rw [View.read_apply]
  show V c main_v0 _ = V c main_v0 _
  congr 1
  funext a
  apply Fin.ext
  match a with
  | ⟨0, _⟩ => show win1_2.index t 0 * 4 + 1 * b.val = b.val; rw [hi.1]; omega
  | ⟨1, _⟩ => show win1_2.index t 1 * 200 + 1 * p.val = 200 * t.val + p.val; rw [hi.2.1]; omega
  | ⟨2, _⟩ => show win1_2.index t 2 * 1 + 1 * (0 : Fin 1).val = (0 : Fin 1).val; rw [hi.2.2]; rfl

/-- Window 3 does not move: its block at every point is the whole array. -/
theorem xb3_eq (c : Dev nD) (t : Fin cfg1.N) : xb3 V c t = V c main_arg3 := by
  have hi : win1_3.index t 0 = 0 ∧ win1_3.index t 1 = 0 :=
    (by decide +kernel : ∀ t : Fin grid1.N, win1_3.index t 0 = 0 ∧ win1_3.index t 1 = 0) t
  funext j
  unfold xb3 iblk1
  rw [View.read_apply]
  show V c main_arg3 _ = V c main_arg3 j
  congr 1
  funext a
  apply Fin.ext
  match a with
  | ⟨0, _⟩ => show win1_3.index t 0 * 9 + 1 * (j 0).val = (j 0).val; rw [hi.1]; omega
  | ⟨1, _⟩ => show win1_3.index t 1 * 64 + 1 * (j 1).val = (j 1).val; rw [hi.2]; omega

/-- Window 4 does not move: its block at every point is the whole array. -/
theorem xb4_eq (c : Dev nD) (t : Fin cfg1.N) : xb4 V c t = V c main_arg4 := by
  have hi : win1_4.index t 0 = 0 :=
    (by decide +kernel : ∀ t : Fin grid1.N, win1_4.index t 0 = 0) t
  funext j
  unfold xb4 iblk1
  rw [View.read_apply]
  show V c main_arg4 _ = V c main_arg4 j
  congr 1
  funext a
  apply Fin.ext
  match a with
  | ⟨0, _⟩ => show win1_4.index t 0 * 64 + 1 * (j 0).val = (j 0).val; rw [hi]; omega

/-- Window 5 does not move: its block at every point is the whole array. -/
theorem xb5_eq (c : Dev nD) (t : Fin cfg1.N) : xb5 V c t = V c main_arg5 := by
  have hi : win1_5.index t 0 = 0 :=
    (by decide +kernel : ∀ t : Fin grid1.N, win1_5.index t 0 = 0) t
  funext j
  unfold xb5 iblk1
  rw [View.read_apply]
  show V c main_arg5 _ = V c main_arg5 j
  congr 1
  funext a
  apply Fin.ext
  match a with
  | ⟨0, _⟩ => show win1_5.index t 0 * 64 + 1 * (j 0).val = (j 0).val; rw [hi]; omega

/-- Window 6 does not move: its block at every point is the whole array. -/
theorem xb6_eq (c : Dev nD) (t : Fin cfg1.N) : xb6 V c t = V c main_v3 := by
  have hi : win1_6.index t 0 = 0 :=
    (by decide +kernel : ∀ t : Fin grid1.N, win1_6.index t 0 = 0) t
  funext j
  unfold xb6 iblk1
  rw [View.read_apply]
  show V c main_v3 _ = V c main_v3 j
  congr 1
  funext a
  apply Fin.ext
  match a with
  | ⟨0, _⟩ => show win1_6.index t 0 * 64 + 1 * (j 0).val = (j 0).val; rw [hi]; omega

/-- Window 7 does not move: its block at every point is the whole array. -/
theorem xb7_eq (c : Dev nD) (t : Fin cfg1.N) : xb7 V c t = V c main_v7 := by
  have hi : win1_7.index t 0 = 0 :=
    (by decide +kernel : ∀ t : Fin grid1.N, win1_7.index t 0 = 0) t
  funext j
  unfold xb7 iblk1
  rw [View.read_apply]
  show V c main_v7 _ = V c main_v7 j
  congr 1
  funext a
  apply Fin.ext
  match a with
  | ⟨0, _⟩ => show win1_7.index t 0 * 64 + 1 * (j 0).val = (j 0).val; rw [hi]; omega

/-- Window 8 does not move: its block at every point is the whole array. -/
theorem xb8_eq (c : Dev nD) (t : Fin cfg1.N) : xb8 V c t = V c main_arg6 := by
  have hi : win1_8.index t 0 = 0 ∧ win1_8.index t 1 = 0 :=
    (by decide +kernel : ∀ t : Fin grid1.N, win1_8.index t 0 = 0 ∧ win1_8.index t 1 = 0) t
  funext j
  unfold xb8 iblk1
  rw [View.read_apply]
  show V c main_arg6 _ = V c main_arg6 j
  congr 1
  funext a
  apply Fin.ext
  match a with
  | ⟨0, _⟩ => show win1_8.index t 0 * 64 + 1 * (j 0).val = (j 0).val; rw [hi.1]; omega
  | ⟨1, _⟩ => show win1_8.index t 1 * 64 + 1 * (j 1).val = (j 1).val; rw [hi.2]; omega

end Values

/-- The second layer before its normalisation over the whole cloud, from the arrays the pass finds: the first layer
    normalised by the mean `main_v3` and the variance `main_v7` it is handed. -/
abbrev pre2 (c : Dev nD) : Act :=
  lin2 (bnrelu (lin1 (V c main_arg0) (V c main_arg1) (fun j => V c main_v0 (ix3 (j 0) (j 1) 0)) (V c main_arg3))
      (fun o => V c main_v3 (ix1 o)) (fun o => V c main_v7 (ix1 o)) (V c main_arg4) (V c main_arg5))
    (V c main_arg6)

/-! ## A block's contribution -/

/-- The second layer of block `t` at the row of slot q of pillar (b, p) is the network's second layer, before its
    normalisation, at point (b, 200 t + p, q): the block's first layer is the network's there, the normalisation and the
    clip are the network's, and so is the sum over the 64 channels. -/
theorem blk_apply (c : Dev nD) (t : Fin cfg1.N) (b : Fin 4) (p : Fin 200) (q : Fin 32) (o : Fin 64) :
    k1_pay1 (F := Ideal) (nrm (xb0 V c t) (xb1 V c t) (xb2 V c t) (xb3 V c t) (xb4 V c t) (xb5 V c t) (xb6 V c t) (xb7 V c t)) (xb8 V c t) (ix2 (row b p q) o) = pre2 V c b (pil (blkOf t) p) q o := by
  rw [xb3_eq, xb4_eq, xb5_eq, xb6_eq, xb7_eq, xb8_eq, k1_pay1_apply]
  show _ = ∑ k : Fin 64, _
  refine Finset.sum_congr rfl fun k _ => ?_
  have e : nrm (xb0 V c t) (xb1 V c t) (xb2 V c t) (V c main_arg3) (V c main_arg4) (V c main_arg5) (V c main_v3) (V c main_v7)
      = bnB (h1preB (xb0 V c t) (xb1 V c t) (xb2 V c t) (V c main_arg3)) (V c main_v3) (V c main_v7) (V c main_arg4) (V c main_arg5) :=
    k1_pay12_eq (xb0 V c t) (xb1 V c t) (xb2 V c t) (V c main_arg3) (V c main_v3) (V c main_v7) (V c main_arg4) (V c main_arg5)
  rw [e, bnB_apply, h1preB_apply (V c main_arg0) (V c main_arg1) (V c main_v0) (V c main_arg3) (blkOf t)
    (xb0 V c t) (xb0_apply V c t) (xb1 V c t) (xb1_apply V c t) (xb2 V c t) (xb2_apply V c t) b p q k]
  rfl

/-- What block `k` adds to the first total at channel `o`: the second layer summed over the block's points. -/
def part (c : Dev nD) (k : ℕ) (o : Fin 64) : EReal :=
  if h : k < 60 then ∑ b : Fin 4, ∑ p : Fin 200, ∑ q : Fin 32, pre2 V c b (pil ⟨k, h⟩ p) q o else 0

/-- What it adds to the second: the squares. -/
def partSq (c : Dev nD) (k : ℕ) (o : Fin 64) : EReal :=
  if h : k < 60 then ∑ b : Fin 4, ∑ p : Fin 200, ∑ q : Fin 32, sq (pre2 V c) b (pil ⟨k, h⟩ p) q o else 0

/-- The sum down the 25600 rows of block `t`'s second layer is the block's contribution: the rows are the block's
    points, batch entry by pillar by slot. -/
theorem part_eq (c : Dev nD) (t : Fin cfg1.N) (o : Fin 64) :
    ∑ r : Fin 25600, k1_pay1 (F := Ideal) (nrm (xb0 V c t) (xb1 V c t) (xb2 V c t) (xb3 V c t) (xb4 V c t) (xb5 V c t) (xb6 V c t) (xb7 V c t)) (xb8 V c t) (ix2 r o) = part V c t.val o := by
  rw [sum_rows]
  unfold part
  rw [dif_pos (lt_of_lt_of_eq t.isLt N_1)]
  exact Finset.sum_congr rfl fun b _ => Finset.sum_congr rfl fun p _ => Finset.sum_congr rfl fun q _ => blk_apply V c t b p q o

theorem partSq_eq (c : Dev nD) (t : Fin cfg1.N) (o : Fin 64) :
    ∑ r : Fin 25600, k1_pay1 (F := Ideal) (nrm (xb0 V c t) (xb1 V c t) (xb2 V c t) (xb3 V c t) (xb4 V c t) (xb5 V c t) (xb6 V c t) (xb7 V c t)) (xb8 V c t) (ix2 r o)
        * k1_pay1 (F := Ideal) (nrm (xb0 V c t) (xb1 V c t) (xb2 V c t) (xb3 V c t) (xb4 V c t) (xb5 V c t) (xb6 V c t) (xb7 V c t)) (xb8 V c t) (ix2 r o) = partSq V c t.val o := by
  rw [sum_rows]
  unfold partSq
  rw [dif_pos (lt_of_lt_of_eq t.isLt N_1)]
  refine Finset.sum_congr rfl fun b _ => Finset.sum_congr rfl fun p _ => Finset.sum_congr rfl fun q _ => ?_
  rw [blk_apply V c t b p q o]
  rfl

/-! ## The running totals -/

/-- The two totals after point `n`, as vectors of extended reals. -/
abbrev acc9 (c : Dev nD) (n : ℕ) (h : n < cfg1.N) : S64.Idx → EReal := (outsAt1 V c n h).1
abbrev acc10 (c : Dev nD) (n : ℕ) (h : n < cfg1.N) : S64.Idx → EReal := (outsAt1 V c n h).2

/-- After point `n` the first total holds the contributions of the blocks 0 … n: point 0 starts from zero, every later
    point adds its block to what the point before left. -/
theorem acc9_eq (c : Dev nD) : ∀ (n : ℕ) (h : n < cfg1.N) (o : Fin 64),
    acc9 V c n h (ix1 o) = ∑ k ∈ Finset.range (n + 1), part V c k o
  | 0, h, o => by
    show (outsAt1 V c (⟨0, h⟩ : Fin cfg1.N).val (⟨0, h⟩ : Fin cfg1.N).isLt).1 (ix1 o) = _
    rw [outsAt1_A V c ⟨0, h⟩ rfl]; dsimp only
    refine (congrFun (out_A_9 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) (ms1_8 ⟨0, h⟩) (hs1_8 ⟨0, h⟩) (ms1_9 ⟨0, h⟩) (hs1_9 ⟨0, h⟩) (ms1_10 ⟨0, h⟩) (hs1_10 ⟨0, h⟩) ((hcond1_0 ⟨0, h⟩).mpr rfl)
      (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩) (iblk1 V c 7 ⟨0, h⟩) (iblk1 V c 8 ⟨0, h⟩)) (ix1 o)).trans ?_
    refine (pay2_apply _ _ _ o).trans ?_
    rw [pay4_apply, zero_add, Finset.sum_range_one]
    exact part_eq V c ⟨0, h⟩ o
  | n + 1, h, o => by
    have hN : cfg1.N = 60 := N_1
    have hB : ¬(⟨n + 1, h⟩ : Fin cfg1.N).val % 60 = 0 := by dsimp only; omega
    show (outsAt1 V c (⟨n + 1, h⟩ : Fin cfg1.N).val (⟨n + 1, h⟩ : Fin cfg1.N).isLt).1 (ix1 o) = _
    rw [outsAt1_B V c ⟨n + 1, h⟩ hB]; dsimp only
    refine (congrFun (out_B_9 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (ms1_9 ⟨n + 1, h⟩) (hs1_9 ⟨n + 1, h⟩) (ms1_10 ⟨n + 1, h⟩) (hs1_10 ⟨n + 1, h⟩) (fun hh => hB ((hcond1_0 ⟨n + 1, h⟩).mp hh))
      (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (iblk1 V c 7 ⟨n + 1, h⟩) (iblk1 V c 8 ⟨n + 1, h⟩)
      (outsAt1 V c ((⟨n + 1, h⟩ : Fin cfg1.N).val - 1) (Nat.lt_of_le_of_lt (Nat.sub_le _ _) (⟨n + 1, h⟩ : Fin cfg1.N).isLt)).1
      (outsAt1 V c ((⟨n + 1, h⟩ : Fin cfg1.N).val - 1) (Nat.lt_of_le_of_lt (Nat.sub_le _ _) (⟨n + 1, h⟩ : Fin cfg1.N).isLt)).2) (ix1 o)).trans ?_
    refine (pay2_apply _ _ _ o).trans ?_
    rw [Finset.sum_range_succ]
    exact congrArg₂ (· + ·) (acc9_eq c n (Nat.lt_of_succ_lt h) o) (part_eq V c ⟨n + 1, h⟩ o)

/-- And the second the contributions of their squares. -/
theorem acc10_eq (c : Dev nD) : ∀ (n : ℕ) (h : n < cfg1.N) (o : Fin 64),
    acc10 V c n h (ix1 o) = ∑ k ∈ Finset.range (n + 1), partSq V c k o
  | 0, h, o => by
    show (outsAt1 V c (⟨0, h⟩ : Fin cfg1.N).val (⟨0, h⟩ : Fin cfg1.N).isLt).2 (ix1 o) = _
    rw [outsAt1_A V c ⟨0, h⟩ rfl]; dsimp only
    refine (congrFun (out_A_10 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) (ms1_8 ⟨0, h⟩) (hs1_8 ⟨0, h⟩) (ms1_9 ⟨0, h⟩) (hs1_9 ⟨0, h⟩) (ms1_10 ⟨0, h⟩) (hs1_10 ⟨0, h⟩) ((hcond1_0 ⟨0, h⟩).mpr rfl)
      (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩) (iblk1 V c 7 ⟨0, h⟩) (iblk1 V c 8 ⟨0, h⟩)) (ix1 o)).trans ?_
    refine (pay3_apply _ _ _ o).trans ?_
    rw [pay5_apply, zero_add, Finset.sum_range_one]
    exact partSq_eq V c ⟨0, h⟩ o
  | n + 1, h, o => by
    have hN : cfg1.N = 60 := N_1
    have hB : ¬(⟨n + 1, h⟩ : Fin cfg1.N).val % 60 = 0 := by dsimp only; omega
    show (outsAt1 V c (⟨n + 1, h⟩ : Fin cfg1.N).val (⟨n + 1, h⟩ : Fin cfg1.N).isLt).2 (ix1 o) = _
    rw [outsAt1_B V c ⟨n + 1, h⟩ hB]; dsimp only
    refine (congrFun (out_B_10 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (ms1_9 ⟨n + 1, h⟩) (hs1_9 ⟨n + 1, h⟩) (ms1_10 ⟨n + 1, h⟩) (hs1_10 ⟨n + 1, h⟩) (fun hh => hB ((hcond1_0 ⟨n + 1, h⟩).mp hh))
      (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (iblk1 V c 7 ⟨n + 1, h⟩) (iblk1 V c 8 ⟨n + 1, h⟩)
      (outsAt1 V c ((⟨n + 1, h⟩ : Fin cfg1.N).val - 1) (Nat.lt_of_le_of_lt (Nat.sub_le _ _) (⟨n + 1, h⟩ : Fin cfg1.N).isLt)).1
      (outsAt1 V c ((⟨n + 1, h⟩ : Fin cfg1.N).val - 1) (Nat.lt_of_le_of_lt (Nat.sub_le _ _) (⟨n + 1, h⟩ : Fin cfg1.N).isLt)).2) (ix1 o)).trans ?_
    refine (pay3_apply _ _ _ o).trans ?_
    rw [Finset.sum_range_succ]
    exact congrArg₂ (· + ·) (acc10_eq c n (Nat.lt_of_succ_lt h) o) (partSq_eq V c ⟨n + 1, h⟩ o)

/-- The 60 contributions together are the total over all points. -/
theorem parts_total (c : Dev nD) (o : Fin 64) : ∑ k ∈ Finset.range 60, part V c k o = tot (pre2 V c) o := by
  rw [tot_eq_blocks, Finset.sum_range]
  refine Finset.sum_congr rfl fun t _ => ?_
  unfold part
  rw [dif_pos t.isLt]

theorem partsSq_total (c : Dev nD) (o : Fin 64) : ∑ k ∈ Finset.range 60, partSq V c k o = tot (sq (pre2 V c)) o := by
  rw [tot_eq_blocks, Finset.sum_range]
  refine Finset.sum_congr rfl fun t _ => ?_
  unfold partSq
  rw [dif_pos t.isLt]

/-! ## The write-back -/

/-- The last point. -/
theorem h59 : 59 < cfg1.N := by rw [show cfg1.N = 60 from N_1]; decide

/-- What the last point leaves in the two buffers, as contents of the two result arrays. -/
abbrev res9 (c : Dev nD) : Buf (Elt Ideal) ((c : Thread nD τ).loc main_v8_0) := (outsAt1 V c 59 h59).1
abbrev res10 (c : Dev nD) : Buf (Elt Ideal) ((c : Thread nD τ).loc main_v8_1) := (outsAt1 V c 59 h59).2

/-- The pair of buffers after a point depends on the point's number only. -/
theorem outs_of_eq (c : Dev nD) (t : Fin cfg1.N) (n : ℕ) (hn : n < cfg1.N) (h : t.val = n) :
    outsAt1 V c t.val t.isLt = outsAt1 V c n hn := by
  subst h; rfl

/-- Output 9's window never moves and is the whole array: at any point a buffer holding `X` would write back `X`, entry by
    entry (block index 0, so an entry's coordinate in the array is its coordinate in the block). -/
theorem wb9 (c : Dev nD) (t : Fin cfg1.N) (X : Vec Ideal S64 .f32) :
    (cfg1.win 9).cut (grid1.coords t) X
      = ((cfg1.win 9).blk t).view.read (Elt Ideal) (X : Buf (Elt Ideal) ((c : Thread nD τ).loc main_v8_0)) := by
  have hi : win1_9.index t 0 = 0 := (by decide +kernel : ∀ t : Fin grid1.N, win1_9.index t 0 = 0) t
  funext j
  rw [View.read_apply]
  show X _ = X _
  congr 1
  funext a
  apply Fin.ext
  match a with
  | ⟨0, _⟩ => show (j 0).val = win1_9.index t 0 * 64 + 1 * (j 0).val; rw [hi]; omega

/-- Output 9's buffer is written back once, after the last point. -/
theorem flushed9_eq (c : Dev nD) (t : Fin cfg1.N) (hf : (cfg1.win 9).flush t = true) :
    (dat1 V c).flushed 9 t = ((cfg1.win 9).blk t).view.read (Elt Ideal) (res9 V c) := by
  have hN : cfg1.N = 60 := N_1
  have h3 : t.val = 59 := by have := (flush1_9 t).mp hf; have := t.isLt; omega
  show (cfg1.win 9).cut (grid1.coords t) ((dat1 V c).after 9 t) = _
  rw [after1_9, outs_of_eq V c t 59 h59 h3]
  exact wb9 c t (res9 V c)

/-- So the array ends holding what the last point leaves: every entry lies in that one block. -/
theorem final9 (c : Dev nD) : (dat1 V c).arrAt 9 cfg1.N = res9 V c :=
  (dat1 V c).arrAt_eq_of_cover 9 (res9 V c) (flushed9_eq V c) fun i =>
    ⟨⟨59, h59⟩, (flush1_9 ⟨59, h59⟩).mpr rfl, by
      show i ∈ ((View.whole main_v8_0).slice (win1_9.rect ⟨59, h59⟩)).set
      rw [View.set_slice_whole, Rect.mem_set_unit]
      intro a
      have h0 : (i 0 : Nat) < 64 := (i 0).isLt
      have hi : win1_9.index ⟨59, h59⟩ 0 = 0 := (by decide +kernel : ∀ t : Fin grid1.N, win1_9.index t 0 = 0) ⟨59, h59⟩
      match a with
      | ⟨0, _⟩ =>
        show win1_9.index ⟨59, h59⟩ 0 * 64 ≤ (i 0 : Nat) ∧ (i 0 : Nat) < win1_9.index ⟨59, h59⟩ 0 * 64 + 64
        rw [hi]; omega⟩

/-- Output 10's window never moves and is the whole array: at any point a buffer holding `X` would write back `X`, entry by
    entry (block index 0, so an entry's coordinate in the array is its coordinate in the block). -/
theorem wb10 (c : Dev nD) (t : Fin cfg1.N) (X : Vec Ideal S64 .f32) :
    (cfg1.win 10).cut (grid1.coords t) X
      = ((cfg1.win 10).blk t).view.read (Elt Ideal) (X : Buf (Elt Ideal) ((c : Thread nD τ).loc main_v8_1)) := by
  have hi : win1_10.index t 0 = 0 := (by decide +kernel : ∀ t : Fin grid1.N, win1_10.index t 0 = 0) t
  funext j
  rw [View.read_apply]
  show X _ = X _
  congr 1
  funext a
  apply Fin.ext
  match a with
  | ⟨0, _⟩ => show (j 0).val = win1_10.index t 0 * 64 + 1 * (j 0).val; rw [hi]; omega

/-- Output 10's buffer is written back once, after the last point. -/
theorem flushed10_eq (c : Dev nD) (t : Fin cfg1.N) (hf : (cfg1.win 10).flush t = true) :
    (dat1 V c).flushed 10 t = ((cfg1.win 10).blk t).view.read (Elt Ideal) (res10 V c) := by
  have hN : cfg1.N = 60 := N_1
  have h3 : t.val = 59 := by have := (flush1_10 t).mp hf; have := t.isLt; omega
  show (cfg1.win 10).cut (grid1.coords t) ((dat1 V c).after 10 t) = _
  rw [after1_10, outs_of_eq V c t 59 h59 h3]
  exact wb10 c t (res10 V c)

/-- So the array ends holding what the last point leaves: every entry lies in that one block. -/
theorem final10 (c : Dev nD) : (dat1 V c).arrAt 10 cfg1.N = res10 V c :=
  (dat1 V c).arrAt_eq_of_cover 10 (res10 V c) (flushed10_eq V c) fun i =>
    ⟨⟨59, h59⟩, (flush1_10 ⟨59, h59⟩).mpr rfl, by
      show i ∈ ((View.whole main_v8_1).slice (win1_10.rect ⟨59, h59⟩)).set
      rw [View.set_slice_whole, Rect.mem_set_unit]
      intro a
      have h0 : (i 0 : Nat) < 64 := (i 0).isLt
      have hi : win1_10.index ⟨59, h59⟩ 0 = 0 := (by decide +kernel : ∀ t : Fin grid1.N, win1_10.index t 0 = 0) ⟨59, h59⟩
      match a with
      | ⟨0, _⟩ =>
        show win1_10.index ⟨59, h59⟩ 0 * 64 ≤ (i 0 : Nat) ∧ (i 0 : Nat) < win1_10.index ⟨59, h59⟩ 0 * 64 + 64
        rw [hi]; omega⟩
/-- After the pass the first output array holds the total of the second layer over all points, per channel. -/
theorem sum_eq (c : Dev nD) :
    ((dat1 (F := Ideal) V c).arrAt 9 cfg1.N : S64.Idx → EReal) = fun i => tot (pre2 V c) (i 0) := by
  rw [final9]
  funext i
  rw [eq_ix1 i]
  exact (acc9_eq V c 59 h59 (i 0)).trans (parts_total V c (i 0))

/-- After the pass the second output array holds the total of its squares. -/
theorem sumsq_eq (c : Dev nD) :
    ((dat1 (F := Ideal) V c).arrAt 10 cfg1.N : S64.Idx → EReal) = fun i => tot (sq (pre2 V c)) (i 0) := by
  rw [final10]
  funext i
  rw [eq_ix1 i]
  exact (acc10_eq V c 59 h59 (i 0)).trans (partsSq_total V c (i 0))

end Cert.KernelIdeal.Reg1

end
-- ==== Proof.KReg2.lean ====
/-
  The last pass. Each of the 60 grid points writes its own block of 200 pillars of the result: the first layer
  recomputed, normalised and clipped, the second layer, normalised by the mean and variance the pass is given and
  clipped, and the maximum over each pillar's 32 slots. The blocks tile the result array.
-/
import proofs.«133398_j52536039964809_1_alg».proof.Proof.Gen.KernelIdeal.Frame
import proofs.«133398_j52536039964809_1_alg».proof.Proof.Spec
import proofs.«133398_j52536039964809_1_alg».proof.Proof.SumLemmas
import proofs.«133398_j52536039964809_1_alg».proof.Proof.KBlock
import proofs.«133398_j52536039964809_1_alg».proof.Proof.KFeat
import proofs.«133398_j52536039964809_1_alg».proof.Proof.KOps
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

noncomputable section

open scoped BigOperators

open Idealize.ShloMosaic Idealize.ShloMosaic.TcCoe Idealize.SL.Sem Idealize.ShloMosaic.ValueIdx
open Idealize.ShloMosaic.Pipeline (Dat)

namespace Cert.KernelIdeal.Reg2

open Cert.KernelIdeal Cert.KernelIdeal.Gen Cert.KernelIdeal.Blk Cert.PFN

variable (V : (c : Dev nD) → (b : Ref sig .tc) → Buf (Elt Ideal) ((c : Thread nD τ).loc b))

/-- The second layer before its normalisation over the whole cloud, from the arrays the pass finds. -/
abbrev pre2 (c : Dev nD) : Act :=
  lin2 (bnrelu (lin1 (V c main_arg0) (V c main_arg1) (fun j => V c main_v0 (ix3 (j 0) (j 1) 0)) (V c main_arg3))
      (fun o => V c main_v3 (ix1 o)) (fun o => V c main_v7 (ix1 o)) (V c main_arg4) (V c main_arg5))
    (V c main_arg6)

/-! ## Zero offsets, however many axes -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## What a point stores, from its blocks -/

/-- The one store of the body covers the result's block, and every load reads a whole block: the block a point leaves
    is the pass's last stage applied to the clipped, normalised first layer of the point's blocks. -/
theorem stored_eq (x0 : Vec Ideal S4x200x32x4 .f32) (x1 : Vec Ideal S4x200x4 .i32) (x2 : Vec Ideal S4x200x1 .i32)
    (w1 : Vec Ideal S9x64 .f32) (g1 b1 mu1 var1 : Vec Ideal S64 .f32) (w2 : Vec Ideal S64x64 .f32)
    (g2 b2 mu2 var2 : Vec Ideal S64 .f32) :
    out2_13 (F := Ideal) x0 x1 x2 w1 g1 b1 mu1 var1 w2 g2 b2 mu2 var2
      = k2_pay1 (F := Ideal) (truncf .bf16 (maximumf (bnB (F := Ideal) (h1preB (F := Ideal) x0 x1 x2 w1) mu1 var1 g1 b1)
          (broadcast S25600x64 (Scalar.ofBits .f32 0x00000000#32))) bitsLt_bf16_f32) w2 mu2 var2 g2 b2 := by
  unfold out2_13
  rw [View.canon_unit_zero hz3]
  simp only [View.ld_unit_zero (S := S4x200x32x4) hz4, View.ld_unit_zero (S := S4x200x4) hz3,
    View.ld_unit_zero (S := S4x200x1) hz3, View.ld_unit_zero (S := S9x64) hz2, View.ld_unit_zero (S := S64) hz1,
    View.ld_unit_zero (S := S64x64) hz2]
  rw [k2_pay9_eq]

/-- The first layer of a block, normalised, clipped at zero and narrowed, at a row and a channel. -/
theorem act1_apply (x : FVec Ideal S25600x64 .f32) (mu var g be : Vec Ideal S64 .f32) (r : Fin 25600) (k : Fin 64) :
    (truncf .bf16 (maximumf (bnB (F := Ideal) x mu var g be) (broadcast S25600x64 (Scalar.ofBits .f32 0x00000000#32)))
        bitsLt_bf16_f32 : FVec Ideal S25600x64 .bf16) (ix2 r k)
      = max (((x (ix2 r k) - mu (ix1 k)) * Ideal.rsqrt (var (ix1 k) + cEps)) * g (ix1 k) + be (ix1 k)) cZero := by
  rw [truncf_apply, maximumf_apply, bnB_apply, broadcast_apply]
  rfl

/-! ## The stored block, index by index -/

/-- The block a point leaves, at pillar (b, p) of the block and channel o, is the network's output at pillar
    200 t + p: row (b · 200 + p) · 32 + q of the block is point (b, 200 t + p, q) of the cloud, and on it the pass
    computes the first layer, its normalisation and clip, the second layer, its normalisation and clip, and then the
    maximum over q. -/
theorem stored_apply (vox : SVox.Idx → EReal) (coords : SCoord.Idx → BitVec 32) (nptsCol : S4x12000x1.Idx → BitVec 32)
    (t : Fin 60)
    (x0 : Vec Ideal S4x200x32x4 .f32) (hx0 : ∀ (b : Fin 4) (p : Fin 200) (q : Fin 32) (k : Fin 4), x0 (ix4 b p q k) = vox (ix4 b (pil t p) q k))
    (x1 : Vec Ideal S4x200x4 .i32) (hx1 : ∀ (b : Fin 4) (p : Fin 200) (k : Fin 4), x1 (ix3 b p k) = coords (ix3 b (pil t p) k))
    (x2 : Vec Ideal S4x200x1 .i32) (hx2 : ∀ (b : Fin 4) (p : Fin 200), x2 (ix3 b p 0) = nptsCol (ix3 b (pil t p) 0))
    (w1 : Vec Ideal S9x64 .f32) (g1 b1 mu1 var1 : Vec Ideal S64 .f32) (w2 : Vec Ideal S64x64 .f32)
    (g2 b2 mu2 var2 : Vec Ideal S64 .f32) (b : Fin 4) (p : Fin 200) (o : Fin 64) :
    out2_13 (F := Ideal) x0 x1 x2 w1 g1 b1 mu1 var1 w2 g2 b2 mu2 var2 (ix3 b p o)
      = pool (bnrelu (lin2 (bnrelu (lin1 vox coords (fun i => nptsCol (ix3 (i 0) (i 1) 0)) w1)
            (fun o => mu1 (ix1 o)) (fun o => var1 (ix1 o)) g1 b1) w2)
          (fun o => mu2 (ix1 o)) (fun o => var2 (ix1 o)) g2 b2) (ix3 b (pil t p) o) := by
  rw [stored_eq]
  refine (k2_pay1_apply _ w2 mu2 var2 g2 b2 b p o).trans ?_
  unfold Cert.PFN.pool
  refine congrArg (fun f => Finset.fold max cNegInf f Finset.univ) (funext fun q => ?_)
  show _ = bnrelu (lin2 (bnrelu (lin1 vox coords (fun i => nptsCol (ix3 (i 0) (i 1) 0)) w1)
      (fun o => mu1 (ix1 o)) (fun o => var1 (ix1 o)) g1 b1) w2) (fun o => mu2 (ix1 o)) (fun o => var2 (ix1 o)) g2 b2 b (pil t p) q o
  unfold bnrelu lin2
  simp only [act1_apply, h1preB_apply vox coords nptsCol w1 t x0 hx0 x1 hx1 x2 hx2]

/-! ## The blocks a point reads -/

/-- A grid point as a number below 60. -/
abbrev pt (t : Fin cfg2.N) : Fin 60 := ⟨t.val, lt_of_lt_of_eq t.isLt N_2⟩

/-- The index maps of the windows that move with the grid, decided over the 60 points: the three point-cloud inputs
    and the result step along the pillar axis, block t at point t, and stay at 0 on every other axis. -/
theorem moving_idx : ∀ t : Fin cfg2.N,
    (win2_0.index t (0 : Fin 4) = 0 ∧ win2_0.index t (1 : Fin 4) = t.val ∧ win2_0.index t (2 : Fin 4) = 0 ∧ win2_0.index t (3 : Fin 4) = 0)
    ∧ (win2_1.index t (0 : Fin 3) = 0 ∧ win2_1.index t (1 : Fin 3) = t.val ∧ win2_1.index t (2 : Fin 3) = 0)
    ∧ (win2_2.index t (0 : Fin 3) = 0 ∧ win2_2.index t (1 : Fin 3) = t.val ∧ win2_2.index t (2 : Fin 3) = 0)
    ∧ (win2_13.index t (0 : Fin 3) = 0 ∧ win2_13.index t (1 : Fin 3) = t.val ∧ win2_13.index t (2 : Fin 3) = 0) :=
  (by decide +kernel : ∀ t : Fin grid2.N, _)

/-- The windows of the weights, scales, shifts, means and variances stay on their one block. -/
theorem fixed_idx : ∀ t : Fin cfg2.N,
    (win2_3.index t (0 : Fin 2) = 0 ∧ win2_3.index t (1 : Fin 2) = 0)
    ∧ (win2_8.index t (0 : Fin 2) = 0 ∧ win2_8.index t (1 : Fin 2) = 0)
    ∧ win2_4.index t (0 : Fin 1) = 0 ∧ win2_5.index t (0 : Fin 1) = 0 ∧ win2_6.index t (0 : Fin 1) = 0
    ∧ win2_7.index t (0 : Fin 1) = 0 ∧ win2_9.index t (0 : Fin 1) = 0 ∧ win2_10.index t (0 : Fin 1) = 0
    ∧ win2_11.index t (0 : Fin 1) = 0 ∧ win2_12.index t (0 : Fin 1) = 0 :=
  (by decide +kernel : ∀ t : Fin grid2.N, _)

/-- The block of points at grid point t is the cloud at pillars 200 t … 200 t + 199. -/
theorem vox_blk (c : Dev nD) (t : Fin cfg2.N) (b : Fin 4) (p : Fin 200) (q : Fin 32) (k : Fin 4) :
    (iblk2 V c 0 t : Vec Ideal S4x200x32x4 .f32) (ix4 b p q k)
      = (V c main_arg0 : S4x12000x32x4.Idx → EReal) (ix4 b (pil (pt t) p) q k) := by
  obtain ⟨⟨e0, e1, e2, e3⟩, -⟩ := moving_idx t
  unfold iblk2
  rw [View.read_apply]
  show V c main_arg0 _ = V c main_arg0 _
  congr 1
  funext a
  apply Fin.ext
  match a with
  | ⟨0, _⟩ => show win2_0.index t (0 : Fin 4) * 4 + 1 * b.val = b.val; omega
  | ⟨1, _⟩ => show win2_0.index t (1 : Fin 4) * 200 + 1 * p.val = 200 * t.val + p.val; omega
  | ⟨2, _⟩ => show win2_0.index t (2 : Fin 4) * 32 + 1 * q.val = q.val; omega
  | ⟨3, _⟩ => show win2_0.index t (3 : Fin 4) * 4 + 1 * k.val = k.val; omega

/-- The block of grid cells at grid point t. -/
theorem coords_blk (c : Dev nD) (t : Fin cfg2.N) (b : Fin 4) (p : Fin 200) (k : Fin 4) :
    (iblk2 V c 1 t : Vec Ideal S4x200x4 .i32) (ix3 b p k)
      = (V c main_arg1 : S4x12000x4.Idx → BitVec 32) (ix3 b (pil (pt t) p) k) := by
  obtain ⟨-, ⟨e0, e1, e2⟩, -⟩ := moving_idx t
  unfold iblk2
  rw [View.read_apply]
  show V c main_arg1 _ = V c main_arg1 _
  congr 1
  funext a
  apply Fin.ext
  match a with
  | ⟨0, _⟩ => show win2_1.index t (0 : Fin 3) * 4 + 1 * b.val = b.val; omega
  | ⟨1, _⟩ => show win2_1.index t (1 : Fin 3) * 200 + 1 * p.val = 200 * t.val + p.val; omega
  | ⟨2, _⟩ => show win2_1.index t (2 : Fin 3) * 4 + 1 * k.val = k.val; omega

/-- The block of point counts at grid point t. -/
theorem npts_blk (c : Dev nD) (t : Fin cfg2.N) (b : Fin 4) (p : Fin 200) :
    (iblk2 V c 2 t : Vec Ideal S4x200x1 .i32) (ix3 b p 0)
      = (V c main_v0 : S4x12000x1.Idx → BitVec 32) (ix3 b (pil (pt t) p) 0) := by
  obtain ⟨-, -, ⟨e0, e1, e2⟩, -⟩ := moving_idx t
  unfold iblk2
  rw [View.read_apply]
  show V c main_v0 _ = V c main_v0 _
  congr 1
  funext a
  apply Fin.ext
  match a with
  | ⟨0, _⟩ => show win2_2.index t (0 : Fin 3) * 4 + 1 * b.val = b.val; omega
  | ⟨1, _⟩ => show win2_2.index t (1 : Fin 3) * 200 + 1 * p.val = 200 * t.val + p.val; omega
  | ⟨2, _⟩ => show win2_2.index t (2 : Fin 3) * 1 + 1 * 0 = 0; omega

/-- The first layer's weights are read whole at every point. -/
theorem w1_blk (c : Dev nD) (t : Fin cfg2.N) : (iblk2 V c 3 t : Vec Ideal S9x64 .f32) = V c main_arg3 := by
  obtain ⟨⟨e0, e1⟩, -⟩ := fixed_idx t
  funext j
  unfold iblk2
  rw [View.read_apply]
  show V c main_arg3 _ = V c main_arg3 j
  congr 1
  funext a
  apply Fin.ext
  match a with
  | ⟨0, _⟩ => show win2_3.index t (0 : Fin 2) * 9 + 1 * (j 0).val = (j 0).val; omega
  | ⟨1, _⟩ => show win2_3.index t (1 : Fin 2) * 64 + 1 * (j 1).val = (j 1).val; omega

/-- So are the second layer's. -/
theorem w2_blk (c : Dev nD) (t : Fin cfg2.N) : (iblk2 V c 8 t : Vec Ideal S64x64 .f32) = V c main_arg6 := by
  obtain ⟨-, ⟨e0, e1⟩, -⟩ := fixed_idx t
  funext j
  unfold iblk2
  rw [View.read_apply]
  show V c main_arg6 _ = V c main_arg6 j
  congr 1
  funext a
  apply Fin.ext
  match a with
  | ⟨0, _⟩ => show win2_8.index t (0 : Fin 2) * 64 + 1 * (j 0).val = (j 0).val; omega
  | ⟨1, _⟩ => show win2_8.index t (1 : Fin 2) * 64 + 1 * (j 1).val = (j 1).val; omega

/-- And each vector of 64 channels: the first layer's scale, -/
theorem g1_blk (c : Dev nD) (t : Fin cfg2.N) : (iblk2 V c 4 t : Vec Ideal S64 .f32) = V c main_arg4 := by
  obtain ⟨-, -, e, -⟩ := fixed_idx t
  funext j
  unfold iblk2
  rw [View.read_apply]
  show V c main_arg4 _ = V c main_arg4 j
  congr 1
  funext a
  apply Fin.ext
  match a with
  | ⟨0, _⟩ => show win2_4.index t (0 : Fin 1) * 64 + 1 * (j 0).val = (j 0).val; omega

/-- its shift, -/
theorem b1_blk (c : Dev nD) (t : Fin cfg2.N) : (iblk2 V c 5 t : Vec Ideal S64 .f32) = V c main_arg5 := by
  obtain ⟨-, -, -, e, -⟩ := fixed_idx t
  funext j
  unfold iblk2
  rw [View.read_apply]
  show V c main_arg5 _ = V c main_arg5 j
  congr 1
  funext a
  apply Fin.ext
  match a with
  | ⟨0, _⟩ => show win2_5.index t (0 : Fin 1) * 64 + 1 * (j 0).val = (j 0).val; omega

/-- the mean of the first layer, -/
theorem mu1_blk (c : Dev nD) (t : Fin cfg2.N) : (iblk2 V c 6 t : Vec Ideal S64 .f32) = V c main_v3 := by
  obtain ⟨-, -, -, -, e, -⟩ := fixed_idx t
  funext j
  unfold iblk2
  rw [View.read_apply]
  show V c main_v3 _ = V c main_v3 j
  congr 1
  funext a
  apply Fin.ext
  match a with
  | ⟨0, _⟩ => show win2_6.index t (0 : Fin 1) * 64 + 1 * (j 0).val = (j 0).val; omega

/-- its variance, -/
theorem var1_blk (c : Dev nD) (t : Fin cfg2.N) : (iblk2 V c 7 t : Vec Ideal S64 .f32) = V c main_v7 := by
  obtain ⟨-, -, -, -, -, e, -⟩ := fixed_idx t
  funext j
  unfold iblk2
  rw [View.read_apply]
  show V c main_v7 _ = V c main_v7 j
  congr 1
  funext a
  apply Fin.ext
  match a with
  | ⟨0, _⟩ => show win2_7.index t (0 : Fin 1) * 64 + 1 * (j 0).val = (j 0).val; omega

/-- the second layer's scale, -/
theorem g2_blk (c : Dev nD) (t : Fin cfg2.N) : (iblk2 V c 9 t : Vec Ideal S64 .f32) = V c main_arg7 := by
  obtain ⟨-, -, -, -, -, -, e, -⟩ := fixed_idx t
  funext j
  unfold iblk2
  rw [View.read_apply]
  show V c main_arg7 _ = V c main_arg7 j
  congr 1
  funext a
  apply Fin.ext
  match a with
  | ⟨0, _⟩ => show win2_9.index t (0 : Fin 1) * 64 + 1 * (j 0).val = (j 0).val; omega

/-- its shift, -/
theorem b2_blk (c : Dev nD) (t : Fin cfg2.N) : (iblk2 V c 10 t : Vec Ideal S64 .f32) = V c main_arg8 := by
  obtain ⟨-, -, -, -, -, -, -, e, -⟩ := fixed_idx t
  funext j
  unfold iblk2
  rw [View.read_apply]
  show V c main_arg8 _ = V c main_arg8 j
  congr 1
  funext a
  apply Fin.ext
  match a with
  | ⟨0, _⟩ => show win2_10.index t (0 : Fin 1) * 64 + 1 * (j 0).val = (j 0).val; omega

/-- the mean of the second layer, -/
theorem mu2_blk (c : Dev nD) (t : Fin cfg2.N) : (iblk2 V c 11 t : Vec Ideal S64 .f32) = V c main_v10 := by
  obtain ⟨-, -, -, -, -, -, -, -, e, -⟩ := fixed_idx t
  funext j
  unfold iblk2
  rw [View.read_apply]
  show V c main_v10 _ = V c main_v10 j
  congr 1
  funext a
  apply Fin.ext
  match a with
  | ⟨0, _⟩ => show win2_11.index t (0 : Fin 1) * 64 + 1 * (j 0).val = (j 0).val; omega

/-- and its variance. -/
theorem var2_blk (c : Dev nD) (t : Fin cfg2.N) : (iblk2 V c 12 t : Vec Ideal S64 .f32) = V c main_v14 := by
  obtain ⟨-, -, -, -, -, -, -, -, -, e⟩ := fixed_idx t
  funext j
  unfold iblk2
  rw [View.read_apply]
  show V c main_v14 _ = V c main_v14 j
  congr 1
  funext a
  apply Fin.ext
  match a with
  | ⟨0, _⟩ => show win2_12.index t (0 : Fin 1) * 64 + 1 * (j 0).val = (j 0).val; omega

/-! ## From blocks to the array -/

/-- The stored block at an index y of the block is the network's output at the index i of the result whose pillar
    is 200 t + (y's pillar) and whose other coordinates are y's. -/
theorem stored_at (vox : SVox.Idx → EReal) (coords : SCoord.Idx → BitVec 32) (nptsCol : S4x12000x1.Idx → BitVec 32)
    (t : Fin 60)
    (x0 : Vec Ideal S4x200x32x4 .f32) (hx0 : ∀ (b : Fin 4) (p : Fin 200) (q : Fin 32) (k : Fin 4), x0 (ix4 b p q k) = vox (ix4 b (pil t p) q k))
    (x1 : Vec Ideal S4x200x4 .i32) (hx1 : ∀ (b : Fin 4) (p : Fin 200) (k : Fin 4), x1 (ix3 b p k) = coords (ix3 b (pil t p) k))
    (x2 : Vec Ideal S4x200x1 .i32) (hx2 : ∀ (b : Fin 4) (p : Fin 200), x2 (ix3 b p 0) = nptsCol (ix3 b (pil t p) 0))
    (w1 : Vec Ideal S9x64 .f32) (g1 b1 mu1 var1 : Vec Ideal S64 .f32) (w2 : Vec Ideal S64x64 .f32)
    (g2 b2 mu2 var2 : Vec Ideal S64 .f32) (y : S4x200x64.Idx) (i : S4x12000x64.Idx)
    (h0 : (i 0).val = (y 0).val) (h1 : (i 1).val = 200 * t.val + (y 1).val) (h2 : (i 2).val = (y 2).val) :
    out2_13 (F := Ideal) x0 x1 x2 w1 g1 b1 mu1 var1 w2 g2 b2 mu2 var2 y
      = pool (bnrelu (lin2 (bnrelu (lin1 vox coords (fun i => nptsCol (ix3 (i 0) (i 1) 0)) w1)
            (fun o => mu1 (ix1 o)) (fun o => var1 (ix1 o)) g1 b1) w2)
          (fun o => mu2 (ix1 o)) (fun o => var2 (ix1 o)) g2 b2) i := by
  obtain ⟨b, p, o, rfl⟩ : ∃ (b : Fin 4) (p : Fin 200) (o : Fin 64), y = ix3 b p o := ⟨y 0, y 1, y 2, eq_ix3 y⟩
  have hi : i = ix3 b (pil t p) o := by
    funext a
    apply Fin.ext
    match a with
    | ⟨0, _⟩ => exact h0
    | ⟨1, _⟩ => exact h1
    | ⟨2, _⟩ => exact h2
  rw [hi]
  exact stored_apply vox coords nptsCol t x0 hx0 x1 hx1 x2 hx2 w1 g1 b1 mu1 var1 w2 g2 b2 mu2 var2 b p o

/-- The network's output from the arrays the pass finds: what the result array is to hold. -/
abbrev result (c : Dev nD) : S4x12000x64.Idx → EReal :=
  pool (bnrelu (pre2 V c) (fun o => V c main_v10 (ix1 o)) (fun o => V c main_v14 (ix1 o)) (V c main_arg7) (V c main_arg8))

/-- What grid point t writes back is block t of the network's output. -/
theorem flushed_eq (c : Dev nD) (t : Fin cfg2.N) :
    (dat2 (F := Ideal) V c).flushed 13 t = ((cfg2.win 13).blk t).view.read (Elt Ideal) (result V c) := by
  obtain ⟨-, -, -, ⟨e0, e1, e2⟩⟩ := moving_idx t
  show (cfg2.win 13).cut (grid2.coords t) ((dat2 V c).after 13 t) = _
  rw [after2_13, w1_blk V c t, g1_blk V c t, b1_blk V c t, mu1_blk V c t, var1_blk V c t, w2_blk V c t, g2_blk V c t,
    b2_blk V c t, mu2_blk V c t, var2_blk V c t]
  funext y
  rw [View.read_apply]
  show out2_13 (F := Ideal) (iblk2 V c 0 t) (iblk2 V c 1 t) (iblk2 V c 2 t) (V c main_arg3) (V c main_arg4) (V c main_arg5)
      (V c main_v3) (V c main_v7) (V c main_arg6) (V c main_arg7) (V c main_arg8) (V c main_v10) (V c main_v14) y
    = result V c (((cfg2.win 13).blk t).view.emb y)
  refine stored_at (V c main_arg0) (V c main_arg1) (V c main_v0) (pt t) (iblk2 V c 0 t) (vox_blk V c t)
    (iblk2 V c 1 t) (coords_blk V c t) (iblk2 V c 2 t) (npts_blk V c t) (V c main_arg3) (V c main_arg4) (V c main_arg5)
    (V c main_v3) (V c main_v7) (V c main_arg6) (V c main_arg7) (V c main_arg8) (V c main_v10) (V c main_v14) y
    (((cfg2.win 13).blk t).view.emb y) ?_ ?_ ?_
  · show win2_13.index t (0 : Fin 3) * 4 + 1 * (y 0).val = (y 0).val
    omega
  · show win2_13.index t (1 : Fin 3) * 200 + 1 * (y 1).val = 200 * t.val + (y 1).val
    omega
  · show win2_13.index t (2 : Fin 3) * 64 + 1 * (y 2).val = (y 2).val
    omega

/-- An index of the result is in grid point t's block iff each coordinate is in the block's range on its axis. -/
theorem mem_blk (t : Fin cfg2.N) (i : S4x12000x64.Idx) :
    i ∈ ((cfg2.win 13).blk t).view.set ↔ ∀ a : Fin 3, win2_13.index t a * S4x200x64.size a ≤ (i a).val
      ∧ (i a).val < win2_13.index t a * S4x200x64.size a + S4x200x64.size a := by
  show i ∈ ((View.whole main_v15).slice (win2_13.rect t)).set ↔ _
  rw [View.set_slice_whole, Rect.mem_set_unit]
  exact Iff.rfl

/-- The 60 blocks tile the result: pillar P lies in the block of grid point P / 200, and every point writes back. -/
theorem cover (i : S4x12000x64.Idx) :
    ∃ t : Fin cfg2.N, (cfg2.win 13).flush t = true ∧ i ∈ ((cfg2.win 13).blk t).view.set := by
  have h0 : (i 0).val < 4 := (i 0).isLt
  have h1 : (i 1).val < 12000 := (i 1).isLt
  have h2 : (i 2).val < 64 := (i 2).isLt
  have hN : cfg2.N = 60 := N_2
  obtain ⟨t, ht⟩ : ∃ t : Fin cfg2.N, t.val = (i 1).val / 200 := ⟨⟨(i 1).val / 200, by rw [hN]; omega⟩, rfl⟩
  obtain ⟨-, -, -, ⟨e0, e1, e2⟩⟩ := moving_idx t
  refine ⟨t, flush2_13 t, ?_⟩
  rw [mem_blk]
  intro a
  match a with
  | ⟨0, _⟩ =>
    show win2_13.index t (0 : Fin 3) * 4 ≤ (i 0).val ∧ (i 0).val < win2_13.index t (0 : Fin 3) * 4 + 4
    omega
  | ⟨1, _⟩ =>
    show win2_13.index t (1 : Fin 3) * 200 ≤ (i 1).val ∧ (i 1).val < win2_13.index t (1 : Fin 3) * 200 + 200
    omega
  | ⟨2, _⟩ =>
    show win2_13.index t (2 : Fin 3) * 64 ≤ (i 2).val ∧ (i 2).val < win2_13.index t (2 : Fin 3) * 64 + 64
    omega

/-- After the pass the result array holds the network's output, the second normalisation by the mean `main_v10` and
    the variance `main_v14` the pass is handed. -/
theorem out_eq (c : Dev nD) :
    ((dat2 (F := Ideal) V c).arrAt 13 cfg2.N : S4x12000x64.Idx → EReal)
      = pool (bnrelu (pre2 V c) (fun o => V c main_v10 (ix1 o)) (fun o => V c main_v14 (ix1 o)) (V c main_arg7) (V c main_arg8)) :=
  (dat2 (F := Ideal) V c).arrAt_eq_of_cover 13 (result V c) (fun t _ => flushed_eq V c t) cover

end Cert.KernelIdeal.Reg2

end
-- ==== Proof.KChain.lean ====
/-
  The buffers between the passes, and the kernel's value. The first pass is entered with the arguments as launched
  and the point counts broadcast to a column; the second with, besides, the mean and the variance of the first layer,
  which the host computes from the first pass's two totals (total / count, and total of squares / count − mean²); the
  last with, besides, the mean and the variance of the second layer, from the second pass's totals. So the result array
  ends at the network's output with the variance taken as the mean of squares minus the squared mean.
-/
import proofs.«133398_j52536039964809_1_alg».proof.Proof.KChainTable
import proofs.«133398_j52536039964809_1_alg».proof.Proof.KReg0
import proofs.«133398_j52536039964809_1_alg».proof.Proof.KReg1
import proofs.«133398_j52536039964809_1_alg».proof.Proof.KReg2
import proofs.«133398_j52536039964809_1_alg».proof.Proof.Spec
import Idealize.ShloMosaic.Lib.StableHlo.Run
import Idealize.ShloMosaic.Lib.Pipeline.Value
import Idealize.ShloMosaic.Lib.IdealHost
import Idealize.ShloMosaic.Lib.ValueIdx
import Idealize.ShloMosaic.PureOps.Ideal.Laws
import Idealize.ShloMosaic.Lib.Tactic

noncomputable section

open scoped BigOperators

open Idealize.ShloMosaic Idealize.ShloMosaic.TcCoe Idealize.SL.Sem Idealize.ShloMosaic.ValueIdx
open Idealize.ShloMosaic.Pipeline (Dat)

namespace Cert.KernelIdeal.Chain

open Cert.KernelIdeal Cert.KernelIdeal.Gen Cert.PFN

section Host

variable {F : FTy → Type} [FloatOps F]
variable (m : (ℓ : Loc nD τ sig) → Buf (Elt F) ℓ) (ρ : Dev nD → PrngReg)

/-- The column of point counts the passes read is the second integer argument, broadcast. -/
theorem V1_main_v0 (c : Dev nD) : V1 m ρ c main_v0
    = broadcastInDim S4x12000x1 ![0, 1] bcast_S4x12000_S4x12000x1_0_1 (m ((c : Thread nD τ).loc main_arg2)) := by
  show StableHlo.after hostOps0 (W0 m ρ c) (Proc.devRef .tc main_v0) = _
  after_results

/-- The mean handed to the second pass: the first pass's first total over the count. -/
theorem V3_main_v3 (c : Dev nD) : V3 m ρ c main_v3
    = Host.divf (W2 m ρ c (Proc.devRef .tc main_v1_0)) (broadcastInDim S64 ![] bcast_S_S64 (constant (F := F) S_ .f32 0x49BB8000#32)) := by
  show StableHlo.after hostOps1 (W2 m ρ c) (Proc.devRef .tc main_v3) = _
  after_results

/-- The variance handed to the second pass: the second total over the count, minus the squared mean. -/
theorem V3_main_v7 (c : Dev nD) : V3 m ρ c main_v7
    = subf (Host.divf (W2 m ρ c (Proc.devRef .tc main_v1_1)) (broadcastInDim S64 ![] bcast_S_S64 (constant (F := F) S_ .f32 0x49BB8000#32)))
        (mulf (V3 m ρ c main_v3) (V3 m ρ c main_v3)) := by
  rw [V3_main_v3]
  show StableHlo.after hostOps1 (W2 m ρ c) (Proc.devRef .tc main_v7) = _
  after_results

/-- The mean handed to the last pass. -/
theorem V5_main_v10 (c : Dev nD) : V5 m ρ c main_v10
    = Host.divf (W4 m ρ c (Proc.devRef .tc main_v8_0)) (broadcastInDim S64 ![] bcast_S_S64 (constant (F := F) S_ .f32 0x49BB8000#32)) := by
  show StableHlo.after hostOps2 (W4 m ρ c) (Proc.devRef .tc main_v10) = _
  after_results

/-- The variance handed to the last pass. -/
theorem V5_main_v14 (c : Dev nD) : V5 m ρ c main_v14
    = subf (Host.divf (W4 m ρ c (Proc.devRef .tc main_v8_1)) (broadcastInDim S64 ![] bcast_S_S64 (constant (F := F) S_ .f32 0x49BB8000#32)))
        (mulf (V5 m ρ c main_v10) (V5 m ρ c main_v10)) := by
  rw [V5_main_v10]
  show StableHlo.after hostOps2 (W4 m ρ c) (Proc.devRef .tc main_v14) = _
  after_results

end Host

/-! ## Over the extended reals -/

variable (m : (ℓ : Loc nD τ sig) → Buf (Elt Ideal) ℓ) (ρ : Dev nD → PrngReg)

abbrev aVox (c : Dev nD) : SVox.Idx → EReal := m ((c : Thread nD τ).loc main_arg0)
abbrev aCoords (c : Dev nD) : SCoord.Idx → BitVec 32 := m ((c : Thread nD τ).loc main_arg1)
abbrev aNpts (c : Dev nD) : SNpts.Idx → BitVec 32 := m ((c : Thread nD τ).loc main_arg2)
abbrev aW1 (c : Dev nD) : SW1.Idx → EReal := m ((c : Thread nD τ).loc main_arg3)
abbrev aG1 (c : Dev nD) : SC.Idx → EReal := m ((c : Thread nD τ).loc main_arg4)
abbrev aB1 (c : Dev nD) : SC.Idx → EReal := m ((c : Thread nD τ).loc main_arg5)
abbrev aW2 (c : Dev nD) : SW2.Idx → EReal := m ((c : Thread nD τ).loc main_arg6)
abbrev aG2 (c : Dev nD) : SC.Idx → EReal := m ((c : Thread nD τ).loc main_arg7)
abbrev aB2 (c : Dev nD) : SC.Idx → EReal := m ((c : Thread nD τ).loc main_arg8)

/-- The column of counts read at (b, p, 0) is the count of pillar (b, p). -/
theorem col_eq (c : Dev nD) : (fun j : SNpts.Idx => V1 m ρ c main_v0 (ix3 (j 0) (j 1) 0)) = aNpts m c := by
  funext j
  rw [V1_main_v0]
  exact broadcastInDim_apply _ _ _ _ j (fun a => match a with | ⟨0, _⟩ => rfl | ⟨1, _⟩ => rfl)

/-- The first linear layer of the launch arguments. -/
abbrev L1 (c : Dev nD) : Act := lin1 (aVox m c) (aCoords m c) (aNpts m c) (aW1 m c)

/-- The first layer, as the first pass computes it from what it finds, is the network's. -/
theorem pre1_V1 (c : Dev nD) : Reg0.pre1 (V1 m ρ) c = L1 m c := by
  show lin1 (V1 m ρ c main_arg0) (V1 m ρ c main_arg1) (fun j => V1 m ρ c main_v0 (ix3 (j 0) (j 1) 0)) (V1 m ρ c main_arg3) = _
  rw [V1_main_arg0, V1_main_arg1, V1_main_arg3, col_eq]

/-- The mean handed to the second pass is the first layer's mean over all points. -/
theorem mean1_eq (c : Dev nD) : (fun o : Fin 64 => V3 m ρ c main_v3 (ix1 o)) = mean (L1 m c) := by
  funext o
  rw [V3_main_v3]
  show Ideal.div (W2 m ρ c (Proc.devRef .tc main_v1_0) (ix1 o))
    (broadcastInDim S64 ![] bcast_S_S64 (constant (F := Ideal) S_ .f32 0x49BB8000#32) (ix1 o)) = _
  rw [broadcastInDim_scalar_apply, (W2_arr m ρ c 4 : W2 m ρ c (Proc.devRef .tc main_v1_0) = _),
    Reg0.sum_eq, pre1_V1]
  rfl

/-- The mean handed to the second pass, as a vector of extended reals. -/
abbrev mu1 (c : Dev nD) : S64.Idx → EReal := V3 m ρ c main_v3

/-- The mean handed to the last pass, as a vector of extended reals. -/
abbrev mu2 (c : Dev nD) : S64.Idx → EReal := V5 m ρ c main_v10

/-- The variance handed to the second pass is the first layer's, as mean of squares minus squared mean. -/
theorem var1_eq (c : Dev nD) : (fun o : Fin 64 => V3 m ρ c main_v7 (ix1 o)) = varK (L1 m c) := by
  funext o
  rw [V3_main_v7]
  show Ideal.div (W2 m ρ c (Proc.devRef .tc main_v1_1) (ix1 o))
      (broadcastInDim S64 ![] bcast_S_S64 (constant (F := Ideal) S_ .f32 0x49BB8000#32) (ix1 o))
    - mu1 m ρ c (ix1 o) * mu1 m ρ c (ix1 o) = _
  have hm : mu1 m ρ c (ix1 o) = mean (L1 m c) o := congrFun (mean1_eq m ρ c) o
  rw [broadcastInDim_scalar_apply, (W2_arr m ρ c 5 : W2 m ρ c (Proc.devRef .tc main_v1_1) = _),
    Reg0.sumsq_eq, pre1_V1, hm]
  rfl

/-- The second layer before its normalisation, of the launch arguments. -/
abbrev P2 (c : Dev nD) : Act :=
  Cert.PFN.pre2 varK (aVox m c) (aCoords m c) (aNpts m c) (aW1 m c) (aG1 m c) (aB1 m c) (aW2 m c)

/-- The second layer, as the second pass computes it from what it finds, is the network's. -/
theorem pre2_V3 (c : Dev nD) : Reg1.pre2 (V3 m ρ) c = P2 m c := by
  show lin2 (bnrelu (lin1 (V3 m ρ c main_arg0) (V3 m ρ c main_arg1) (fun j => V3 m ρ c main_v0 (ix3 (j 0) (j 1) 0)) (V3 m ρ c main_arg3))
      (fun o => V3 m ρ c main_v3 (ix1 o)) (fun o => V3 m ρ c main_v7 (ix1 o)) (V3 m ρ c main_arg4) (V3 m ρ c main_arg5))
    (V3 m ρ c main_arg6) = _
  rw [mean1_eq, var1_eq, V3_main_arg0, V3_main_arg1, V3_main_v0, V3_main_arg3, V3_main_arg4, V3_main_arg5, V3_main_arg6,
    V1_main_arg0, V1_main_arg1, V1_main_arg3, V1_main_arg4, V1_main_arg5, V1_main_arg6, col_eq]
  rfl

/-- The mean handed to the last pass is the second layer's mean over all points. -/
theorem mean2_eq (c : Dev nD) : (fun o : Fin 64 => V5 m ρ c main_v10 (ix1 o)) = mean (P2 m c) := by
  funext o
  rw [V5_main_v10]
  show Ideal.div (W4 m ρ c (Proc.devRef .tc main_v8_0) (ix1 o))
    (broadcastInDim S64 ![] bcast_S_S64 (constant (F := Ideal) S_ .f32 0x49BB8000#32) (ix1 o)) = _
  rw [broadcastInDim_scalar_apply, (W4_arr m ρ c 9 : W4 m ρ c (Proc.devRef .tc main_v8_0) = _),
    Reg1.sum_eq, pre2_V3]
  rfl

/-- The variance handed to the last pass is the second layer's, as mean of squares minus squared mean. -/
theorem var2_eq (c : Dev nD) : (fun o : Fin 64 => V5 m ρ c main_v14 (ix1 o)) = varK (P2 m c) := by
  funext o
  rw [V5_main_v14]
  show Ideal.div (W4 m ρ c (Proc.devRef .tc main_v8_1) (ix1 o))
      (broadcastInDim S64 ![] bcast_S_S64 (constant (F := Ideal) S_ .f32 0x49BB8000#32) (ix1 o))
    - mu2 m ρ c (ix1 o) * mu2 m ρ c (ix1 o) = _
  have hm : mu2 m ρ c (ix1 o) = mean (P2 m c) o := congrFun (mean2_eq m ρ c) o
  rw [broadcastInDim_scalar_apply, (W4_arr m ρ c 10 : W4 m ρ c (Proc.devRef .tc main_v8_1) = _),
    Reg1.sumsq_eq, pre2_V3, hm]
  rfl

/-- The second layer, as the last pass recomputes it from what it finds, is the network's. -/
theorem pre2_V5 (c : Dev nD) : Reg2.pre2 (V5 m ρ) c = P2 m c := by
  show lin2 (bnrelu (lin1 (V5 m ρ c main_arg0) (V5 m ρ c main_arg1) (fun j => V5 m ρ c main_v0 (ix3 (j 0) (j 1) 0)) (V5 m ρ c main_arg3))
      (fun o => V5 m ρ c main_v3 (ix1 o)) (fun o => V5 m ρ c main_v7 (ix1 o)) (V5 m ρ c main_arg4) (V5 m ρ c main_arg5))
    (V5 m ρ c main_arg6) = _
  rw [V5_main_arg0, V5_main_arg1, V5_main_v0, V5_main_arg3, V5_main_v3, V5_main_v7, V5_main_arg4, V5_main_arg5, V5_main_arg6]
  exact pre2_V3 m ρ c

/-- THE KERNEL'S VALUE: the result buffer's last contents are the network's output of the launch arguments, the
    variances taken as mean of squares minus squared mean. -/
theorem result_eq (c : Dev nD) :
    (W6 m ρ c (Proc.devRef .tc main_v15) : S4x12000x64.Idx → EReal)
      = outK (aVox m c) (aCoords m c) (aNpts m c) (aW1 m c) (aG1 m c) (aB1 m c) (aW2 m c) (aG2 m c) (aB2 m c) := by
  rw [(W6_arr m ρ c 13 : W6 m ρ c (Proc.devRef .tc main_v15) = _), Reg2.out_eq, pre2_V5, mean2_eq, var2_eq,
    V5_main_arg7, V5_main_arg8, V3_main_arg7, V3_main_arg8, V1_main_arg7, V1_main_arg8]
  rfl

end Cert.KernelIdeal.Chain

end
-- ==== Proof.RefTerm.lean ====
/-
  The reference program's value as three pure functions of its arguments: the nine masked features of every point, the
  normalisation of an activation by its own mean and variance over all points with scale, shift and clip, and the
  whole network — the first linear layer of the features, normalised, the second linear layer, normalised, and the
  maximum over each pillar's slots. Each function is the reference's own operations, in its own order.
-/
import proofs.«133398_j52536039964809_1_alg».proof.ReferenceIdeal

noncomputable section

open scoped BigOperators

namespace Cert.ReferenceIdeal.Ref

open Idealize.ShloMosaic Cert.ReferenceIdeal
open Cert.ReferenceIdeal.Facts₀ Cert.ReferenceIdeal.Facts

variable {F : FTy → Type} [FloatOps F] [Facts]

/-- The nine masked features of every point. -/
def refFeat (vox : FVec F S4x12000x32x4 .f32) (coords : IVec S4x12000x4 32) (npts : IVec S4x12000 32) : FVec F S4x12000x32x9 .f32 :=
  have c : IVec S2 32 := fun i => lit0 (S2.rowMajor i)
  have cst : FVec F S2 .f32 := constant S2 .f32 0x3E23D70A#32
  have cst_0 : FVec F S2 .f32 := fun i => FloatOps.ofBits .f32 (lit1 (S2.rowMajor i))
  have v0 : FVec F S4x12000x32x3 .f32 := extractStridedSlice S4x12000x32x3 ![0, 0, 0, 0] vox slices_S4x12000x32x4_S4x12000x32x3_0_0_0_0
  have v1 : FVec F S4x12000x32x1 .f32 := extractStridedSlice S4x12000x32x1 ![0, 0, 0, 3] vox slices_S4x12000x32x4_S4x12000x32x1_0_0_0_3
  have c_1 : IVec S_ 32 := constantI S_ 32 0#32
  have v2 : IVec S2 32 := broadcastInDim S2 ![] bcast_S_S2 c_1
  have v3 : IVec S2 1 := cmpi .slt c v2
  have c_2 : IVec S_ 32 := constantI S_ 32 4#32
  have v4 : IVec S2 32 := broadcastInDim S2 ![] bcast_S_S2 c_2
  have v5 : IVec S2 32 := addi c v4
  have v6 : IVec S2 32 := select v3 v5 c
  have v7 : IVec S2x1 32 := broadcastInDim S2x1 ![0] bcast_S2_S2x1_0 v6
  have v8 : IVec S4x12000x2 32 := Host.gather gather_S4x12000x4_S2x1_S4x12000x2_01_2_n_n_2_1_4120001 coords v7
  have v9 : FVec F S4x12000x2 .f32 := sitofp .f32 v8
  have cst_3 : FVec F S_ .f32 := constant S_ .f32 0x3F000000#32
  have v10 : FVec F S4x12000x2 .f32 := broadcastInDim S4x12000x2 ![] bcast_S_S4x12000x2 cst_3
  have v11 : FVec F S4x12000x2 .f32 := addf v9 v10
  have v12 : FVec F S1x1x2 .f32 := broadcastInDim S1x1x2 ![2] bcast_S2_S1x1x2_2 cst
  have v13 : FVec F S4x12000x2 .f32 := broadcastInDim S4x12000x2 ![0, 1, 2] bcast_S1x1x2_S4x12000x2_0_1_2 v12
  have v14 : FVec F S4x12000x2 .f32 := mulf v11 v13
  have v15 : FVec F S1x1x2 .f32 := broadcastInDim S1x1x2 ![2] bcast_S2_S1x1x2_2 cst_0
  have v16 : FVec F S4x12000x2 .f32 := broadcastInDim S4x12000x2 ![0, 1, 2] bcast_S1x1x2_S4x12000x2_0_1_2 v15
  have v17 : FVec F S4x12000x2 .f32 := addf v14 v16
  have v18 : FVec F S4x12000x32x2 .f32 := extractStridedSlice S4x12000x32x2 ![0, 0, 0, 0] v0 slices_S4x12000x32x3_S4x12000x32x2_0_0_0_0
  have v19 : FVec F S4x12000x1x2 .f32 := broadcastInDim S4x12000x1x2 ![0, 1, 3] bcast_S4x12000x2_S4x12000x1x2_0_1_3 v17
  have v20 : FVec F S4x12000x32x2 .f32 := broadcastInDim S4x12000x32x2 ![0, 1, 2, 3] bcast_S4x12000x1x2_S4x12000x32x2_0_1_2_3 v19
  have v21 : FVec F S4x12000x32x2 .f32 := subf v18 v20
  have v22 : FVec F S4x12000x32x1 .f32 := extractStridedSlice S4x12000x32x1 ![0, 0, 0, 2] v0 slices_S4x12000x32x3_S4x12000x32x1_0_0_0_2
  have cst_4 : FVec F S_ .f32 := constant S_ .f32 0x00000000#32
  have v23 : FVec F S4x12000x1 .f32 := Host.reduceAdd v22 cst_4 reducesTo_S4x12000x32x1_S4x12000x1_d2 h_S_
  have v24 : FVec F S4x12000x1x1 .f32 := broadcastInDim S4x12000x1x1 ![0, 1, 3] bcast_S4x12000x1_S4x12000x1x1_0_1_3 v23
  have cst_5 : FVec F S_ .f32 := constant S_ .f32 0x42000000#32
  have v25 : FVec F S4x12000x1x1 .f32 := broadcastInDim S4x12000x1x1 ![] bcast_S_S4x12000x1x1 cst_5
  have v26 : FVec F S4x12000x1x1 .f32 := Host.divf v24 v25
  have v27 : FVec F S4x12000x1x2 .f32 := broadcastInDim S4x12000x1x2 ![0, 1, 3] bcast_S4x12000x2_S4x12000x1x2_0_1_3 v17
  have v28 : FVec F S4x12000x32x2 .f32 := broadcastInDim S4x12000x32x2 ![0, 1, 2, 3] bcast_S4x12000x1x2_S4x12000x32x2_0_1_2_3 v27
  have v29 : FVec F S4x12000x32x1 .f32 := broadcastInDim S4x12000x32x1 ![0, 1, 2, 3] bcast_S4x12000x1x1_S4x12000x32x1_0_1_2_3 v26
  have v30 : FVec F S4x12000x32x9 .f32 := concatenate S4x12000x32x9 3 [⟨S4x12000x32x3, v0⟩, ⟨S4x12000x32x1, v1⟩, ⟨S4x12000x32x2, v21⟩, ⟨S4x12000x32x2, v28⟩, ⟨S4x12000x32x1, v29⟩] concatenates_S4x12000x32x3_S4x12000x32x1_S4x12000x32x2_S4x12000x32x2_S4x12000x32x1_S4x12000x32x9_d3
  have v31 : IVec S32 32 := iotaInDim S32 32 0
  have v32 : IVec S1x1x32x1 32 := broadcastInDim S1x1x32x1 ![2] bcast_S32_S1x1x32x1_2 v31
  have v33 : IVec S4x12000x1x1 32 := broadcastInDim S4x12000x1x1 ![0, 1] bcast_S4x12000_S4x12000x1x1_0_1 npts
  have v34 : IVec S4x12000x32x1 32 := broadcastInDim S4x12000x32x1 ![0, 1, 2, 3] bcast_S1x1x32x1_S4x12000x32x1_0_1_2_3 v32
  have v35 : IVec S4x12000x32x1 32 := broadcastInDim S4x12000x32x1 ![0, 1, 2, 3] bcast_S4x12000x1x1_S4x12000x32x1_0_1_2_3 v33
  have v36 : IVec S4x12000x32x1 1 := cmpi .slt v34 v35
  have v37 : FVec F S4x12000x32x1 .f32 := uitofp .f32 v36
  have v38 : FVec F S4x12000x32x9 .f32 := broadcastInDim S4x12000x32x9 ![0, 1, 2, 3] bcast_S4x12000x32x1_S4x12000x32x9_0_1_2_3 v37
  mulf v30 v38

/-- An activation normalised by its own mean and variance over all points, scaled by `g`, shifted by `be`, clipped
    below at zero. -/
def refBN (x : FVec F S4x12000x32x64 .f32) (g be : FVec F S64 .f32) : FVec F S4x12000x32x64 .f32 :=
  have cst_6 : FVec F S_ .f32 := constant S_ .f32 0x00000000#32
  have v41 : FVec F S64 .f32 := Host.reduceAdd x cst_6 reducesTo_S4x12000x32x64_S64_d0_1_2 h_S_
  have cst_7 : FVec F S_ .f32 := constant S_ .f32 0x49BB8000#32
  have v42 : FVec F S64 .f32 := broadcastInDim S64 ![] bcast_S_S64 cst_7
  have v43 : FVec F S64 .f32 := Host.divf v41 v42
  have v44 : FVec F S1x1x1x64 .f32 := broadcastInDim S1x1x1x64 ![3] bcast_S64_S1x1x1x64_3 v43
  have v45 : FVec F S4x12000x32x64 .f32 := broadcastInDim S4x12000x32x64 ![0, 1, 2, 3] bcast_S1x1x1x64_S4x12000x32x64_0_1_2_3 v44
  have v46 : FVec F S4x12000x32x64 .f32 := subf x v45
  have v47 : FVec F S4x12000x32x64 .f32 := mulf v46 v46
  have cst_8 : FVec F S_ .f32 := constant S_ .f32 0x00000000#32
  have v48 : FVec F S64 .f32 := Host.reduceAdd v47 cst_8 reducesTo_S4x12000x32x64_S64_d0_1_2 h_S_
  have cst_9 : FVec F S_ .f32 := constant S_ .f32 0x49BB8000#32
  have v49 : FVec F S64 .f32 := broadcastInDim S64 ![] bcast_S_S64 cst_9
  have v50 : FVec F S64 .f32 := Host.divf v48 v49
  have v51 : FVec F S1x1x1x64 .f32 := broadcastInDim S1x1x1x64 ![3] bcast_S64_S1x1x1x64_3 v43
  have v52 : FVec F S4x12000x32x64 .f32 := broadcastInDim S4x12000x32x64 ![0, 1, 2, 3] bcast_S1x1x1x64_S4x12000x32x64_0_1_2_3 v51
  have v53 : FVec F S4x12000x32x64 .f32 := subf x v52
  have cst_10 : FVec F S_ .f32 := constant S_ .f32 0x3A83126F#32
  have v54 : FVec F S64 .f32 := broadcastInDim S64 ![] bcast_S_S64 cst_10
  have v55 : FVec F S64 .f32 := addf v50 v54
  have v56 : FVec F S64 .f32 := Host.rsqrt v55
  have v57 : FVec F S1x1x1x64 .f32 := broadcastInDim S1x1x1x64 ![3] bcast_S64_S1x1x1x64_3 v56
  have v58 : FVec F S4x12000x32x64 .f32 := broadcastInDim S4x12000x32x64 ![0, 1, 2, 3] bcast_S1x1x1x64_S4x12000x32x64_0_1_2_3 v57
  have v59 : FVec F S4x12000x32x64 .f32 := mulf v53 v58
  have v60 : FVec F S1x1x1x64 .f32 := broadcastInDim S1x1x1x64 ![3] bcast_S64_S1x1x1x64_3 g
  have v61 : FVec F S4x12000x32x64 .f32 := broadcastInDim S4x12000x32x64 ![0, 1, 2, 3] bcast_S1x1x1x64_S4x12000x32x64_0_1_2_3 v60
  have v62 : FVec F S4x12000x32x64 .f32 := mulf v59 v61
  have v63 : FVec F S1x1x1x64 .f32 := broadcastInDim S1x1x1x64 ![3] bcast_S64_S1x1x1x64_3 be
  have v64 : FVec F S4x12000x32x64 .f32 := broadcastInDim S4x12000x32x64 ![0, 1, 2, 3] bcast_S1x1x1x64_S4x12000x32x64_0_1_2_3 v63
  have v65 : FVec F S4x12000x32x64 .f32 := addf v62 v64
  have rcst : FVec F S_ .f32 := constant S_ .f32 0x00000000#32
  have r0 : FVec F S4x12000x32x64 .f32 := broadcastInDim S4x12000x32x64 ![] bcast_S_S4x12000x32x64 rcst
  maximumf v65 r0

/-- The reference's result as a function of its nine arguments. -/
def refOut (vox : FVec F S4x12000x32x4 .f32) (coords : IVec S4x12000x4 32) (npts : IVec S4x12000 32)
    (w1 : FVec F S9x64 .f32) (g1 b1 : FVec F S64 .f32) (w2 : FVec F S64x64 .f32) (g2 b2 : FVec F S64 .f32) : FVec F S4x12000x64 .f32 :=
  have v40 : FVec F S4x12000x32x64 .f32 := Host.dotGeneral dot_S4x12000x32x9_S9x64_S4x12000x32x64_3_0_012_1_n_n none (refFeat vox coords npts) w1
  have v66 : FVec F S4x12000x32x64 .f32 := refBN v40 g1 b1
  have v67 : FVec F S4x12000x32x64 .f32 := Host.dotGeneral dot_S4x12000x32x64_S64x64_S4x12000x32x64_3_0_012_1_n_n none v66 w2
  have v93 : FVec F S4x12000x32x64 .f32 := refBN v67 g2 b2
  have cst_16 : FVec F S_ .f32 := constant S_ .f32 0xFF800000#32
  Host.reduce FloatOps.maximumf v93 cst_16 reducesTo_S4x12000x32x64_S4x12000x64_d2 h_S_

end Cert.ReferenceIdeal.Ref

end
-- ==== Proof.RefRun.lean ====
/-
  The reference program run: it has no kernel, so every weakly fair execution is its straight line of host
  operations, and its result buffer ends at the reference's value of the launch contents of its nine arguments, which end
  unchanged.

  The line is read in four stretches — the features of every point, the first layer with its normalisation, the
  second layer with its normalisation, the maximum over a pillar's slots — and each stretch's result buffer, after
  the stretch from any contents, is the matching function of RefTerm applied to the contents of the buffers the stretch
  reads. The nine arguments are written by no operation.
-/
import proofs.«133398_j52536039964809_1_alg».proof.Proof.Gen.ReferenceIdeal
import proofs.«133398_j52536039964809_1_alg».proof.Proof.RefTerm
import Idealize.ShloMosaic.Lib.StableHlo.Run
import Idealize.ShloMosaic.Lib.Pipeline.Frame
import Idealize.ShloMosaic.Lib.Tactic

noncomputable section

open scoped BigOperators

namespace Cert.ReferenceIdeal.Ref

open Idealize.ShloMosaic Idealize.ShloMosaic.TcCoe Idealize.SL.Sem Idealize.ShloMosaic.StableHlo
open Cert.ReferenceIdeal Cert.ReferenceIdeal.Gen

variable {F : FTy → Type} [FloatOps F]

/-! ## The operations, in order -/

/-- The operations that decorate the points: the pillar centres from the grid cells, the offsets from them, the mean height, the nine features laid side by side, and the mask of the slots that hold a point. -/
abbrev wF : List (HloOp τ sig (Elt F)) :=
  [ nullary main_c (fun i => lit0 (S2.rowMajor i)),
    nullary main_cst (constant S2 .f32 0x3E23D70A#32),
    nullary main_cst_0 (fun i => FloatOps.ofBits .f32 (lit1 (S2.rowMajor i))),
    unary main_arg0 main_v0 ((extractStridedSlice S4x12000x32x3 ![0, 0, 0, 0] · slices_S4x12000x32x4_S4x12000x32x3_0_0_0_0) : (⟨S4x12000x32x4, .f32⟩ : BufTy).Contents (Elt F) → (⟨S4x12000x32x3, .f32⟩ : BufTy).Contents (Elt F)),
    unary main_arg0 main_v1 ((extractStridedSlice S4x12000x32x1 ![0, 0, 0, 3] · slices_S4x12000x32x4_S4x12000x32x1_0_0_0_3) : (⟨S4x12000x32x4, .f32⟩ : BufTy).Contents (Elt F) → (⟨S4x12000x32x1, .f32⟩ : BufTy).Contents (Elt F)),
    nullary main_c_1 (constantI S_ 32 0#32),
    unary main_c_1 main_v2 (broadcastInDim S2 ![] bcast_S_S2 : (⟨S_, .i32⟩ : BufTy).Contents (Elt F) → (⟨S2, .i32⟩ : BufTy).Contents (Elt F)),
    binary main_c main_v2 main_v3 (cmpi .slt : (⟨S2, .i32⟩ : BufTy).Contents (Elt F) → (⟨S2, .i32⟩ : BufTy).Contents (Elt F) → (⟨S2, .i1⟩ : BufTy).Contents (Elt F)),
    nullary main_c_2 (constantI S_ 32 4#32),
    unary main_c_2 main_v4 (broadcastInDim S2 ![] bcast_S_S2 : (⟨S_, .i32⟩ : BufTy).Contents (Elt F) → (⟨S2, .i32⟩ : BufTy).Contents (Elt F)),
    binary main_c main_v4 main_v5 (addi : (⟨S2, .i32⟩ : BufTy).Contents (Elt F) → (⟨S2, .i32⟩ : BufTy).Contents (Elt F) → (⟨S2, .i32⟩ : BufTy).Contents (Elt F)),
    ternary main_v3 main_v5 main_c main_v6 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v6 main_v7 (broadcastInDim S2x1 ![0] bcast_S2_S2x1_0 : (⟨S2, .i32⟩ : BufTy).Contents (Elt F) → (⟨S2x1, .i32⟩ : BufTy).Contents (Elt F)),
    binary main_arg1 main_v7 main_v8 ((fun x i => Host.gather gather_S4x12000x4_S2x1_S4x12000x2_01_2_n_n_2_1_4120001 x i) : (⟨S4x12000x4, .i32⟩ : BufTy).Contents (Elt F) → (⟨S2x1, .i32⟩ : BufTy).Contents (Elt F) → (⟨S4x12000x2, .i32⟩ : BufTy).Contents (Elt F)),
    unary main_v8 main_v9 (sitofp .f32 : (⟨S4x12000x2, .i32⟩ : BufTy).Contents (Elt F) → (⟨S4x12000x2, .f32⟩ : BufTy).Contents (Elt F)),
    nullary main_cst_3 (constant S_ .f32 0x3F000000#32),
    unary main_cst_3 main_v10 (broadcastInDim S4x12000x2 ![] bcast_S_S4x12000x2 : (⟨S_, .f32⟩ : BufTy).Contents (Elt F) → (⟨S4x12000x2, .f32⟩ : BufTy).Contents (Elt F)),
    binary main_v9 main_v10 main_v11 (addf : (⟨S4x12000x2, .f32⟩ : BufTy).Contents (Elt F) → (⟨S4x12000x2, .f32⟩ : BufTy).Contents (Elt F) → (⟨S4x12000x2, .f32⟩ : BufTy).Contents (Elt F)),
    unary main_cst main_v12 (broadcastInDim S1x1x2 ![2] bcast_S2_S1x1x2_2 : (⟨S2, .f32⟩ : BufTy).Contents (Elt F) → (⟨S1x1x2, .f32⟩ : BufTy).Contents (Elt F)),
    unary main_v12 main_v13 (broadcastInDim S4x12000x2 ![0, 1, 2] bcast_S1x1x2_S4x12000x2_0_1_2 : (⟨S1x1x2, .f32⟩ : BufTy).Contents (Elt F) → (⟨S4x12000x2, .f32⟩ : BufTy).Contents (Elt F)),
    binary main_v11 main_v13 main_v14 (mulf : (⟨S4x12000x2, .f32⟩ : BufTy).Contents (Elt F) → (⟨S4x12000x2, .f32⟩ : BufTy).Contents (Elt F) → (⟨S4x12000x2, .f32⟩ : BufTy).Contents (Elt F)),
    unary main_cst_0 main_v15 (broadcastInDim S1x1x2 ![2] bcast_S2_S1x1x2_2 : (⟨S2, .f32⟩ : BufTy).Contents (Elt F) → (⟨S1x1x2, .f32⟩ : BufTy).Contents (Elt F)),
    unary main_v15 main_v16 (broadcastInDim S4x12000x2 ![0, 1, 2] bcast_S1x1x2_S4x12000x2_0_1_2 : (⟨S1x1x2, .f32⟩ : BufTy).Contents (Elt F) → (⟨S4x12000x2, .f32⟩ : BufTy).Contents (Elt F)),
    binary main_v14 main_v16 main_v17 (addf : (⟨S4x12000x2, .f32⟩ : BufTy).Contents (Elt F) → (⟨S4x12000x2, .f32⟩ : BufTy).Contents (Elt F) → (⟨S4x12000x2, .f32⟩ : BufTy).Contents (Elt F)),
    unary main_v0 main_v18 ((extractStridedSlice S4x12000x32x2 ![0, 0, 0, 0] · slices_S4x12000x32x3_S4x12000x32x2_0_0_0_0) : (⟨S4x12000x32x3, .f32⟩ : BufTy).Contents (Elt F) → (⟨S4x12000x32x2, .f32⟩ : BufTy).Contents (Elt F)),
    unary main_v17 main_v19 (broadcastInDim S4x12000x1x2 ![0, 1, 3] bcast_S4x12000x2_S4x12000x1x2_0_1_3 : (⟨S4x12000x2, .f32⟩ : BufTy).Contents (Elt F) → (⟨S4x12000x1x2, .f32⟩ : BufTy).Contents (Elt F)),
    unary main_v19 main_v20 (broadcastInDim S4x12000x32x2 ![0, 1, 2, 3] bcast_S4x12000x1x2_S4x12000x32x2_0_1_2_3 : (⟨S4x12000x1x2, .f32⟩ : BufTy).Contents (Elt F) → (⟨S4x12000x32x2, .f32⟩ : BufTy).Contents (Elt F)),
    binary main_v18 main_v20 main_v21 (subf : (⟨S4x12000x32x2, .f32⟩ : BufTy).Contents (Elt F) → (⟨S4x12000x32x2, .f32⟩ : BufTy).Contents (Elt F) → (⟨S4x12000x32x2, .f32⟩ : BufTy).Contents (Elt F)),
    unary main_v0 main_v22 ((extractStridedSlice S4x12000x32x1 ![0, 0, 0, 2] · slices_S4x12000x32x3_S4x12000x32x1_0_0_0_2) : (⟨S4x12000x32x3, .f32⟩ : BufTy).Contents (Elt F) → (⟨S4x12000x32x1, .f32⟩ : BufTy).Contents (Elt F)),
    nullary main_cst_4 (constant S_ .f32 0x00000000#32),
    binary main_v22 main_cst_4 main_v23 ((fun x v => Host.reduceAdd x v reducesTo_S4x12000x32x1_S4x12000x1_d2 h_S_) : (⟨S4x12000x32x1, .f32⟩ : BufTy).Contents (Elt F) → (⟨S_, .f32⟩ : BufTy).Contents (Elt F) → (⟨S4x12000x1, .f32⟩ : BufTy).Contents (Elt F)),
    unary main_v23 main_v24 (broadcastInDim S4x12000x1x1 ![0, 1, 3] bcast_S4x12000x1_S4x12000x1x1_0_1_3 : (⟨S4x12000x1, .f32⟩ : BufTy).Contents (Elt F) → (⟨S4x12000x1x1, .f32⟩ : BufTy).Contents (Elt F)),
    nullary main_cst_5 (constant S_ .f32 0x42000000#32),
    unary main_cst_5 main_v25 (broadcastInDim S4x12000x1x1 ![] bcast_S_S4x12000x1x1 : (⟨S_, .f32⟩ : BufTy).Contents (Elt F) → (⟨S4x12000x1x1, .f32⟩ : BufTy).Contents (Elt F)),
    binary main_v24 main_v25 main_v26 (Host.divf : (⟨S4x12000x1x1, .f32⟩ : BufTy).Contents (Elt F) → (⟨S4x12000x1x1, .f32⟩ : BufTy).Contents (Elt F) → (⟨S4x12000x1x1, .f32⟩ : BufTy).Contents (Elt F)),
    unary main_v17 main_v27 (broadcastInDim S4x12000x1x2 ![0, 1, 3] bcast_S4x12000x2_S4x12000x1x2_0_1_3 : (⟨S4x12000x2, .f32⟩ : BufTy).Contents (Elt F) → (⟨S4x12000x1x2, .f32⟩ : BufTy).Contents (Elt F)),
    unary main_v27 main_v28 (broadcastInDim S4x12000x32x2 ![0, 1, 2, 3] bcast_S4x12000x1x2_S4x12000x32x2_0_1_2_3 : (⟨S4x12000x1x2, .f32⟩ : BufTy).Contents (Elt F) → (⟨S4x12000x32x2, .f32⟩ : BufTy).Contents (Elt F)),
    unary main_v26 main_v29 (broadcastInDim S4x12000x32x1 ![0, 1, 2, 3] bcast_S4x12000x1x1_S4x12000x32x1_0_1_2_3 : (⟨S4x12000x1x1, .f32⟩ : BufTy).Contents (Elt F) → (⟨S4x12000x32x1, .f32⟩ : BufTy).Contents (Elt F)),
    nary ![main_v0, main_v1, main_v21, main_v28, main_v29] main_v30 (fun u => concatenate S4x12000x32x9 3 [⟨S4x12000x32x3, u 0⟩, ⟨S4x12000x32x1, u 1⟩, ⟨S4x12000x32x2, u 2⟩, ⟨S4x12000x32x2, u 3⟩, ⟨S4x12000x32x1, u 4⟩] concatenates_S4x12000x32x3_S4x12000x32x1_S4x12000x32x2_S4x12000x32x2_S4x12000x32x1_S4x12000x32x9_d3),
    nullary main_v31 (iotaInDim S32 32 0),
    unary main_v31 main_v32 (broadcastInDim S1x1x32x1 ![2] bcast_S32_S1x1x32x1_2 : (⟨S32, .i32⟩ : BufTy).Contents (Elt F) → (⟨S1x1x32x1, .i32⟩ : BufTy).Contents (Elt F)),
    unary main_arg2 main_v33 (broadcastInDim S4x12000x1x1 ![0, 1] bcast_S4x12000_S4x12000x1x1_0_1 : (⟨S4x12000, .i32⟩ : BufTy).Contents (Elt F) → (⟨S4x12000x1x1, .i32⟩ : BufTy).Contents (Elt F)),
    unary main_v32 main_v34 (broadcastInDim S4x12000x32x1 ![0, 1, 2, 3] bcast_S1x1x32x1_S4x12000x32x1_0_1_2_3 : (⟨S1x1x32x1, .i32⟩ : BufTy).Contents (Elt F) → (⟨S4x12000x32x1, .i32⟩ : BufTy).Contents (Elt F)),
    unary main_v33 main_v35 (broadcastInDim S4x12000x32x1 ![0, 1, 2, 3] bcast_S4x12000x1x1_S4x12000x32x1_0_1_2_3 : (⟨S4x12000x1x1, .i32⟩ : BufTy).Contents (Elt F) → (⟨S4x12000x32x1, .i32⟩ : BufTy).Contents (Elt F)),
    binary main_v34 main_v35 main_v36 (cmpi .slt : (⟨S4x12000x32x1, .i32⟩ : BufTy).Contents (Elt F) → (⟨S4x12000x32x1, .i32⟩ : BufTy).Contents (Elt F) → (⟨S4x12000x32x1, .i1⟩ : BufTy).Contents (Elt F)),
    unary main_v36 main_v37 (uitofp .f32 : (⟨S4x12000x32x1, .i1⟩ : BufTy).Contents (Elt F) → (⟨S4x12000x32x1, .f32⟩ : BufTy).Contents (Elt F)),
    unary main_v37 main_v38 (broadcastInDim S4x12000x32x9 ![0, 1, 2, 3] bcast_S4x12000x32x1_S4x12000x32x9_0_1_2_3 : (⟨S4x12000x32x1, .f32⟩ : BufTy).Contents (Elt F) → (⟨S4x12000x32x9, .f32⟩ : BufTy).Contents (Elt F)),
    binary main_v30 main_v38 main_v39 (mulf : (⟨S4x12000x32x9, .f32⟩ : BufTy).Contents (Elt F) → (⟨S4x12000x32x9, .f32⟩ : BufTy).Contents (Elt F) → (⟨S4x12000x32x9, .f32⟩ : BufTy).Contents (Elt F)) ]

/-- The first linear layer, its mean and variance over all points, the normalisation with scale and shift, and the clip below at zero (the function the program calls, its three operations in place). -/
abbrev wB1 : List (HloOp τ sig (Elt F)) :=
  [ binary main_v39 main_arg3 main_v40 ((fun l r => Host.dotGeneral dot_S4x12000x32x9_S9x64_S4x12000x32x64_3_0_012_1_n_n none l r) : (⟨S4x12000x32x9, .f32⟩ : BufTy).Contents (Elt F) → (⟨S9x64, .f32⟩ : BufTy).Contents (Elt F) → (⟨S4x12000x32x64, .f32⟩ : BufTy).Contents (Elt F)),
    nullary main_cst_6 (constant S_ .f32 0x00000000#32),
    binary main_v40 main_cst_6 main_v41 ((fun x v => Host.reduceAdd x v reducesTo_S4x12000x32x64_S64_d0_1_2 h_S_) : (⟨S4x12000x32x64, .f32⟩ : BufTy).Contents (Elt F) → (⟨S_, .f32⟩ : BufTy).Contents (Elt F) → (⟨S64, .f32⟩ : BufTy).Contents (Elt F)),
    nullary main_cst_7 (constant S_ .f32 0x49BB8000#32),
    unary main_cst_7 main_v42 (broadcastInDim S64 ![] bcast_S_S64 : (⟨S_, .f32⟩ : BufTy).Contents (Elt F) → (⟨S64, .f32⟩ : BufTy).Contents (Elt F)),
    binary main_v41 main_v42 main_v43 (Host.divf : (⟨S64, .f32⟩ : BufTy).Contents (Elt F) → (⟨S64, .f32⟩ : BufTy).Contents (Elt F) → (⟨S64, .f32⟩ : BufTy).Contents (Elt F)),
    unary main_v43 main_v44 (broadcastInDim S1x1x1x64 ![3] bcast_S64_S1x1x1x64_3 : (⟨S64, .f32⟩ : BufTy).Contents (Elt F) → (⟨S1x1x1x64, .f32⟩ : BufTy).Contents (Elt F)),
    unary main_v44 main_v45 (broadcastInDim S4x12000x32x64 ![0, 1, 2, 3] bcast_S1x1x1x64_S4x12000x32x64_0_1_2_3 : (⟨S1x1x1x64, .f32⟩ : BufTy).Contents (Elt F) → (⟨S4x12000x32x64, .f32⟩ : BufTy).Contents (Elt F)),
    binary main_v40 main_v45 main_v46 (subf : (⟨S4x12000x32x64, .f32⟩ : BufTy).Contents (Elt F) → (⟨S4x12000x32x64, .f32⟩ : BufTy).Contents (Elt F) → (⟨S4x12000x32x64, .f32⟩ : BufTy).Contents (Elt F)),
    binary main_v46 main_v46 main_v47 (mulf : (⟨S4x12000x32x64, .f32⟩ : BufTy).Contents (Elt F) → (⟨S4x12000x32x64, .f32⟩ : BufTy).Contents (Elt F) → (⟨S4x12000x32x64, .f32⟩ : BufTy).Contents (Elt F)),
    nullary main_cst_8 (constant S_ .f32 0x00000000#32),
    binary main_v47 main_cst_8 main_v48 ((fun x v => Host.reduceAdd x v reducesTo_S4x12000x32x64_S64_d0_1_2 h_S_) : (⟨S4x12000x32x64, .f32⟩ : BufTy).Contents (Elt F) → (⟨S_, .f32⟩ : BufTy).Contents (Elt F) → (⟨S64, .f32⟩ : BufTy).Contents (Elt F)),
    nullary main_cst_9 (constant S_ .f32 0x49BB8000#32),
    unary main_cst_9 main_v49 (broadcastInDim S64 ![] bcast_S_S64 : (⟨S_, .f32⟩ : BufTy).Contents (Elt F) → (⟨S64, .f32⟩ : BufTy).Contents (Elt F)),
    binary main_v48 main_v49 main_v50 (Host.divf : (⟨S64, .f32⟩ : BufTy).Contents (Elt F) → (⟨S64, .f32⟩ : BufTy).Contents (Elt F) → (⟨S64, .f32⟩ : BufTy).Contents (Elt F)),
    unary main_v43 main_v51 (broadcastInDim S1x1x1x64 ![3] bcast_S64_S1x1x1x64_3 : (⟨S64, .f32⟩ : BufTy).Contents (Elt F) → (⟨S1x1x1x64, .f32⟩ : BufTy).Contents (Elt F)),
    unary main_v51 main_v52 (broadcastInDim S4x12000x32x64 ![0, 1, 2, 3] bcast_S1x1x1x64_S4x12000x32x64_0_1_2_3 : (⟨S1x1x1x64, .f32⟩ : BufTy).Contents (Elt F) → (⟨S4x12000x32x64, .f32⟩ : BufTy).Contents (Elt F)),
    binary main_v40 main_v52 main_v53 (subf : (⟨S4x12000x32x64, .f32⟩ : BufTy).Contents (Elt F) → (⟨S4x12000x32x64, .f32⟩ : BufTy).Contents (Elt F) → (⟨S4x12000x32x64, .f32⟩ : BufTy).Contents (Elt F)),
    nullary main_cst_10 (constant S_ .f32 0x3A83126F#32),
    unary main_cst_10 main_v54 (broadcastInDim S64 ![] bcast_S_S64 : (⟨S_, .f32⟩ : BufTy).Contents (Elt F) → (⟨S64, .f32⟩ : BufTy).Contents (Elt F)),
    binary main_v50 main_v54 main_v55 (addf : (⟨S64, .f32⟩ : BufTy).Contents (Elt F) → (⟨S64, .f32⟩ : BufTy).Contents (Elt F) → (⟨S64, .f32⟩ : BufTy).Contents (Elt F)),
    unary main_v55 main_v56 (Host.rsqrt : (⟨S64, .f32⟩ : BufTy).Contents (Elt F) → (⟨S64, .f32⟩ : BufTy).Contents (Elt F)),
    unary main_v56 main_v57 (broadcastInDim S1x1x1x64 ![3] bcast_S64_S1x1x1x64_3 : (⟨S64, .f32⟩ : BufTy).Contents (Elt F) → (⟨S1x1x1x64, .f32⟩ : BufTy).Contents (Elt F)),
    unary main_v57 main_v58 (broadcastInDim S4x12000x32x64 ![0, 1, 2, 3] bcast_S1x1x1x64_S4x12000x32x64_0_1_2_3 : (⟨S1x1x1x64, .f32⟩ : BufTy).Contents (Elt F) → (⟨S4x12000x32x64, .f32⟩ : BufTy).Contents (Elt F)),
    binary main_v53 main_v58 main_v59 (mulf : (⟨S4x12000x32x64, .f32⟩ : BufTy).Contents (Elt F) → (⟨S4x12000x32x64, .f32⟩ : BufTy).Contents (Elt F) → (⟨S4x12000x32x64, .f32⟩ : BufTy).Contents (Elt F)),
    unary main_arg4 main_v60 (broadcastInDim S1x1x1x64 ![3] bcast_S64_S1x1x1x64_3 : (⟨S64, .f32⟩ : BufTy).Contents (Elt F) → (⟨S1x1x1x64, .f32⟩ : BufTy).Contents (Elt F)),
    unary main_v60 main_v61 (broadcastInDim S4x12000x32x64 ![0, 1, 2, 3] bcast_S1x1x1x64_S4x12000x32x64_0_1_2_3 : (⟨S1x1x1x64, .f32⟩ : BufTy).Contents (Elt F) → (⟨S4x12000x32x64, .f32⟩ : BufTy).Contents (Elt F)),
    binary main_v59 main_v61 main_v62 (mulf : (⟨S4x12000x32x64, .f32⟩ : BufTy).Contents (Elt F) → (⟨S4x12000x32x64, .f32⟩ : BufTy).Contents (Elt F) → (⟨S4x12000x32x64, .f32⟩ : BufTy).Contents (Elt F)),
    unary main_arg5 main_v63 (broadcastInDim S1x1x1x64 ![3] bcast_S64_S1x1x1x64_3 : (⟨S64, .f32⟩ : BufTy).Contents (Elt F) → (⟨S1x1x1x64, .f32⟩ : BufTy).Contents (Elt F)),
    unary main_v63 main_v64 (broadcastInDim S4x12000x32x64 ![0, 1, 2, 3] bcast_S1x1x1x64_S4x12000x32x64_0_1_2_3 : (⟨S1x1x1x64, .f32⟩ : BufTy).Contents (Elt F) → (⟨S4x12000x32x64, .f32⟩ : BufTy).Contents (Elt F)),
    binary main_v62 main_v64 main_v65 (addf : (⟨S4x12000x32x64, .f32⟩ : BufTy).Contents (Elt F) → (⟨S4x12000x32x64, .f32⟩ : BufTy).Contents (Elt F) → (⟨S4x12000x32x64, .f32⟩ : BufTy).Contents (Elt F)),
    TRef.nullary main_call0.cst (constant S_ .f32 0x00000000#32),
    TRef.unary main_call0.cst main_call0.v0 (broadcastInDim S4x12000x32x64 ![] bcast_S_S4x12000x32x64),
    TRef.binary (.of main_v65) main_call0.v0 main_call0.v1 maximumf ]

/-- The second linear layer, normalised, scaled, shifted and clipped in the same way. -/
abbrev wB2 : List (HloOp τ sig (Elt F)) :=
  [ binary main_v66 main_arg6 main_v67 ((fun l r => Host.dotGeneral dot_S4x12000x32x64_S64x64_S4x12000x32x64_3_0_012_1_n_n none l r) : (⟨S4x12000x32x64, .f32⟩ : BufTy).Contents (Elt F) → (⟨S64x64, .f32⟩ : BufTy).Contents (Elt F) → (⟨S4x12000x32x64, .f32⟩ : BufTy).Contents (Elt F)),
    nullary main_cst_11 (constant S_ .f32 0x00000000#32),
    binary main_v67 main_cst_11 main_v68 ((fun x v => Host.reduceAdd x v reducesTo_S4x12000x32x64_S64_d0_1_2 h_S_) : (⟨S4x12000x32x64, .f32⟩ : BufTy).Contents (Elt F) → (⟨S_, .f32⟩ : BufTy).Contents (Elt F) → (⟨S64, .f32⟩ : BufTy).Contents (Elt F)),
    nullary main_cst_12 (constant S_ .f32 0x49BB8000#32),
    unary main_cst_12 main_v69 (broadcastInDim S64 ![] bcast_S_S64 : (⟨S_, .f32⟩ : BufTy).Contents (Elt F) → (⟨S64, .f32⟩ : BufTy).Contents (Elt F)),
    binary main_v68 main_v69 main_v70 (Host.divf : (⟨S64, .f32⟩ : BufTy).Contents (Elt F) → (⟨S64, .f32⟩ : BufTy).Contents (Elt F) → (⟨S64, .f32⟩ : BufTy).Contents (Elt F)),
    unary main_v70 main_v71 (broadcastInDim S1x1x1x64 ![3] bcast_S64_S1x1x1x64_3 : (⟨S64, .f32⟩ : BufTy).Contents (Elt F) → (⟨S1x1x1x64, .f32⟩ : BufTy).Contents (Elt F)),
    unary main_v71 main_v72 (broadcastInDim S4x12000x32x64 ![0, 1, 2, 3] bcast_S1x1x1x64_S4x12000x32x64_0_1_2_3 : (⟨S1x1x1x64, .f32⟩ : BufTy).Contents (Elt F) → (⟨S4x12000x32x64, .f32⟩ : BufTy).Contents (Elt F)),
    binary main_v67 main_v72 main_v73 (subf : (⟨S4x12000x32x64, .f32⟩ : BufTy).Contents (Elt F) → (⟨S4x12000x32x64, .f32⟩ : BufTy).Contents (Elt F) → (⟨S4x12000x32x64, .f32⟩ : BufTy).Contents (Elt F)),
    binary main_v73 main_v73 main_v74 (mulf : (⟨S4x12000x32x64, .f32⟩ : BufTy).Contents (Elt F) → (⟨S4x12000x32x64, .f32⟩ : BufTy).Contents (Elt F) → (⟨S4x12000x32x64, .f32⟩ : BufTy).Contents (Elt F)),
    nullary main_cst_13 (constant S_ .f32 0x00000000#32),
    binary main_v74 main_cst_13 main_v75 ((fun x v => Host.reduceAdd x v reducesTo_S4x12000x32x64_S64_d0_1_2 h_S_) : (⟨S4x12000x32x64, .f32⟩ : BufTy).Contents (Elt F) → (⟨S_, .f32⟩ : BufTy).Contents (Elt F) → (⟨S64, .f32⟩ : BufTy).Contents (Elt F)),
    nullary main_cst_14 (constant S_ .f32 0x49BB8000#32),
    unary main_cst_14 main_v76 (broadcastInDim S64 ![] bcast_S_S64 : (⟨S_, .f32⟩ : BufTy).Contents (Elt F) → (⟨S64, .f32⟩ : BufTy).Contents (Elt F)),
    binary main_v75 main_v76 main_v77 (Host.divf : (⟨S64, .f32⟩ : BufTy).Contents (Elt F) → (⟨S64, .f32⟩ : BufTy).Contents (Elt F) → (⟨S64, .f32⟩ : BufTy).Contents (Elt F)),
    unary main_v70 main_v78 (broadcastInDim S1x1x1x64 ![3] bcast_S64_S1x1x1x64_3 : (⟨S64, .f32⟩ : BufTy).Contents (Elt F) → (⟨S1x1x1x64, .f32⟩ : BufTy).Contents (Elt F)),
    unary main_v78 main_v79 (broadcastInDim S4x12000x32x64 ![0, 1, 2, 3] bcast_S1x1x1x64_S4x12000x32x64_0_1_2_3 : (⟨S1x1x1x64, .f32⟩ : BufTy).Contents (Elt F) → (⟨S4x12000x32x64, .f32⟩ : BufTy).Contents (Elt F)),
    binary main_v67 main_v79 main_v80 (subf : (⟨S4x12000x32x64, .f32⟩ : BufTy).Contents (Elt F) → (⟨S4x12000x32x64, .f32⟩ : BufTy).Contents (Elt F) → (⟨S4x12000x32x64, .f32⟩ : BufTy).Contents (Elt F)),
    nullary main_cst_15 (constant S_ .f32 0x3A83126F#32),
    unary main_cst_15 main_v81 (broadcastInDim S64 ![] bcast_S_S64 : (⟨S_, .f32⟩ : BufTy).Contents (Elt F) → (⟨S64, .f32⟩ : BufTy).Contents (Elt F)),
    binary main_v77 main_v81 main_v82 (addf : (⟨S64, .f32⟩ : BufTy).Contents (Elt F) → (⟨S64, .f32⟩ : BufTy).Contents (Elt F) → (⟨S64, .f32⟩ : BufTy).Contents (Elt F)),
    unary main_v82 main_v83 (Host.rsqrt : (⟨S64, .f32⟩ : BufTy).Contents (Elt F) → (⟨S64, .f32⟩ : BufTy).Contents (Elt F)),
    unary main_v83 main_v84 (broadcastInDim S1x1x1x64 ![3] bcast_S64_S1x1x1x64_3 : (⟨S64, .f32⟩ : BufTy).Contents (Elt F) → (⟨S1x1x1x64, .f32⟩ : BufTy).Contents (Elt F)),
    unary main_v84 main_v85 (broadcastInDim S4x12000x32x64 ![0, 1, 2, 3] bcast_S1x1x1x64_S4x12000x32x64_0_1_2_3 : (⟨S1x1x1x64, .f32⟩ : BufTy).Contents (Elt F) → (⟨S4x12000x32x64, .f32⟩ : BufTy).Contents (Elt F)),
    binary main_v80 main_v85 main_v86 (mulf : (⟨S4x12000x32x64, .f32⟩ : BufTy).Contents (Elt F) → (⟨S4x12000x32x64, .f32⟩ : BufTy).Contents (Elt F) → (⟨S4x12000x32x64, .f32⟩ : BufTy).Contents (Elt F)),
    unary main_arg7 main_v87 (broadcastInDim S1x1x1x64 ![3] bcast_S64_S1x1x1x64_3 : (⟨S64, .f32⟩ : BufTy).Contents (Elt F) → (⟨S1x1x1x64, .f32⟩ : BufTy).Contents (Elt F)),
    unary main_v87 main_v88 (broadcastInDim S4x12000x32x64 ![0, 1, 2, 3] bcast_S1x1x1x64_S4x12000x32x64_0_1_2_3 : (⟨S1x1x1x64, .f32⟩ : BufTy).Contents (Elt F) → (⟨S4x12000x32x64, .f32⟩ : BufTy).Contents (Elt F)),
    binary main_v86 main_v88 main_v89 (mulf : (⟨S4x12000x32x64, .f32⟩ : BufTy).Contents (Elt F) → (⟨S4x12000x32x64, .f32⟩ : BufTy).Contents (Elt F) → (⟨S4x12000x32x64, .f32⟩ : BufTy).Contents (Elt F)),
    unary main_arg8 main_v90 (broadcastInDim S1x1x1x64 ![3] bcast_S64_S1x1x1x64_3 : (⟨S64, .f32⟩ : BufTy).Contents (Elt F) → (⟨S1x1x1x64, .f32⟩ : BufTy).Contents (Elt F)),
    unary main_v90 main_v91 (broadcastInDim S4x12000x32x64 ![0, 1, 2, 3] bcast_S1x1x1x64_S4x12000x32x64_0_1_2_3 : (⟨S1x1x1x64, .f32⟩ : BufTy).Contents (Elt F) → (⟨S4x12000x32x64, .f32⟩ : BufTy).Contents (Elt F)),
    binary main_v89 main_v91 main_v92 (addf : (⟨S4x12000x32x64, .f32⟩ : BufTy).Contents (Elt F) → (⟨S4x12000x32x64, .f32⟩ : BufTy).Contents (Elt F) → (⟨S4x12000x32x64, .f32⟩ : BufTy).Contents (Elt F)),
    TRef.nullary main_call1.cst (constant S_ .f32 0x00000000#32),
    TRef.unary main_call1.cst main_call1.v0 (broadcastInDim S4x12000x32x64 ![] bcast_S_S4x12000x32x64),
    TRef.binary (.of main_v92) main_call1.v0 main_call1.v1 maximumf ]

/-- The maximum over each pillar's slots, started at minus infinity. -/
abbrev wP : List (HloOp τ sig (Elt F)) :=
  [ nullary main_cst_16 (constant S_ .f32 0xFF800000#32),
    binary main_v93 main_cst_16 main_v94 ((fun x v => Host.reduce FloatOps.maximumf x v reducesTo_S4x12000x32x64_S4x12000x64_d2 h_S_) : (⟨S4x12000x32x64, .f32⟩ : BufTy).Contents (Elt F) → (⟨S_, .f32⟩ : BufTy).Contents (Elt F) → (⟨S4x12000x64, .f32⟩ : BufTy).Contents (Elt F)) ]

/-- @main's operations, in order: the four stretches one after the other. -/
abbrev ops : List (HloOp τ sig (Elt F)) := wF ++ wB1 ++ wB2 ++ wP

set_option maxRecDepth 16384 in
set_option maxHeartbeats 4000000 in
/-- @main is that straight line: its two windows run in order, the called function's definition unfolded at its two
    calls and the calls' records at their fields; both sides are one chain of steps once sequencing is
    reassociated. -/
theorem main_eq (c : Dev nD) : main (F := F) c = seq ops := by
  simp only [main, main_part0, main_part1, fn_relu.body, ops, wF, wB1, wB2, wP, List.cons_append, List.nil_append,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem wF_sub : (wF : List (HloOp τ sig (Elt F))).Forall fun op => op.bufs ⊆ tcRefs τ sig :=
  ⟨nullary_bufs_sub .., nullary_bufs_sub .., nullary_bufs_sub .., unary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., nullary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., unary_bufs_sub .., binary_bufs_sub .., unary_bufs_sub .., nullary_bufs_sub ..,
    binary_bufs_sub .., unary_bufs_sub .., nullary_bufs_sub .., unary_bufs_sub .., binary_bufs_sub .., unary_bufs_sub ..,
    unary_bufs_sub .., unary_bufs_sub .., nary_bufs_sub .., nullary_bufs_sub .., unary_bufs_sub .., unary_bufs_sub ..,
    unary_bufs_sub .., unary_bufs_sub .., binary_bufs_sub .., unary_bufs_sub .., unary_bufs_sub .., binary_bufs_sub ..⟩
theorem wF_fresh : (wF : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl⟩

theorem wB1_sub : (wB1 : List (HloOp τ sig (Elt F))).Forall fun op => op.bufs ⊆ tcRefs τ sig :=
  ⟨binary_bufs_sub .., nullary_bufs_sub .., binary_bufs_sub .., nullary_bufs_sub .., unary_bufs_sub .., binary_bufs_sub ..,
    unary_bufs_sub .., unary_bufs_sub .., binary_bufs_sub .., binary_bufs_sub .., nullary_bufs_sub .., binary_bufs_sub ..,
    nullary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub ..⟩
theorem wB1_fresh : (wB1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

theorem wB2_sub : (wB2 : List (HloOp τ sig (Elt F))).Forall fun op => op.bufs ⊆ tcRefs τ sig :=
  ⟨binary_bufs_sub .., nullary_bufs_sub .., binary_bufs_sub .., nullary_bufs_sub .., unary_bufs_sub .., binary_bufs_sub ..,
    unary_bufs_sub .., unary_bufs_sub .., binary_bufs_sub .., binary_bufs_sub .., nullary_bufs_sub .., binary_bufs_sub ..,
    nullary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub ..⟩
theorem wB2_fresh : (wB2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

theorem wP_sub : (wP : List (HloOp τ sig (Elt F))).Forall fun op => op.bufs ⊆ tcRefs τ sig :=
  ⟨nullary_bufs_sub .., binary_bufs_sub ..⟩
theorem wP_fresh : (wP : List (HloOp τ sig (Elt F))).Forall fun op => op.fresh = ∅ :=
  ⟨rfl, rfl⟩

/-- Every operation touches TensorCore references only. -/
theorem ops_sub : (ops : List (HloOp τ sig (Elt F))).Forall fun op => op.bufs ⊆ tcRefs τ sig :=
  List.forall_append.mpr ⟨List.forall_append.mpr ⟨List.forall_append.mpr ⟨wF_sub, wB1_sub⟩, wB2_sub⟩, wP_sub⟩

/-- Every operation determines its results. -/
theorem ops_fresh : ∀ op ∈ (ops : List (HloOp τ sig (Elt F))), op.fresh = ∅ :=
  List.forall_iff_forall_mem.mp
    (List.forall_append.mpr ⟨List.forall_append.mpr ⟨List.forall_append.mpr ⟨wF_fresh, wB1_fresh⟩, wB2_fresh⟩, wP_fresh⟩)

/-- From any memory with zero counters every weakly fair execution terminates with every buffer at the fold of the
    operations over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## What a stretch leaves in a buffer

Over any contents `W` before it. -/

section Concat5

variable {x a b c e y : Ref sig .tc}

/-- An operation over a literal family of FIVE references (the nine features are five pieces laid side by side)
    leaves at its result buffer its function of the five operands' contents, each read at its own reference. -/
theorem nary5_result
    (f : ((k : Fin 5) → ((![x, a, b, c, e] : Fin 5 → Ref sig .tc) k).ty.Contents (Elt F)) → y.ty.Contents (Elt F)) (hxs hy)
    (V : Valuation τ sig (Elt F)) :
    (nary (τ := τ) ![x, a, b, c, e] y f hxs hy).result V (Proc.devRef .tc y)
      = f (Fin.cons (V (Proc.devRef .tc x)) (Fin.cons (V (Proc.devRef .tc a)) (Fin.cons (V (Proc.devRef .tc b))
          (Fin.cons (V (Proc.devRef .tc c)) (Fin.cons (V (Proc.devRef .tc e)) (fun i => i.elim0)))))) := by
  rw [nary_result]
  refine congrArg f (funext fun k => ?_)
  fin_cases k <;> rfl

/-- The same fact, in the form in which it is used as a rewriting rule beside the rules for the other operations. -/
theorem nary5_result'
    (f : ((k : Fin 5) → ((![x, a, b, c, e] : Fin 5 → Ref sig .tc) k).ty.Contents (Elt F)) → y.ty.Contents (Elt F)) (hxs hy)
    (V : Valuation τ sig (Elt F)) :
    (nary (τ := τ) ![x, a, b, c, e] y f hxs hy).result V (no_index (Proc.devRef .tc y))
      = f (Fin.cons (V (Proc.devRef .tc x)) (Fin.cons (V (Proc.devRef .tc a)) (Fin.cons (V (Proc.devRef .tc b))
          (Fin.cons (V (Proc.devRef .tc c)) (Fin.cons (V (Proc.devRef .tc e)) (fun i => i.elim0)))))) :=
  nary5_result f hxs hy V

end Concat5

set_option maxRecDepth 16384 in
set_option maxHeartbeats 4000000 in
/-- After the first stretch the feature buffer holds the reference's nine masked features of the first three
    arguments: each operation's result is its function of its operands' contents, and the composed term is the
    reference's own chain of operations. -/
theorem feat_eq (W : Valuation τ sig (Elt F)) :
    after wF W (main_v39 : DevRef τ sig) = refFeat (W (main_arg0 : DevRef τ sig)) (W (main_arg1 : DevRef τ sig)) (W (main_arg2 : DevRef τ sig)) := by
  simp (disch := decide) only [after_cons, after_nil, nary5_result', nullary_result', unary_result', binary_result',
    ternary_result', nullary_result_ne', unary_result_ne', binary_result_ne', ternary_result_ne', nary_result_ne']
  rfl

set_option maxRecDepth 16384 in
set_option maxHeartbeats 4000000 in
/-- After the second stretch the first layer's activation buffer holds the normalisation of the first linear layer
    of whatever the feature buffer held. -/
theorem bn1_eq (W : Valuation τ sig (Elt F)) :
    after wB1 W (main_v66 : DevRef τ sig)
      = refBN (Host.dotGeneral dot_S4x12000x32x9_S9x64_S4x12000x32x64_3_0_012_1_n_n none (W (main_v39 : DevRef τ sig)) (W (main_arg3 : DevRef τ sig)))
          (W (main_arg4 : DevRef τ sig)) (W (main_arg5 : DevRef τ sig)) := by
  after_results_simp
  rfl

set_option maxRecDepth 16384 in
set_option maxHeartbeats 4000000 in
/-- After the third stretch the second layer's activation buffer holds the normalisation of the second linear layer
    of whatever the first layer's activation buffer held. -/
theorem bn2_eq (W : Valuation τ sig (Elt F)) :
    after wB2 W (main_v93 : DevRef τ sig)
      = refBN (Host.dotGeneral dot_S4x12000x32x64_S64x64_S4x12000x32x64_3_0_012_1_n_n none (W (main_v66 : DevRef τ sig)) (W (main_arg6 : DevRef τ sig)))
          (W (main_arg7 : DevRef τ sig)) (W (main_arg8 : DevRef τ sig)) := by
  after_results_simp
  rfl

/-- After the last stretch the result buffer holds the maximum over the slots of whatever the second layer's activation
    buffer held. -/
theorem pool_eq (W : Valuation τ sig (Elt F)) :
    after wP W (main_v94 : DevRef τ sig)
      = Host.reduce FloatOps.maximumf (W (main_v93 : DevRef τ sig)) (constant S_ .f32 0xFF800000#32)
          reducesTo_S4x12000x32x64_S4x12000x64_d2 h_S_ := by
  after_results_simp

/-! ## The arguments: written by no operation -/

set_option maxRecDepth 16384 in
set_option maxHeartbeats 4000000 in
theorem wF_args (W : Valuation τ sig (Elt F)) :
    after wF W (main_arg0 : DevRef τ sig) = W (main_arg0 : DevRef τ sig)
      ∧ after wF W (main_arg1 : DevRef τ sig) = W (main_arg1 : DevRef τ sig)
      ∧ after wF W (main_arg2 : DevRef τ sig) = W (main_arg2 : DevRef τ sig)
      ∧ after wF W (main_arg3 : DevRef τ sig) = W (main_arg3 : DevRef τ sig)
      ∧ after wF W (main_arg4 : DevRef τ sig) = W (main_arg4 : DevRef τ sig)
      ∧ after wF W (main_arg5 : DevRef τ sig) = W (main_arg5 : DevRef τ sig)
      ∧ after wF W (main_arg6 : DevRef τ sig) = W (main_arg6 : DevRef τ sig)
      ∧ after wF W (main_arg7 : DevRef τ sig) = W (main_arg7 : DevRef τ sig)
      ∧ after wF W (main_arg8 : DevRef τ sig) = W (main_arg8 : DevRef τ sig) := by
  refine ⟨?_, ?_, ?_, ?_, ?_, ?_, ?_, ?_, ?_⟩ <;> after_results_simp

set_option maxRecDepth 16384 in
set_option maxHeartbeats 4000000 in
theorem wB1_args (W : Valuation τ sig (Elt F)) :
    after wB1 W (main_arg0 : DevRef τ sig) = W (main_arg0 : DevRef τ sig)
      ∧ after wB1 W (main_arg1 : DevRef τ sig) = W (main_arg1 : DevRef τ sig)
      ∧ after wB1 W (main_arg2 : DevRef τ sig) = W (main_arg2 : DevRef τ sig)
      ∧ after wB1 W (main_arg3 : DevRef τ sig) = W (main_arg3 : DevRef τ sig)
      ∧ after wB1 W (main_arg4 : DevRef τ sig) = W (main_arg4 : DevRef τ sig)
      ∧ after wB1 W (main_arg5 : DevRef τ sig) = W (main_arg5 : DevRef τ sig)
      ∧ after wB1 W (main_arg6 : DevRef τ sig) = W (main_arg6 : DevRef τ sig)
      ∧ after wB1 W (main_arg7 : DevRef τ sig) = W (main_arg7 : DevRef τ sig)
      ∧ after wB1 W (main_arg8 : DevRef τ sig) = W (main_arg8 : DevRef τ sig) := by
  refine ⟨?_, ?_, ?_, ?_, ?_, ?_, ?_, ?_, ?_⟩ <;> after_results_simp

set_option maxRecDepth 16384 in
set_option maxHeartbeats 4000000 in
theorem wB2_args (W : Valuation τ sig (Elt F)) :
    after wB2 W (main_arg0 : DevRef τ sig) = W (main_arg0 : DevRef τ sig)
      ∧ after wB2 W (main_arg1 : DevRef τ sig) = W (main_arg1 : DevRef τ sig)
      ∧ after wB2 W (main_arg2 : DevRef τ sig) = W (main_arg2 : DevRef τ sig)
      ∧ after wB2 W (main_arg3 : DevRef τ sig) = W (main_arg3 : DevRef τ sig)
      ∧ after wB2 W (main_arg4 : DevRef τ sig) = W (main_arg4 : DevRef τ sig)
      ∧ after wB2 W (main_arg5 : DevRef τ sig) = W (main_arg5 : DevRef τ sig)
      ∧ after wB2 W (main_arg6 : DevRef τ sig) = W (main_arg6 : DevRef τ sig)
      ∧ after wB2 W (main_arg7 : DevRef τ sig) = W (main_arg7 : DevRef τ sig)
      ∧ after wB2 W (main_arg8 : DevRef τ sig) = W (main_arg8 : DevRef τ sig) := by
  refine ⟨?_, ?_, ?_, ?_, ?_, ?_, ?_, ?_, ?_⟩ <;> after_results_simp

set_option maxRecDepth 16384 in
set_option maxHeartbeats 4000000 in
theorem wP_args (W : Valuation τ sig (Elt F)) :
    after wP W (main_arg0 : DevRef τ sig) = W (main_arg0 : DevRef τ sig)
      ∧ after wP W (main_arg1 : DevRef τ sig) = W (main_arg1 : DevRef τ sig)
      ∧ after wP W (main_arg2 : DevRef τ sig) = W (main_arg2 : DevRef τ sig)
      ∧ after wP W (main_arg3 : DevRef τ sig) = W (main_arg3 : DevRef τ sig)
      ∧ after wP W (main_arg4 : DevRef τ sig) = W (main_arg4 : DevRef τ sig)
      ∧ after wP W (main_arg5 : DevRef τ sig) = W (main_arg5 : DevRef τ sig)
      ∧ after wP W (main_arg6 : DevRef τ sig) = W (main_arg6 : DevRef τ sig)
      ∧ after wP W (main_arg7 : DevRef τ sig) = W (main_arg7 : DevRef τ sig)
      ∧ after wP W (main_arg8 : DevRef τ sig) = W (main_arg8 : DevRef τ sig) := by
  refine ⟨?_, ?_, ?_, ?_, ?_, ?_, ?_, ?_, ?_⟩ <;> after_results_simp

/-- No operation of the whole line writes an argument. -/
theorem ops_args (V : Valuation τ sig (Elt F)) :
    after ops V (main_arg0 : DevRef τ sig) = V (main_arg0 : DevRef τ sig)
      ∧ after ops V (main_arg1 : DevRef τ sig) = V (main_arg1 : DevRef τ sig)
      ∧ after ops V (main_arg2 : DevRef τ sig) = V (main_arg2 : DevRef τ sig)
      ∧ after ops V (main_arg3 : DevRef τ sig) = V (main_arg3 : DevRef τ sig)
      ∧ after ops V (main_arg4 : DevRef τ sig) = V (main_arg4 : DevRef τ sig)
      ∧ after ops V (main_arg5 : DevRef τ sig) = V (main_arg5 : DevRef τ sig)
      ∧ after ops V (main_arg6 : DevRef τ sig) = V (main_arg6 : DevRef τ sig)
      ∧ after ops V (main_arg7 : DevRef τ sig) = V (main_arg7 : DevRef τ sig)
      ∧ after ops V (main_arg8 : DevRef τ sig) = V (main_arg8 : DevRef τ sig) := by
  simp only [ops, StableHlo.after_append]
  obtain ⟨p0, p1, p2, p3, p4, p5, p6, p7, p8⟩ := wP_args (after wB2 (after wB1 (after wF V)))
  obtain ⟨q0, q1, q2, q3, q4, q5, q6, q7, q8⟩ := wB2_args (after wB1 (after wF V))
  obtain ⟨r0, r1, r2, r3, r4, r5, r6, r7, r8⟩ := wB1_args (after wF V)
  obtain ⟨s0, s1, s2, s3, s4, s5, s6, s7, s8⟩ := wF_args V
  exact ⟨p0.trans (q0.trans (r0.trans s0)), p1.trans (q1.trans (r1.trans s1)), p2.trans (q2.trans (r2.trans s2)),
    p3.trans (q3.trans (r3.trans s3)), p4.trans (q4.trans (r4.trans s4)), p5.trans (q5.trans (r5.trans s5)),
    p6.trans (q6.trans (r6.trans s6)), p7.trans (q7.trans (r7.trans s7)), p8.trans (q8.trans (r8.trans s8))⟩

/-! ## The result -/

/-- After the whole line the result buffer holds the reference's value of the nine arguments' contents: the four
    stretches' results composed, each stretch reading the arguments as they were (no earlier stretch writes one). -/
theorem out_eq (V : Valuation τ sig (Elt F)) :
    after ops V (main_v94 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  simp only [ops, StableHlo.after_append]
  obtain ⟨-, -, -, -, -, -, r6, r7, r8⟩ := wB1_args (after wF V)
  obtain ⟨-, -, -, s3, s4, s5, s6, s7, s8⟩ := wF_args V
  rw [pool_eq, bn2_eq, bn1_eq, feat_eq, r6, r7, r8, s3, s4, s5, s6, s7, s8]
  rfl

/-- From any memory with zero counters every weakly fair execution of the reference terminates, nothing faulting, with
    the result at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v94) = refOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
      ⟨(h c main_v94).trans (out_eq _),
        (h c main_arg0).trans (ops_args _).1, (h c main_arg1).trans (ops_args _).2.1,
        (h c main_arg2).trans (ops_args _).2.2.1, (h c main_arg3).trans (ops_args _).2.2.2.1,
        (h c main_arg4).trans (ops_args _).2.2.2.2.1, (h c main_arg5).trans (ops_args _).2.2.2.2.2.1,
        (h c main_arg6).trans (ops_args _).2.2.2.2.2.2.1, (h c main_arg7).trans (ops_args _).2.2.2.2.2.2.2.1,
        (h c main_arg8).trans (ops_args _).2.2.2.2.2.2.2.2⟩)
    (run_ops m ρ)

end Cert.ReferenceIdeal.Ref

end
-- ==== Proof.RefFeatV.lean ====
/-
  The reference's nine masked features, read at a point and a feature: they are the network's.

  The feature array is a product of two arrays. The second is the mask: the slot's number compared, signed, with the
  pillar's count, as 0 or 1, the same for all nine features. The first is five pieces laid side by side along the
  feature axis: the point's first three channels, its fourth, its x and y less the pillar's centre, that centre, and the
  mean of the pillar's z over its 32 slots. The centre is read from two columns of the grid cells, chosen by the
  literal channel numbers 3 and 2 (on which the normalisation of negative indices changes nothing), converted, moved by
  one half, scaled by the cell's edge and shifted by the grid's origin. Each piece is a chain of slices and broadcasts,
  and each of those reads its operand at one index: the lemmas below name that index, operation by operation, and the
  theorem follows the chain for each of the nine features.
-/
import proofs.«133398_j52536039964809_1_alg».proof.Proof.Gen.ReferenceIdeal
import proofs.«133398_j52536039964809_1_alg».proof.Proof.RefTerm
import proofs.«133398_j52536039964809_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.ReduceAll
import Idealize.ShloMosaic.Lib.IdealHost

noncomputable section

open scoped BigOperators

namespace Cert.ReferenceIdeal.Ref

open Idealize.ShloMosaic Idealize.ShloMosaic.ValueIdx Cert.ReferenceIdeal Cert.ReferenceIdeal.Gen Cert.PFN

/-! ## The layout operations of the feature computation, read at an index -/

section Layout
variable {α : Type}

/-- A slice of the last axis at offset `o` reads the operand `o` further along that axis. -/
theorem slice_last {n m : Nat} (o : Nat) (x : (⟨4, ![4, 12000, 32, n]⟩ : Shape).Idx → α)
    (h : (⟨4, ![4, 12000, 32, n]⟩ : Shape).Slices ![0, 0, 0, o] ⟨4, ![4, 12000, 32, m]⟩)
    (b : Fin 4) (p : Fin 12000) (q : Fin 32) (c : Fin m) (c' : Fin n) (hc : c'.val = o + c.val) :
    extractStridedSlice ⟨4, ![4, 12000, 32, m]⟩ ![0, 0, 0, o] x h (ix4 b p q c) = x (ix4 b p q c') :=
  extractStridedSlice_apply _ x h _ _ fun a => match a with
    | ⟨0, _⟩ => (Nat.zero_add _).symm
    | ⟨1, _⟩ => (Nat.zero_add _).symm
    | ⟨2, _⟩ => (Nat.zero_add _).symm
    | ⟨3, _⟩ => hc

/-- A pair laid along the last of three axes reads its entry. -/
theorem bc_2_112 (h : S2.BroadcastsInDim S1x1x2 ![2]) (x : S2.Idx → α) (c : Fin 2) :
    broadcastInDim S1x1x2 ![2] h x (ix3 0 0 c) = x (ix1 c) :=
  broadcastInDim_apply _ h x _ _ fun a => match a with | ⟨0, _⟩ => rfl

/-- A [1, 1, 2] array spread over every pillar reads its entry. -/
theorem bc_112_bp2 (h : S1x1x2.BroadcastsInDim S4x12000x2 ![0, 1, 2]) (x : S1x1x2.Idx → α)
    (b : Fin 4) (p : Fin 12000) (c : Fin 2) :
    broadcastInDim S4x12000x2 ![0, 1, 2] h x (ix3 b p c) = x (ix3 0 0 c) :=
  broadcastInDim_apply _ h x _ _ fun a => match a with | ⟨0, _⟩ => rfl | ⟨1, _⟩ => rfl | ⟨2, _⟩ => rfl

/-- A per-pillar pair with a unit slot axis inserted reads the pair. -/
theorem bc_bp2_bp12 (h : S4x12000x2.BroadcastsInDim S4x12000x1x2 ![0, 1, 3]) (x : S4x12000x2.Idx → α)
    (b : Fin 4) (p : Fin 12000) (c : Fin 2) :
    broadcastInDim S4x12000x1x2 ![0, 1, 3] h x (ix4 b p 0 c) = x (ix3 b p c) :=
  broadcastInDim_apply _ h x _ _ fun a => match a with | ⟨0, _⟩ => rfl | ⟨1, _⟩ => rfl | ⟨2, _⟩ => rfl

/-- A per-pillar pair spread over the 32 slots reads the pillar's. -/
theorem bc_bp12_bpq2 (h : S4x12000x1x2.BroadcastsInDim S4x12000x32x2 ![0, 1, 2, 3]) (x : S4x12000x1x2.Idx → α)
    (b : Fin 4) (p : Fin 12000) (q : Fin 32) (c : Fin 2) :
    broadcastInDim S4x12000x32x2 ![0, 1, 2, 3] h x (ix4 b p q c) = x (ix4 b p 0 c) :=
  broadcastInDim_apply _ h x _ _ fun a => match a with | ⟨0, _⟩ => rfl | ⟨1, _⟩ => rfl | ⟨2, _⟩ => rfl | ⟨3, _⟩ => rfl

/-- A per-pillar number with a unit slot axis inserted reads the number. -/
theorem bc_bp1_bp11 (h : S4x12000x1.BroadcastsInDim S4x12000x1x1 ![0, 1, 3]) (x : S4x12000x1.Idx → α)
    (b : Fin 4) (p : Fin 12000) :
    broadcastInDim S4x12000x1x1 ![0, 1, 3] h x (ix4 b p 0 0) = x (ix3 b p 0) :=
  broadcastInDim_apply _ h x _ _ fun a => match a with | ⟨0, _⟩ => rfl | ⟨1, _⟩ => rfl | ⟨2, _⟩ => rfl

/-- A per-pillar number spread over the 32 slots reads the pillar's. -/
theorem bc_bp11_bpq1 (h : S4x12000x1x1.BroadcastsInDim S4x12000x32x1 ![0, 1, 2, 3]) (x : S4x12000x1x1.Idx → α)
    (b : Fin 4) (p : Fin 12000) (q : Fin 32) :
    broadcastInDim S4x12000x32x1 ![0, 1, 2, 3] h x (ix4 b p q 0) = x (ix4 b p 0 0) :=
  broadcastInDim_apply _ h x _ _ fun a => match a with | ⟨0, _⟩ => rfl | ⟨1, _⟩ => rfl | ⟨2, _⟩ => rfl | ⟨3, _⟩ => rfl

/-- The slot numbers laid along the slot axis read the slot's. -/
theorem bc_32_11q1 (h : S32.BroadcastsInDim S1x1x32x1 ![2]) (x : S32.Idx → α) (q : Fin 32) :
    broadcastInDim S1x1x32x1 ![2] h x (ix4 0 0 q 0) = x (ix1 q) :=
  broadcastInDim_apply _ h x _ _ fun a => match a with | ⟨0, _⟩ => rfl

/-- A per-pillar word with two unit axes appended reads the pillar's. -/
theorem bc_bp_bp11 (h : S4x12000.BroadcastsInDim S4x12000x1x1 ![0, 1]) (x : S4x12000.Idx → α)
    (b : Fin 4) (p : Fin 12000) :
    broadcastInDim S4x12000x1x1 ![0, 1] h x (ix4 b p 0 0) = x (ix2 b p) :=
  broadcastInDim_apply _ h x _ _ fun a => match a with | ⟨0, _⟩ => rfl | ⟨1, _⟩ => rfl

/-- A per-slot word spread over every pillar reads the slot's. -/
theorem bc_11q1_bpq1 (h : S1x1x32x1.BroadcastsInDim S4x12000x32x1 ![0, 1, 2, 3]) (x : S1x1x32x1.Idx → α)
    (b : Fin 4) (p : Fin 12000) (q : Fin 32) :
    broadcastInDim S4x12000x32x1 ![0, 1, 2, 3] h x (ix4 b p q 0) = x (ix4 0 0 q 0) :=
  broadcastInDim_apply _ h x _ _ fun a => match a with | ⟨0, _⟩ => rfl | ⟨1, _⟩ => rfl | ⟨2, _⟩ => rfl | ⟨3, _⟩ => rfl

/-- A per-point number spread over the nine features reads the point's. -/
theorem bc_bpq1_bpq9 (h : S4x12000x32x1.BroadcastsInDim S4x12000x32x9 ![0, 1, 2, 3]) (x : S4x12000x32x1.Idx → α)
    (b : Fin 4) (p : Fin 12000) (q : Fin 32) (k : Fin 9) :
    broadcastInDim S4x12000x32x9 ![0, 1, 2, 3] h x (ix4 b p q k) = x (ix4 b p q 0) :=
  broadcastInDim_apply _ h x _ _ fun a => match a with | ⟨0, _⟩ => rfl | ⟨1, _⟩ => rfl | ⟨2, _⟩ => rfl | ⟨3, _⟩ => rfl

/-- A pair as a [2, 1] column reads its entry. -/
theorem bc_2_21 (h : S2.BroadcastsInDim S2x1 ![0]) (x : S2.Idx → α) (c : Fin 2) :
    broadcastInDim S2x1 ![0] h x (ix2 c 0) = x (ix1 c) :=
  broadcastInDim_apply _ h x _ _ fun a => match a with | ⟨0, _⟩ => rfl

end Layout

/-! ## The gather of two columns of the grid cells -/

/-- The reference's gather (both pillar axes kept whole, the channel axis collapsed and indexed by a [2, 1] column of
    start indices) reads, at pillar (b, p) and result column `c`, the cell array at channel `idx[c, 0]`, read signed
    and clamped into the four channels. -/
theorem gather_cols (coords : IVec S4x12000x4 32) (idx : IVec S2x1 32) (b : Fin 4) (p : Fin 12000) (c : Fin 2) :
    Host.gather gather_S4x12000x4_S2x1_S4x12000x2_01_2_n_n_2_1_4120001 coords idx (ix3 b p c)
      = coords (ix3 b p ⟨min (idx (ix2 c 0)).toInt.toNat 3, by omega⟩) := by
  unfold Host.gather
  congr 1
  funext a
  refine Fin.ext ?_
  match a with
  | ⟨0, _⟩ => show 0 + 0 + b.val = b.val; omega
  | ⟨1, _⟩ => show 0 + 0 + p.val = p.val; omega
  | ⟨2, _⟩ =>
    show min (idx _).toInt.toNat 3 = min (idx (ix2 c 0)).toInt.toNat 3
    congr 4
    funext e
    match e with
    | ⟨0, _⟩ => rfl
    | ⟨1, _⟩ => rfl

/-! ## The five-piece concatenation along the feature axis, piece by piece -/

section Cat
variable {α : Type}
variable (x0 : S4x12000x32x3.Idx → α) (x1 : S4x12000x32x1.Idx → α) (x2 x3 : S4x12000x32x2.Idx → α)
  (x4 : S4x12000x32x1.Idx → α)
  (h : Shape.Concatenates [S4x12000x32x3, S4x12000x32x1, S4x12000x32x2, S4x12000x32x2, S4x12000x32x1] S4x12000x32x9 3)
  (b : Fin 4) (p : Fin 12000) (q : Fin 32) (k : Fin 9)

/-- Features 0, 1, 2 are the first piece's. -/
theorem cat_piece0 (c : Fin 3) (hk : k.val = c.val) :
    concatenate S4x12000x32x9 3 [⟨S4x12000x32x3, x0⟩, ⟨S4x12000x32x1, x1⟩, ⟨S4x12000x32x2, x2⟩, ⟨S4x12000x32x2, x3⟩,
      ⟨S4x12000x32x1, x4⟩] h (ix4 b p q k) = x0 (ix4 b p q c) :=
  concatenate_apply_piece (t := S4x12000x32x9) 3
    [⟨S4x12000x32x3, x0⟩, ⟨S4x12000x32x1, x1⟩, ⟨S4x12000x32x2, x2⟩, ⟨S4x12000x32x2, x3⟩, ⟨S4x12000x32x1, x4⟩]
    h (ix4 b p q k) 0 (by simp) _ x0 rfl rfl 0 rfl (ix4 b p q c)
    (fun e he => match e, he with
      | ⟨0, _⟩, _ => rfl | ⟨1, _⟩, _ => rfl | ⟨2, _⟩, _ => rfl | ⟨3, _⟩, he => absurd rfl he)
    (by show 0 + c.val = k.val; omega)

/-- Feature 3 is the second piece's one column. -/
theorem cat_piece1 (c : Fin 1) (hk : k.val = 3 + c.val) :
    concatenate S4x12000x32x9 3 [⟨S4x12000x32x3, x0⟩, ⟨S4x12000x32x1, x1⟩, ⟨S4x12000x32x2, x2⟩, ⟨S4x12000x32x2, x3⟩,
      ⟨S4x12000x32x1, x4⟩] h (ix4 b p q k) = x1 (ix4 b p q c) :=
  concatenate_apply_piece (t := S4x12000x32x9) 3
    [⟨S4x12000x32x3, x0⟩, ⟨S4x12000x32x1, x1⟩, ⟨S4x12000x32x2, x2⟩, ⟨S4x12000x32x2, x3⟩, ⟨S4x12000x32x1, x4⟩]
    h (ix4 b p q k) 1 (by simp) _ x1 rfl rfl 3 rfl (ix4 b p q c)
    (fun e he => match e, he with
      | ⟨0, _⟩, _ => rfl | ⟨1, _⟩, _ => rfl | ⟨2, _⟩, _ => rfl | ⟨3, _⟩, he => absurd rfl he)
    (by show 3 + c.val = k.val; omega)

/-- Features 4, 5 are the third piece's. -/
theorem cat_piece2 (c : Fin 2) (hk : k.val = 4 + c.val) :
    concatenate S4x12000x32x9 3 [⟨S4x12000x32x3, x0⟩, ⟨S4x12000x32x1, x1⟩, ⟨S4x12000x32x2, x2⟩, ⟨S4x12000x32x2, x3⟩,
      ⟨S4x12000x32x1, x4⟩] h (ix4 b p q k) = x2 (ix4 b p q c) :=
  concatenate_apply_piece (t := S4x12000x32x9) 3
    [⟨S4x12000x32x3, x0⟩, ⟨S4x12000x32x1, x1⟩, ⟨S4x12000x32x2, x2⟩, ⟨S4x12000x32x2, x3⟩, ⟨S4x12000x32x1, x4⟩]
    h (ix4 b p q k) 2 (by simp) _ x2 rfl rfl 4 rfl (ix4 b p q c)
    (fun e he => match e, he with
      | ⟨0, _⟩, _ => rfl | ⟨1, _⟩, _ => rfl | ⟨2, _⟩, _ => rfl | ⟨3, _⟩, he => absurd rfl he)
    (by show 4 + c.val = k.val; omega)

/-- Features 6, 7 are the fourth piece's. -/
theorem cat_piece3 (c : Fin 2) (hk : k.val = 6 + c.val) :
    concatenate S4x12000x32x9 3 [⟨S4x12000x32x3, x0⟩, ⟨S4x12000x32x1, x1⟩, ⟨S4x12000x32x2, x2⟩, ⟨S4x12000x32x2, x3⟩,
      ⟨S4x12000x32x1, x4⟩] h (ix4 b p q k) = x3 (ix4 b p q c) :=
  concatenate_apply_piece (t := S4x12000x32x9) 3
    [⟨S4x12000x32x3, x0⟩, ⟨S4x12000x32x1, x1⟩, ⟨S4x12000x32x2, x2⟩, ⟨S4x12000x32x2, x3⟩, ⟨S4x12000x32x1, x4⟩]
    h (ix4 b p q k) 3 (by simp) _ x3 rfl rfl 6 rfl (ix4 b p q c)
    (fun e he => match e, he with
      | ⟨0, _⟩, _ => rfl | ⟨1, _⟩, _ => rfl | ⟨2, _⟩, _ => rfl | ⟨3, _⟩, he => absurd rfl he)
    (by show 6 + c.val = k.val; omega)

/-- Feature 8 is the fifth piece's one column. -/
theorem cat_piece4 (c : Fin 1) (hk : k.val = 8 + c.val) :
    concatenate S4x12000x32x9 3 [⟨S4x12000x32x3, x0⟩, ⟨S4x12000x32x1, x1⟩, ⟨S4x12000x32x2, x2⟩, ⟨S4x12000x32x2, x3⟩,
      ⟨S4x12000x32x1, x4⟩] h (ix4 b p q k) = x4 (ix4 b p q c) :=
  concatenate_apply_piece (t := S4x12000x32x9) 3
    [⟨S4x12000x32x3, x0⟩, ⟨S4x12000x32x1, x1⟩, ⟨S4x12000x32x2, x2⟩, ⟨S4x12000x32x2, x3⟩, ⟨S4x12000x32x1, x4⟩]
    h (ix4 b p q k) 4 (by simp) _ x4 rfl rfl 8 rfl (ix4 b p q c)
    (fun e he => match e, he with
      | ⟨0, _⟩, _ => rfl | ⟨1, _⟩, _ => rfl | ⟨2, _⟩, _ => rfl | ⟨3, _⟩, he => absurd rfl he)
    (by show 8 + c.val = k.val; omega)

end Cat

/-! ## The sum over a pillar's slots -/

/-- The host's sum over the slot axis of a [4, 12000, 32, 1] array, at pillar (b, p): the initial value plus the sum
    over the 32 slots. -/
theorem sum_slots (x : FVec Ideal S4x12000x32x1 .f32) (init : FVec Ideal S_ .f32)
    (h : S4x12000x32x1.ReducesTo [2] S4x12000x1) (hu : 0 < S_.numel) (b : Fin 4) (p : Fin 12000) :
    Host.reduceAdd x init h hu (ix3 b p 0) = (init ix0 + ∑ q : Fin 32, x (ix4 b p q 0) : EReal) := by
  have hr : S4x12000x32x1.Reduces [2] S4x12000x1 := by decide
  rw [hostReduceAdd_apply, Ideal.hostReduceAdd_single h hr, eq_ix0 (Shape.Idx.first hu)]
  refine congrArg (init ix0 + ·) (Finset.sum_congr rfl fun q _ => congrArg x (funext fun a => ?_))
  match a with
  | ⟨0, _⟩ => rfl
  | ⟨1, _⟩ => rfl
  | ⟨2, _⟩ => rfl
  | ⟨3, _⟩ => rfl

/-! ## The integer operations at an index -/

/-- An integer comparison at an index compares the elements. -/
theorem cmpi_at {s : Shape} {w : Nat} (pr : CmpIPredicate) (x y : IVec s w) (i : s.Idx) :
    cmpi pr x y i = IntOp.cmpi pr (x i) (y i) := rfl

/-- An unsigned conversion at an index, at the ideal values, is the element's natural number. -/
theorem uitofp_at {s : Shape} {w : Nat} (x : IVec s w) (i : s.Idx) :
    (uitofp .f32 x : FVec Ideal s .f32) i = (((x i).toNat : ℝ) : EReal) := rfl

/-- A signed conversion at an index, at the ideal values, is the element's integer. -/
theorem sitofp_at {s : Shape} {w : Nat} (x : IVec s w) (i : s.Idx) :
    (sitofp .f32 x : FVec Ideal s .f32) i = (((x i).toInt : ℝ) : EReal) := rfl

/-! ## The features -/

/-- The reference's feature array at point (b, p, q) and feature k is the network's feature. -/
theorem refFeat_apply (vox : SVox.Idx → EReal) (coords : SCoord.Idx → BitVec 32) (npts : SNpts.Idx → BitVec 32)
    (b : Fin 4) (p : Fin 12000) (q : Fin 32) (k : Fin 9) :
    refFeat (F := Ideal) vox coords npts (ix4 b p q k) = feat vox coords npts b p q k := by
  unfold refFeat
  refine (mulf_apply _ _ _).trans ?_
  unfold feat
  refine congrArg₂ (· * ·) ?_ ?_
  · -- the nine features before the mask, piece by piece
    match k with
    -- features 0 to 3: the point's own four channels, through one or two slices
    | ⟨0, _⟩ =>
      rw [cat_piece0 _ _ _ _ _ _ b p q (⟨0, by decide⟩ : Fin 9) 0 rfl, slice_last 0 _ _ b p q (0 : Fin 3) (0 : Fin 4) rfl]
      rfl
    | ⟨1, _⟩ =>
      rw [cat_piece0 _ _ _ _ _ _ b p q (⟨1, by decide⟩ : Fin 9) 1 rfl, slice_last 0 _ _ b p q (1 : Fin 3) (1 : Fin 4) rfl]
      rfl
    | ⟨2, _⟩ =>
      rw [cat_piece0 _ _ _ _ _ _ b p q (⟨2, by decide⟩ : Fin 9) 2 rfl, slice_last 0 _ _ b p q (2 : Fin 3) (2 : Fin 4) rfl]
      rfl
    | ⟨3, _⟩ =>
      rw [cat_piece1 _ _ _ _ _ _ b p q (⟨3, by decide⟩ : Fin 9) 0 rfl, slice_last 3 _ _ b p q (0 : Fin 1) (3 : Fin 4) rfl]
      rfl
    -- features 4 and 5: x and y less the centre; the centre's start index, computed on the literal channel numbers
    -- 3 and 2, is that number, and the two dense constants read their entries
    | ⟨4, _⟩ =>
      rw [cat_piece2 _ _ _ _ _ _ b p q (⟨4, by decide⟩ : Fin 9) 0 rfl, subf_apply,
        slice_last 0 _ _ b p q (0 : Fin 2) (0 : Fin 3) rfl, slice_last 0 _ _ b p q (0 : Fin 3) (0 : Fin 4) rfl,
        bc_bp12_bpq2, bc_bp2_bp12, addf_apply, mulf_apply, addf_apply, bc_112_bp2, bc_2_112, bc_112_bp2, bc_2_112,
        broadcastInDim_scalar_apply, sitofp_at, gather_cols]
      rfl
    | ⟨5, _⟩ =>
      rw [cat_piece2 _ _ _ _ _ _ b p q (⟨5, by decide⟩ : Fin 9) 1 rfl, subf_apply,
        slice_last 0 _ _ b p q (1 : Fin 2) (1 : Fin 3) rfl, slice_last 0 _ _ b p q (1 : Fin 3) (1 : Fin 4) rfl,
        bc_bp12_bpq2, bc_bp2_bp12, addf_apply, mulf_apply, addf_apply, bc_112_bp2, bc_2_112, bc_112_bp2, bc_2_112,
        broadcastInDim_scalar_apply, sitofp_at, gather_cols]
      rfl
    -- features 6 and 7: the centre itself
    | ⟨6, _⟩ =>
      rw [cat_piece3 _ _ _ _ _ _ b p q (⟨6, by decide⟩ : Fin 9) 0 rfl,
        bc_bp12_bpq2, bc_bp2_bp12, addf_apply, mulf_apply, addf_apply, bc_112_bp2, bc_2_112, bc_112_bp2, bc_2_112,
        broadcastInDim_scalar_apply, sitofp_at, gather_cols]
      rfl
    | ⟨7, _⟩ =>
      rw [cat_piece3 _ _ _ _ _ _ b p q (⟨7, by decide⟩ : Fin 9) 1 rfl,
        bc_bp12_bpq2, bc_bp2_bp12, addf_apply, mulf_apply, addf_apply, bc_112_bp2, bc_2_112, bc_112_bp2, bc_2_112,
        broadcastInDim_scalar_apply, sitofp_at, gather_cols]
      rfl
    -- feature 8: the sum of z over the 32 slots from the initial value 0, divided by 32
    | ⟨8, _⟩ =>
      rw [cat_piece4 _ _ _ _ _ _ b p q (⟨8, by decide⟩ : Fin 9) 0 rfl, bc_bp11_bpq1, hostDivf_apply, bc_bp1_bp11, sum_slots,
        broadcastInDim_scalar_apply]
      refine congrArg₂ Ideal.div ?_ rfl
      refine (congrArg₂ (· + ·) Ideal.ofBits_zero_f32 (Finset.sum_congr rfl fun q' _ => ?_)).trans (zero_add _)
      rw [slice_last 2 _ _ b p q' (0 : Fin 1) (2 : Fin 3) rfl, slice_last 0 _ _ b p q' (2 : Fin 3) (2 : Fin 4) rfl]
  · -- the mask: slot number below the pillar's count, as 0 or 1
    rw [bc_bpq1_bpq9, uitofp_at, cmpi_at, bc_11q1_bpq1, bc_32_11q1, bc_bp11_bpq1, bc_bp_bp11]
    rfl

end Cert.ReferenceIdeal.Ref

end
-- ==== Proof.RefNet.lean ====
/-
  The reference's value is the network with the variance as the mean of the squared deviations: its two contractions
  are the two linear layers, its normalisation takes the mean and that variance of its own operand over all points, and its
  last reduction is the maximum over a pillar's slots.
-/
import proofs.«133398_j52536039964809_1_alg».proof.Proof.Gen.ReferenceIdeal
import proofs.«133398_j52536039964809_1_alg».proof.Proof.RefTerm
import proofs.«133398_j52536039964809_1_alg».proof.Proof.Spec
import proofs.«133398_j52536039964809_1_alg».proof.Proof.RefFeatV
import Idealize.ShloMosaic.Lib.ValueIdx
import Idealize.ShloMosaic.Lib.ValueLayout
import Idealize.ShloMosaic.Lib.Pipeline.Value
import Idealize.ShloMosaic.PureOps.Ideal.Laws
import Idealize.ShloMosaic.Lib.ReduceAll
import Idealize.ShloMosaic.Lib.IdealHost

noncomputable section

open scoped BigOperators

namespace Cert.ReferenceIdeal.Ref

open Idealize.ShloMosaic Idealize.ShloMosaic.ValueIdx Cert.ReferenceIdeal Cert.ReferenceIdeal.Gen Cert.PFN

/-- An activation array as a function of batch entry, pillar, slot and channel. -/
abbrev actOf (x : S4x12000x32x64.Idx → EReal) : Act := fun b p q o => x (ix4 b p q o)

/-! ## The sum over all points of one channel -/

/-- A rank-4 index set is the product of its four coordinate ranges … -/
private def idxEquiv4 {n0 n1 n2 n3 : Nat} : (⟨4, ![n0, n1, n2, n3]⟩ : Shape).Idx ≃ Fin n0 × Fin n1 × Fin n2 × Fin n3 where
  toFun i := (i 0, i 1, i 2, i 3)
  invFun t := ix4 t.1 t.2.1 t.2.2.1 t.2.2.2
  left_inv i := (eq_ix4 i).symm
  right_inv _ := rfl

/-- … so a sum over it is the fourfold sum over the coordinates. -/
private theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Dropping batch entry, pillar and slot of (b, p, q, o) leaves the channel o. -/
private theorem drop_ix4 (h : S4x12000x32x64.ReducesTo [0, 1, 2] S64) (b : Fin 4) (p : Fin 12000) (q : Fin 32) (o : Fin 64) :
    h.drop (ix4 b p q o) = ix1 o := by
  funext a
  match a with
  | ⟨0, _⟩ => rfl

/-- The reduction over batch entry, pillar and slot, at channel o: the initial value plus the sum over all points. -/
theorem hostReduceAdd_points (h : S4x12000x32x64.ReducesTo [0, 1, 2] S64) (x : S4x12000x32x64.Idx → EReal) (init : EReal)
    (o : Fin 64) : Ideal.hostReduceAdd h x init (ix1 o) = init + tot (actOf x) o := by
  unfold Ideal.hostReduceAdd tot
  rw [Finset.sum_filter, sum_idx4]
  refine congrArg (init + ·) ?_
  refine Finset.sum_congr rfl fun b _ => Finset.sum_congr rfl fun p _ => Finset.sum_congr rfl fun q _ => ?_
  -- among the channels o' only o' = o drops to o
  have hd : ∀ o' : Fin 64, (if h.drop (ix4 b p q o') = ix1 o then x (ix4 b p q o') else 0)
      = if o' = o then x (ix4 b p q o') else 0 := fun o' => by
    rw [drop_ix4]
    by_cases ho : o' = o
    · rw [if_pos ho, if_pos (by rw [ho])]
    · rw [if_neg ho, if_neg (fun e => ho (by have := congrFun e 0; exact this))]
  rw [Finset.sum_congr rfl (fun o' _ => hd o'), Finset.sum_ite_eq' Finset.univ o, if_pos (Finset.mem_univ _)]

/-! ## The normalisation read at a point and a channel -/

/-- A per-channel array broadcast over all points reads, at a point, its channel's entry. -/
private theorem bcast_channel_apply {α : Type} (h1 : S64.BroadcastsInDim S1x1x1x64 (![3] : Fin 1 → Fin S1x1x1x64.rank))
    (h2 : S1x1x1x64.BroadcastsInDim S4x12000x32x64 (![0, 1, 2, 3] : Fin 4 → Fin S4x12000x32x64.rank))
    (y : S64.Idx → α) (b : Fin 4) (p : Fin 12000) (q : Fin 32) (o : Fin 64) :
    broadcastInDim S4x12000x32x64 ![0, 1, 2, 3] h2 (broadcastInDim S1x1x1x64 ![3] h1 y) (ix4 b p q o) = y (ix1 o) := by
  rw [broadcastInDim_apply ![0, 1, 2, 3] h2 _ (ix4 b p q o) (ix4 (0 : Fin 1) (0 : Fin 1) (0 : Fin 1) o) (fun a => by
    match a with
    | ⟨0, _⟩ => rfl
    | ⟨1, _⟩ => rfl
    | ⟨2, _⟩ => rfl
    | ⟨3, _⟩ => rfl)]
  exact broadcastInDim_apply ![3] h1 y (ix4 (0 : Fin 1) (0 : Fin 1) (0 : Fin 1) o) (ix1 o) (fun a => by
    match a with
    | ⟨0, _⟩ => rfl)

/-- The sum over all points from the zero word, divided by the number of points, is the mean. -/
theorem refMean_apply (h : S4x12000x32x64.ReducesTo [0, 1, 2] S64) (hu : 0 < S_.numel)
    (hb : S_.BroadcastsInDim S64 (![] : Fin 0 → Fin S64.rank)) (x : S4x12000x32x64.Idx → EReal) (o : Fin 64) :
    Host.divf (Host.reduceAdd (F := Ideal) x (constant (F := Ideal) S_ .f32 0x00000000#32) h hu)
      (broadcastInDim S64 ![] hb (constant (F := Ideal) S_ .f32 0x49BB8000#32)) (ix1 o) = mean (actOf x) o := by
  rw [hostDivf_apply, hostReduceAdd_apply, broadcastInDim_scalar_apply, hostReduceAdd_points, constant_apply, constant_apply,
    Ideal.ofBits_zero_f32, zero_add]
  rfl

/-- The host's reciprocal square root at an index is the extended reals'. -/
private theorem hostRsqrt_apply {s : Shape} {φ : FTy} (x : FVec Ideal s φ) (i : s.Idx) : Host.rsqrt x i = Ideal.rsqrt (x i) := rfl

/-- The operand minus its broadcast mean, squared, is the squared deviation at every point. -/
theorem refSqDev_eq (h1 : S64.BroadcastsInDim S1x1x1x64 (![3] : Fin 1 → Fin S1x1x1x64.rank))
    (h2 : S1x1x1x64.BroadcastsInDim S4x12000x32x64 (![0, 1, 2, 3] : Fin 4 → Fin S4x12000x32x64.rank))
    (h : S4x12000x32x64.ReducesTo [0, 1, 2] S64) (hu : 0 < S_.numel)
    (hb : S_.BroadcastsInDim S64 (![] : Fin 0 → Fin S64.rank)) (x : S4x12000x32x64.Idx → EReal) :
    actOf (mulf
        (subf x (broadcastInDim S4x12000x32x64 ![0, 1, 2, 3] h2 (broadcastInDim S1x1x1x64 ![3] h1
          (Host.divf (Host.reduceAdd (F := Ideal) x (constant (F := Ideal) S_ .f32 0x00000000#32) h hu)
            (broadcastInDim S64 ![] hb (constant (F := Ideal) S_ .f32 0x49BB8000#32))))))
        (subf x (broadcastInDim S4x12000x32x64 ![0, 1, 2, 3] h2 (broadcastInDim S1x1x1x64 ![3] h1
          (Host.divf (Host.reduceAdd (F := Ideal) x (constant (F := Ideal) S_ .f32 0x00000000#32) h hu)
            (broadcastInDim S64 ![] hb (constant (F := Ideal) S_ .f32 0x49BB8000#32)))))))
      = PFN.sq (dev (actOf x)) := by
  funext b p q o
  show mulf _ _ (ix4 b p q o) = _
  rw [mulf_apply, subf_apply, bcast_channel_apply, refMean_apply]
  rfl

/-- The reference's normalisation at a point and a channel: the mean and the variance of the operand itself. -/
theorem refBN_apply (x : S4x12000x32x64.Idx → EReal) (g be : SC.Idx → EReal) (b : Fin 4) (p : Fin 12000) (q : Fin 32) (o : Fin 64) :
    refBN (F := Ideal) x g be (ix4 b p q o) = bnrelu (actOf x) (mean (actOf x)) (varR (actOf x)) g be b p q o := by
  unfold refBN
  -- the pointwise operations at the point, then the four per-channel arrays broadcast over the points
  simp only [maximumf_apply, addf_apply, mulf_apply, subf_apply]
  rw [bcast_channel_apply, bcast_channel_apply, bcast_channel_apply, bcast_channel_apply]
  -- the mean; the variance is the mean of the squared deviations; the two scalars
  rw [hostRsqrt_apply, addf_apply, refMean_apply, refMean_apply, refSqDev_eq, broadcastInDim_scalar_apply,
    broadcastInDim_scalar_apply, constant_apply, constant_apply]
  rfl

/-! ## The two contractions read at a point and a channel

The left operand's index at output index (b, p, q, o) and contraction position k is (b, p, q, k); the right operand's is
(k, o). One lemma per operand axis. -/

private theorem lhs_d1_0 (i : S4x12000x32x64.Idx) (k : dot_S4x12000x32x9_S9x64_S4x12000x32x64_3_0_012_1_n_n.contr.Idx) :
    (dot_S4x12000x32x9_S9x64_S4x12000x32x64_3_0_012_1_n_n.lhsIdx i k 0).val = (i 0).val := by
  unfold DotDims.lhsIdx
  rw [dif_neg (show ¬(0 : Fin S4x12000x32x9.rank) ∈ dot_S4x12000x32x9_S9x64_S4x12000x32x64_3_0_012_1_n_n.lhsBatch by decide),
    dif_pos (show (0 : Fin S4x12000x32x9.rank) ∈ dot_S4x12000x32x9_S9x64_S4x12000x32x64_3_0_012_1_n_n.lhsNonContracting by decide)]
  rfl

private theorem lhs_d1_1 (i : S4x12000x32x64.Idx) (k : dot_S4x12000x32x9_S9x64_S4x12000x32x64_3_0_012_1_n_n.contr.Idx) :
    (dot_S4x12000x32x9_S9x64_S4x12000x32x64_3_0_012_1_n_n.lhsIdx i k 1).val = (i 1).val := by
  unfold DotDims.lhsIdx
  rw [dif_neg (show ¬(1 : Fin S4x12000x32x9.rank) ∈ dot_S4x12000x32x9_S9x64_S4x12000x32x64_3_0_012_1_n_n.lhsBatch by decide),
    dif_pos (show (1 : Fin S4x12000x32x9.rank) ∈ dot_S4x12000x32x9_S9x64_S4x12000x32x64_3_0_012_1_n_n.lhsNonContracting by decide)]
  rfl

private theorem lhs_d1_2 (i : S4x12000x32x64.Idx) (k : dot_S4x12000x32x9_S9x64_S4x12000x32x64_3_0_012_1_n_n.contr.Idx) :
    (dot_S4x12000x32x9_S9x64_S4x12000x32x64_3_0_012_1_n_n.lhsIdx i k 2).val = (i 2).val := by
  unfold DotDims.lhsIdx
  rw [dif_neg (show ¬(2 : Fin S4x12000x32x9.rank) ∈ dot_S4x12000x32x9_S9x64_S4x12000x32x64_3_0_012_1_n_n.lhsBatch by decide),
    dif_pos (show (2 : Fin S4x12000x32x9.rank) ∈ dot_S4x12000x32x9_S9x64_S4x12000x32x64_3_0_012_1_n_n.lhsNonContracting by decide)]
  rfl

private theorem lhs_d1_3 (i : S4x12000x32x64.Idx) (k : dot_S4x12000x32x9_S9x64_S4x12000x32x64_3_0_012_1_n_n.contr.Idx) :
    (dot_S4x12000x32x9_S9x64_S4x12000x32x64_3_0_012_1_n_n.lhsIdx i k 3).val = (k ⟨0, by decide⟩).val :=
  dot_S4x12000x32x9_S9x64_S4x12000x32x64_3_0_012_1_n_n.lhsIdx_val_of_single rfl i k

private theorem rhs_d1_0 (i : S4x12000x32x64.Idx) (k : dot_S4x12000x32x9_S9x64_S4x12000x32x64_3_0_012_1_n_n.contr.Idx) :
    (dot_S4x12000x32x9_S9x64_S4x12000x32x64_3_0_012_1_n_n.rhsIdx i k 0).val = (k ⟨0, by decide⟩).val :=
  dot_S4x12000x32x9_S9x64_S4x12000x32x64_3_0_012_1_n_n.rhsIdx_val_of_single rfl i k

private theorem rhs_d1_1 (i : S4x12000x32x64.Idx) (k : dot_S4x12000x32x9_S9x64_S4x12000x32x64_3_0_012_1_n_n.contr.Idx) :
    (dot_S4x12000x32x9_S9x64_S4x12000x32x64_3_0_012_1_n_n.rhsIdx i k 1).val = (i 3).val := by
  unfold DotDims.rhsIdx
  rw [dif_neg (show ¬(1 : Fin S9x64.rank) ∈ dot_S4x12000x32x9_S9x64_S4x12000x32x64_3_0_012_1_n_n.rhsBatch by decide),
    dif_pos (show (1 : Fin S9x64.rank) ∈ dot_S4x12000x32x9_S9x64_S4x12000x32x64_3_0_012_1_n_n.rhsNonContracting by decide)]
  rfl

/-- The first contraction: over the nine features. -/
theorem dotLin1_apply (l : S4x12000x32x9.Idx → EReal) (w : S9x64.Idx → EReal) (b : Fin 4) (p : Fin 12000) (q : Fin 32) (o : Fin 64) :
    Host.dotGeneral (F := Ideal) (φ₁ := .f32) (φ₂ := .f32) dot_S4x12000x32x9_S9x64_S4x12000x32x64_3_0_012_1_n_n none l w (ix4 b p q o)
      = ∑ k : Fin 9, l (ix4 b p q k) * w (ix2 k o) := by
  simp only [Host.dotGeneral]
  rw [Ideal.dotGeneral_apply, ← Equiv.sum_comp (contrEquiv1 dot_S4x12000x32x9_S9x64_S4x12000x32x64_3_0_012_1_n_n 9 rfl rfl).symm]
  refine Finset.sum_congr rfl fun k _ => ?_
  have hk := contrEquiv1_symm_val dot_S4x12000x32x9_S9x64_S4x12000x32x64_3_0_012_1_n_n 9 rfl rfl k
  have el : dot_S4x12000x32x9_S9x64_S4x12000x32x64_3_0_012_1_n_n.lhsIdx (ix4 b p q o) ((contrEquiv1 dot_S4x12000x32x9_S9x64_S4x12000x32x64_3_0_012_1_n_n 9 rfl rfl).symm k) = ix4 b p q k :=
    funext fun a => Fin.ext (by
      match a with
      | ⟨0, _⟩ => exact lhs_d1_0 _ _
      | ⟨1, _⟩ => exact lhs_d1_1 _ _
      | ⟨2, _⟩ => exact lhs_d1_2 _ _
      | ⟨3, _⟩ => exact (lhs_d1_3 _ _).trans hk)
  have er : dot_S4x12000x32x9_S9x64_S4x12000x32x64_3_0_012_1_n_n.rhsIdx (ix4 b p q o) ((contrEquiv1 dot_S4x12000x32x9_S9x64_S4x12000x32x64_3_0_012_1_n_n 9 rfl rfl).symm k) = ix2 k o :=
    funext fun a => Fin.ext (by
      match a with
      | ⟨0, _⟩ => exact (rhs_d1_0 _ _).trans hk
      | ⟨1, _⟩ => exact rhs_d1_1 _ _)
  rw [el, er]

private theorem lhs_d2_0 (i : S4x12000x32x64.Idx) (k : dot_S4x12000x32x64_S64x64_S4x12000x32x64_3_0_012_1_n_n.contr.Idx) :
    (dot_S4x12000x32x64_S64x64_S4x12000x32x64_3_0_012_1_n_n.lhsIdx i k 0).val = (i 0).val := by
  unfold DotDims.lhsIdx
  rw [dif_neg (show ¬(0 : Fin S4x12000x32x64.rank) ∈ dot_S4x12000x32x64_S64x64_S4x12000x32x64_3_0_012_1_n_n.lhsBatch by decide),
    dif_pos (show (0 : Fin S4x12000x32x64.rank) ∈ dot_S4x12000x32x64_S64x64_S4x12000x32x64_3_0_012_1_n_n.lhsNonContracting by decide)]
  rfl

private theorem lhs_d2_1 (i : S4x12000x32x64.Idx) (k : dot_S4x12000x32x64_S64x64_S4x12000x32x64_3_0_012_1_n_n.contr.Idx) :
    (dot_S4x12000x32x64_S64x64_S4x12000x32x64_3_0_012_1_n_n.lhsIdx i k 1).val = (i 1).val := by
  unfold DotDims.lhsIdx
  rw [dif_neg (show ¬(1 : Fin S4x12000x32x64.rank) ∈ dot_S4x12000x32x64_S64x64_S4x12000x32x64_3_0_012_1_n_n.lhsBatch by decide),
    dif_pos (show (1 : Fin S4x12000x32x64.rank) ∈ dot_S4x12000x32x64_S64x64_S4x12000x32x64_3_0_012_1_n_n.lhsNonContracting by decide)]
  rfl

private theorem lhs_d2_2 (i : S4x12000x32x64.Idx) (k : dot_S4x12000x32x64_S64x64_S4x12000x32x64_3_0_012_1_n_n.contr.Idx) :
    (dot_S4x12000x32x64_S64x64_S4x12000x32x64_3_0_012_1_n_n.lhsIdx i k 2).val = (i 2).val := by
  unfold DotDims.lhsIdx
  rw [dif_neg (show ¬(2 : Fin S4x12000x32x64.rank) ∈ dot_S4x12000x32x64_S64x64_S4x12000x32x64_3_0_012_1_n_n.lhsBatch by decide),
    dif_pos (show (2 : Fin S4x12000x32x64.rank) ∈ dot_S4x12000x32x64_S64x64_S4x12000x32x64_3_0_012_1_n_n.lhsNonContracting by decide)]
  rfl

private theorem lhs_d2_3 (i : S4x12000x32x64.Idx) (k : dot_S4x12000x32x64_S64x64_S4x12000x32x64_3_0_012_1_n_n.contr.Idx) :
    (dot_S4x12000x32x64_S64x64_S4x12000x32x64_3_0_012_1_n_n.lhsIdx i k 3).val = (k ⟨0, by decide⟩).val :=
  dot_S4x12000x32x64_S64x64_S4x12000x32x64_3_0_012_1_n_n.lhsIdx_val_of_single rfl i k

private theorem rhs_d2_0 (i : S4x12000x32x64.Idx) (k : dot_S4x12000x32x64_S64x64_S4x12000x32x64_3_0_012_1_n_n.contr.Idx) :
    (dot_S4x12000x32x64_S64x64_S4x12000x32x64_3_0_012_1_n_n.rhsIdx i k 0).val = (k ⟨0, by decide⟩).val :=
  dot_S4x12000x32x64_S64x64_S4x12000x32x64_3_0_012_1_n_n.rhsIdx_val_of_single rfl i k

private theorem rhs_d2_1 (i : S4x12000x32x64.Idx) (k : dot_S4x12000x32x64_S64x64_S4x12000x32x64_3_0_012_1_n_n.contr.Idx) :
    (dot_S4x12000x32x64_S64x64_S4x12000x32x64_3_0_012_1_n_n.rhsIdx i k 1).val = (i 3).val := by
  unfold DotDims.rhsIdx
  rw [dif_neg (show ¬(1 : Fin S64x64.rank) ∈ dot_S4x12000x32x64_S64x64_S4x12000x32x64_3_0_012_1_n_n.rhsBatch by decide),
    dif_pos (show (1 : Fin S64x64.rank) ∈ dot_S4x12000x32x64_S64x64_S4x12000x32x64_3_0_012_1_n_n.rhsNonContracting by decide)]
  rfl

/-- The second contraction: over the sixty-four channels of the first layer. -/
theorem dotLin2_apply (l : S4x12000x32x64.Idx → EReal) (w : S64x64.Idx → EReal) (b : Fin 4) (p : Fin 12000) (q : Fin 32) (o : Fin 64) :
    Host.dotGeneral (F := Ideal) (φ₁ := .f32) (φ₂ := .f32) dot_S4x12000x32x64_S64x64_S4x12000x32x64_3_0_012_1_n_n none l w (ix4 b p q o)
      = ∑ k : Fin 64, l (ix4 b p q k) * w (ix2 k o) := by
  simp only [Host.dotGeneral]
  rw [Ideal.dotGeneral_apply, ← Equiv.sum_comp (contrEquiv1 dot_S4x12000x32x64_S64x64_S4x12000x32x64_3_0_012_1_n_n 64 rfl rfl).symm]
  refine Finset.sum_congr rfl fun k _ => ?_
  have hk := contrEquiv1_symm_val dot_S4x12000x32x64_S64x64_S4x12000x32x64_3_0_012_1_n_n 64 rfl rfl k
  have el : dot_S4x12000x32x64_S64x64_S4x12000x32x64_3_0_012_1_n_n.lhsIdx (ix4 b p q o) ((contrEquiv1 dot_S4x12000x32x64_S64x64_S4x12000x32x64_3_0_012_1_n_n 64 rfl rfl).symm k) = ix4 b p q k :=
    funext fun a => Fin.ext (by
      match a with
      | ⟨0, _⟩ => exact lhs_d2_0 _ _
      | ⟨1, _⟩ => exact lhs_d2_1 _ _
      | ⟨2, _⟩ => exact lhs_d2_2 _ _
      | ⟨3, _⟩ => exact (lhs_d2_3 _ _).trans hk)
  have er : dot_S4x12000x32x64_S64x64_S4x12000x32x64_3_0_012_1_n_n.rhsIdx (ix4 b p q o) ((contrEquiv1 dot_S4x12000x32x64_S64x64_S4x12000x32x64_3_0_012_1_n_n 64 rfl rfl).symm k) = ix2 k o :=
    funext fun a => Fin.ext (by
      match a with
      | ⟨0, _⟩ => exact (rhs_d2_0 _ _).trans hk
      | ⟨1, _⟩ => exact rhs_d2_1 _ _)
  rw [el, er]

/-! ## The layers as activations -/

/-- The first contraction of the reference's features is the first linear layer. -/
theorem lin1_ref (vox : SVox.Idx → EReal) (coords : SCoord.Idx → BitVec 32) (npts : SNpts.Idx → BitVec 32) (w1 : SW1.Idx → EReal) :
    actOf (Host.dotGeneral (F := Ideal) (φ₁ := .f32) (φ₂ := .f32) dot_S4x12000x32x9_S9x64_S4x12000x32x64_3_0_012_1_n_n none (refFeat (F := Ideal) vox coords npts) w1)
      = lin1 vox coords npts w1 := by
  funext b p q o
  show Host.dotGeneral (F := Ideal) (φ₁ := .f32) (φ₂ := .f32) dot_S4x12000x32x9_S9x64_S4x12000x32x64_3_0_012_1_n_n none _ w1 (ix4 b p q o) = _
  rw [dotLin1_apply]
  exact Finset.sum_congr rfl fun k _ => by rw [refFeat_apply]

/-- The second contraction of an activation is the second linear layer of it. -/
theorem lin2_ref (y : S4x12000x32x64.Idx → EReal) (w2 : SW2.Idx → EReal) :
    actOf (Host.dotGeneral (F := Ideal) (φ₁ := .f32) (φ₂ := .f32) dot_S4x12000x32x64_S64x64_S4x12000x32x64_3_0_012_1_n_n none y w2) = lin2 (actOf y) w2 := by
  funext b p q o
  exact dotLin2_apply y w2 b p q o

/-- The reference's normalisation of an activation, as an activation. -/
theorem bn_ref (x : S4x12000x32x64.Idx → EReal) (g be : SC.Idx → EReal) :
    actOf (refBN (F := Ideal) x g be) = bnrelu (actOf x) (mean (actOf x)) (varR (actOf x)) g be := by
  funext b p q o
  exact refBN_apply x g be b p q o

/-- Inserting slot q on the reduced axis of (b, p, o) gives the point (b, p, q) at channel o. -/
private theorem lift_slot (h : S4x12000x32x64.Reduces [2] S4x12000x64) (b : Fin 4) (p : Fin 12000) (q : Fin 32) (o : Fin 64) :
    h.lift (ix3 b p o) q = ix4 b p q o :=
  funext fun a => Fin.ext (by
    match a with
    | ⟨0, _⟩ => rfl
    | ⟨1, _⟩ => rfl
    | ⟨2, _⟩ => rfl
    | ⟨3, _⟩ => rfl)

/-- The reference's result is the network's, with `varR`. -/
theorem refOut_eq (vox : SVox.Idx → EReal) (coords : SCoord.Idx → BitVec 32) (npts : SNpts.Idx → BitVec 32)
    (w1 : SW1.Idx → EReal) (g1 b1 : SC.Idx → EReal) (w2 : SW2.Idx → EReal) (g2 b2 : SC.Idx → EReal) :
    refOut (F := Ideal) vox coords npts w1 g1 b1 w2 g2 b2 = outR vox coords npts w1 g1 b1 w2 g2 b2 := by
  funext i
  obtain ⟨b, p, o, rfl⟩ : ∃ (b : Fin 4) (p : Fin 12000) (o : Fin 64), i = ix3 b p o := ⟨i 0, i 1, i 2, eq_ix3 i⟩
  have hr : S4x12000x32x64.Reduces [2] S4x12000x64 := by decide
  unfold refOut
  simp only []
  rw [Host.reduce_eq_fold_single FloatOps.maximumf _ _ _ hr _ (ix3 b p o)]
  -- both sides fold the maximum from minus infinity over the slots: compare slot by slot
  show (Finset.univ : Finset (Fin 32)).fold max cNegInf _ = PFN.pool _ (ix3 b p o)
  unfold PFN.pool
  refine congrArg (fun f : Fin 32 → EReal => (Finset.univ : Finset (Fin 32)).fold max cNegInf f) (funext fun (q : Fin 32) => ?_)
  show refBN (F := Ideal) _ g2 b2 (hr.lift (ix3 b p o) q) = bnrelu _ _ _ g2 b2 b p q o
  refine (congrArg (refBN (F := Ideal) _ g2 b2) (lift_slot hr b p q o)).trans ?_
  rw [refBN_apply, lin2_ref, bn_ref, lin1_ref]
  rfl

end Cert.ReferenceIdeal.Ref

end
-- ==== Proof.Algebra.lean ====
/-
  Over the reals the two variances are one number: the mean of the squared deviations from the mean is the mean of the
  squares minus the square of the mean. The extended reals have ±∞, where that law fails, so the network's two forms agree
  on FINITE inputs: every quantity the network forms from real voxels and real weights is real — the features, both linear
  layers, the means and variances (the count 1536000 is not zero), and the normalised activations, because a variance
  of reals is not negative and the guard 0.001 is positive, so the reciprocal square root is taken of a positive real.
-/
import proofs.«133398_j52536039964809_1_alg».proof.Proof.Spec
import Idealize.ShloMosaic.PureOps.Ideal.Laws

noncomputable section

open scoped BigOperators

namespace Cert.PFN

open Idealize.ShloMosaic Idealize.ShloMosaic.ValueIdx

/-- Every entry of an array is a real number. -/
def AllReal {ι : Type} (x : ι → EReal) : Prop := ∀ i, ∃ r : ℝ, x i = (r : EReal)

/-! ## Real values stay real -/

/-- An extended real that is a real number. -/
def IsR (a : EReal) : Prop := ∃ r : ℝ, a = (r : EReal)

theorem isR_coe (r : ℝ) : IsR (r : EReal) := ⟨r, rfl⟩

theorem isR_add {a b : EReal} (ha : IsR a) (hb : IsR b) : IsR (a + b) := by
  obtain ⟨r, rfl⟩ := ha
  obtain ⟨s, rfl⟩ := hb
  exact ⟨r + s, (EReal.coe_add r s).symm⟩

theorem isR_sub {a b : EReal} (ha : IsR a) (hb : IsR b) : IsR (a - b) := by
  obtain ⟨r, rfl⟩ := ha
  obtain ⟨s, rfl⟩ := hb
  exact ⟨r - s, (EReal.coe_sub r s).symm⟩

theorem isR_mul {a b : EReal} (ha : IsR a) (hb : IsR b) : IsR (a * b) := by
  obtain ⟨r, rfl⟩ := ha
  obtain ⟨s, rfl⟩ := hb
  exact ⟨r * s, (EReal.coe_mul r s).symm⟩

/-- The larger of two reals is one of them. -/
theorem isR_max {a b : EReal} (ha : IsR a) (hb : IsR b) : IsR (max a b) := by
  rcases max_choice a b with h | h
  · rw [h]; exact ha
  · rw [h]; exact hb

/-- The extended real of a finite sum of reals is the sum of their extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a t ha ih => rw [Finset.sum_insert ha, Finset.sum_insert ha, EReal.coe_add, ih]

theorem isR_sum {ι : Type*} (s : Finset ι) (f : ι → EReal) (hf : ∀ i, IsR (f i)) : IsR (∑ i ∈ s, f i) := by
  choose F hF using hf
  exact ⟨∑ i ∈ s, F i, by rw [coe_sum]; exact Finset.sum_congr rfl (fun i _ => hF i)⟩

/-- A real divided by a nonzero real is real. -/
theorem isR_div {a : EReal} (ha : IsR a) {y : ℝ} (hy : y ≠ 0) : IsR (Ideal.div a (y : EReal)) := by
  rw [Ideal.div_coe hy]
  exact isR_mul ha (isR_coe _)

/-! ## The constants -/

/-- A single-precision word whose exponent field is not all ones denotes a real number. -/
theorem isR_ieee (w : BitVec 32) (h : (w.extractLsb' 23 8).toNat ≠ 2 ^ 8 - 1) : IsR (Ideal.ieee 8 23 w) := by
  unfold Ideal.ieee
  simp only []
  rw [if_neg h]
  split_ifs <;> exact ⟨_, rfl⟩

theorem isR_cHalf : IsR cHalf := isR_ieee 0x3F000000#32 (by decide)
theorem isR_cCell : IsR cCell := isR_ieee 0x3E23D70A#32 (by decide)
theorem isR_cZero : IsR cZero := isR_ieee 0x00000000#32 (by decide)
theorem isR_cOrgY : IsR cOrgY := isR_ieee 0xC21EB852#32 (by decide)

/-- The word of 32 denotes 32. -/
theorem cSlots_eq : cSlots = ((32 : ℝ) : EReal) := by
  simp [Ideal.ofBits, Ideal.ieee, -EReal.coe_mul]; norm_num

/-- The word of the count denotes 1536000. -/
theorem cCount_eq : cCount = ((1536000 : ℝ) : EReal) := by
  simp [Ideal.ofBits, Ideal.ieee, -EReal.coe_mul]; norm_num

/-- The guard is a positive real. -/
theorem cEps_pos : ∃ e : ℝ, 0 < e ∧ cEps = (e : EReal) := by
  refine ⟨8589935 * (2 : ℝ) ^ (-33 : Int), by positivity, ?_⟩
  simp [Ideal.ofBits, Ideal.ieee, -EReal.coe_mul]

/-! ## Real activations -/

/-- Every value of an activation array is real. -/
def RealAct (x : Act) : Prop := ∀ b p q o, IsR (x b p q o)

section Features

variable (vox : SVox.Idx → EReal) (coords : SCoord.Idx → BitVec 32) (npts : SNpts.Idx → BitVec 32)

theorem isR_cx (b : Fin 4) (p : Fin 12000) : IsR (cx coords b p) :=
  isR_add (isR_mul (isR_add (isR_coe _) isR_cHalf) isR_cCell) isR_cZero

theorem isR_cy (b : Fin 4) (p : Fin 12000) : IsR (cy coords b p) :=
  isR_add (isR_mul (isR_add (isR_coe _) isR_cHalf) isR_cCell) isR_cOrgY

theorem isR_zmean (hvox : AllReal vox) (b : Fin 4) (p : Fin 12000) : IsR (zmean vox b p) := by
  unfold zmean
  rw [cSlots_eq]
  exact isR_div (isR_sum _ _ (fun q => hvox _)) (by norm_num)

theorem isR_mask (b : Fin 4) (p : Fin 12000) (q : Fin 32) : IsR (mask npts b p q) := isR_coe _

theorem isR_rawFeat (hvox : AllReal vox) (b : Fin 4) (p : Fin 12000) (q : Fin 32) (k : Fin 9) :
    IsR (rawFeat vox coords b p q k) := by
  have h0 : IsR (vox (ix4 b p q 0)) := hvox _
  have h1 : IsR (vox (ix4 b p q 1)) := hvox _
  have h2 : IsR (vox (ix4 b p q 2)) := hvox _
  have h3 : IsR (vox (ix4 b p q 3)) := hvox _
  have hx := isR_cx coords b p
  have hy := isR_cy coords b p
  have hz := isR_zmean vox hvox b p
  unfold rawFeat
  fin_cases k
  · exact h0
  · exact h1
  · exact h2
  · exact h3
  · exact isR_sub h0 hx
  · exact isR_sub h1 hy
  · exact hx
  · exact hy
  · exact hz

/-- The first layer of real voxels and real weights is real. -/
theorem realAct_lin1 (w1 : SW1.Idx → EReal) (hvox : AllReal vox) (hw1 : AllReal w1) :
    RealAct (lin1 vox coords npts w1) := by
  intro b p q o
  unfold lin1
  exact isR_sum _ _ (fun k => isR_mul (isR_mul (isR_rawFeat vox coords hvox b p q k) (isR_mask npts b p q)) (hw1 _))

end Features

/-- The second layer of real activations and real weights is real. -/
theorem realAct_lin2 (h : Act) (w2 : SW2.Idx → EReal) (hh : RealAct h) (hw2 : AllReal w2) : RealAct (lin2 h w2) := by
  intro b p q o
  unfold lin2
  exact isR_sum _ _ (fun k => isR_mul (hh b p q k) (hw2 _))

/-! ## The law over the reals -/

/-- The sum over all points of a real function of the point. -/
def tot3 (F : Fin 4 → Fin 12000 → Fin 32 → ℝ) : ℝ := ∑ b, ∑ p, ∑ q, F b p q

theorem tot3_add (F G : Fin 4 → Fin 12000 → Fin 32 → ℝ) :
    tot3 (fun b p q => F b p q + G b p q) = tot3 F + tot3 G := by
  simp only [tot3, Finset.sum_add_distrib]

theorem tot3_sub (F G : Fin 4 → Fin 12000 → Fin 32 → ℝ) :
    tot3 (fun b p q => F b p q - G b p q) = tot3 F - tot3 G := by
  simp only [tot3, Finset.sum_sub_distrib]

theorem tot3_mul_const (F : Fin 4 → Fin 12000 → Fin 32 → ℝ) (c : ℝ) :
    tot3 (fun b p q => F b p q * c) = tot3 F * c := by
  simp only [tot3, Finset.sum_mul]

/-- A constant summed over all 4 · 12000 · 32 points. -/
theorem tot3_const (c : ℝ) : tot3 (fun _ _ _ => c) = 1536000 * c := by
  simp only [tot3, Finset.sum_const, Finset.card_univ, Fintype.card_fin, nsmul_eq_mul]
  push_cast
  ring

theorem tot3_nonneg (F : Fin 4 → Fin 12000 → Fin 32 → ℝ) (hF : ∀ b p q, 0 ≤ F b p q) : 0 ≤ tot3 F :=
  Finset.sum_nonneg (fun b _ => Finset.sum_nonneg (fun p _ => Finset.sum_nonneg (fun q _ => hF b p q)))

/-- The mean of the squared deviations from the mean is the mean of the squares minus the square of the mean: with
    μ = c · ∑ F and c · N = 1, ∑ (F − μ)² = ∑ F² − 2 μ ∑ F + N μ², and c times that is c ∑ F² − 2 μ² + μ². -/
theorem var_real (F : Fin 4 → Fin 12000 → Fin 32 → ℝ) (c : ℝ) (hc : c * 1536000 = 1) :
    tot3 (fun b p q => (F b p q - tot3 F * c) * (F b p q - tot3 F * c)) * c
      = tot3 (fun b p q => F b p q * F b p q) * c - (tot3 F * c) * (tot3 F * c) := by
  generalize hμ : tot3 F * c = μ
  have h : ∀ b p q, (F b p q - μ) * (F b p q - μ) = F b p q * F b p q - F b p q * (2 * μ) + μ * μ := by
    intro b p q; ring
  simp only [h]
  rw [tot3_add, tot3_sub, tot3_mul_const, tot3_const]
  subst hμ
  linear_combination (tot3 F * c * (tot3 F * c)) * hc

/-! ## The statistics of a real activation array are the real statistics -/

/-- One over the count. -/
abbrev rc : ℝ := 1 / 1536000

section Coe

variable (X : Fin 4 → Fin 12000 → Fin 32 → Fin 64 → ℝ) (o : Fin 64)

theorem tot_coe : tot (fun b p q o => (X b p q o : EReal)) o = ((tot3 (fun b p q => X b p q o) : ℝ) : EReal) := by
  unfold tot tot3
  rw [coe_sum]; refine Finset.sum_congr rfl (fun b _ => ?_)
  rw [coe_sum]; refine Finset.sum_congr rfl (fun p _ => ?_)
  rw [coe_sum]

theorem mean_coe :
    mean (fun b p q o => (X b p q o : EReal)) o = ((tot3 (fun b p q => X b p q o) * rc : ℝ) : EReal) := by
  unfold mean
  rw [tot_coe, cCount_eq, Ideal.div_coe (by norm_num), ← EReal.coe_mul]

theorem sq_coe (Y : Fin 4 → Fin 12000 → Fin 32 → Fin 64 → ℝ) :
    sq (fun b p q o => (Y b p q o : EReal)) = fun b p q o => ((Y b p q o * Y b p q o : ℝ) : EReal) := by
  funext b p q o
  unfold sq
  rw [EReal.coe_mul]

theorem dev_coe :
    dev (fun b p q o => (X b p q o : EReal))
      = fun b p q o => ((X b p q o - tot3 (fun b p q => X b p q o) * rc : ℝ) : EReal) := by
  funext b p q o
  unfold dev
  rw [mean_coe, EReal.coe_sub]

theorem varK_coe :
    varK (fun b p q o => (X b p q o : EReal)) o
      = ((tot3 (fun b p q => X b p q o * X b p q o) * rc
          - (tot3 (fun b p q => X b p q o) * rc) * (tot3 (fun b p q => X b p q o) * rc) : ℝ) : EReal) := by
  unfold varK
  rw [sq_coe, tot_coe, mean_coe, cCount_eq, Ideal.div_coe (by norm_num), ← EReal.coe_mul, ← EReal.coe_mul,
    ← EReal.coe_sub]

theorem varR_coe :
    varR (fun b p q o => (X b p q o : EReal)) o
      = ((tot3 (fun b p q => (X b p q o - tot3 (fun b p q => X b p q o) * rc)
            * (X b p q o - tot3 (fun b p q => X b p q o) * rc)) * rc : ℝ) : EReal) := by
  unfold varR
  rw [dev_coe, sq_coe, tot_coe, cCount_eq, Ideal.div_coe (by norm_num), ← EReal.coe_mul]

/-- THE LAW: on a real activation array the two variances are one number. -/
theorem varK_eq_varR_coe :
    varK (fun b p q o => (X b p q o : EReal)) o = varR (fun b p q o => (X b p q o : EReal)) o := by
  rw [varK_coe, varR_coe, var_real (fun b p q => X b p q o) rc (by norm_num)]

/-- The variance of reals is a real that is not negative. -/
theorem varR_coe_nonneg : ∃ v : ℝ, 0 ≤ v ∧ varR (fun b p q o => (X b p q o : EReal)) o = (v : EReal) := by
  refine ⟨_, ?_, varR_coe X o⟩
  exact mul_nonneg (tot3_nonneg _ (fun b p q => mul_self_nonneg _)) (by norm_num)

end Coe

/-- A real activation array is the extended reals of an array of reals. -/
theorem RealAct.eq_coe {x : Act} (hx : RealAct x) :
    ∃ X : Fin 4 → Fin 12000 → Fin 32 → Fin 64 → ℝ, x = fun b p q o => (X b p q o : EReal) := by
  choose X hX using hx
  exact ⟨X, by funext b p q o; exact hX b p q o⟩

/-- THE LAW, for any real activation array. -/
theorem varK_eq_varR (x : Act) (hx : RealAct x) : varK x = varR x := by
  obtain ⟨X, rfl⟩ := hx.eq_coe
  funext o
  exact varK_eq_varR_coe X o

/-- Normalising a real array by its own mean and variance, with real scales and shifts, gives a real array: the
    variance is not negative and the guard is positive, so the reciprocal square root is taken of a positive real. -/
theorem realAct_bnrelu (x : Act) (hx : RealAct x) (g be : SC.Idx → EReal) (hg : AllReal g) (hbe : AllReal be) :
    RealAct (bnrelu x (mean x) (varR x) g be) := by
  obtain ⟨X, rfl⟩ := hx.eq_coe
  intro b p q o
  unfold bnrelu
  obtain ⟨e, he, hE⟩ := cEps_pos
  obtain ⟨v, hv, hV⟩ := varR_coe_nonneg X o
  have hpos : 0 < v + e := by linarith
  have hrs : IsR (Ideal.rsqrt (varR (fun b p q o => (X b p q o : EReal)) o + cEps)) := by
    rw [hV, hE, ← EReal.coe_add, Ideal.rsqrt_coe, if_neg (not_lt.mpr hpos.le), if_neg (ne_of_gt hpos)]
    exact isR_coe _
  have hmu : IsR (mean (fun b p q o => (X b p q o : EReal)) o) := by
    rw [mean_coe]; exact isR_coe _
  exact isR_max (isR_add (isR_mul (isR_mul (isR_sub (isR_coe _) hmu) hrs) (hg _)) (hbe _)) isR_cZero

/-- On real voxels, weights, scales and shifts the network with either variance is the same. -/
theorem outK_eq_outR (vox : SVox.Idx → EReal) (coords : SCoord.Idx → BitVec 32) (npts : SNpts.Idx → BitVec 32)
    (w1 : SW1.Idx → EReal) (g1 b1 : SC.Idx → EReal) (w2 : SW2.Idx → EReal) (g2 b2 : SC.Idx → EReal)
    (hvox : AllReal vox) (hw1 : AllReal w1) (hg1 : AllReal g1) (hb1 : AllReal b1) (hw2 : AllReal w2)
    (hg2 : AllReal g2) (hb2 : AllReal b2) :
    outK vox coords npts w1 g1 b1 w2 g2 b2 = outR vox coords npts w1 g1 b1 w2 g2 b2 := by
  -- the first layer is real, so its two variances agree and the first activations are one real array
  have hL : RealAct (lin1 vox coords npts w1) := realAct_lin1 vox coords npts w1 hvox hw1
  have h1 : varK (lin1 vox coords npts w1) = varR (lin1 vox coords npts w1) := varK_eq_varR _ hL
  have ha : act1 varK vox coords npts w1 g1 b1 = act1 varR vox coords npts w1 g1 b1 := by
    unfold act1; rw [h1]
  have hA : RealAct (act1 varR vox coords npts w1 g1 b1) := realAct_bnrelu _ hL g1 b1 hg1 hb1
  -- hence the second layer is one real array, and its two variances agree
  have hp : pre2 varK vox coords npts w1 g1 b1 w2 = pre2 varR vox coords npts w1 g1 b1 w2 := by
    unfold pre2; rw [ha]
  have hP : RealAct (pre2 varR vox coords npts w1 g1 b1 w2) := realAct_lin2 _ _ hA hw2
  have h2 : varK (pre2 varR vox coords npts w1 g1 b1 w2) = varR (pre2 varR vox coords npts w1 g1 b1 w2) :=
    varK_eq_varR _ hP
  show out varK vox coords npts w1 g1 b1 w2 g2 b2 = out varR vox coords npts w1 g1 b1 w2 g2 b2
  unfold out
  rw [hp, h2]

end Cert.PFN

end
-- ==== Proof.Finite.lean ====
/-
  The precondition, read: every float argument of the kernel holds finite numbers, that is, over the extended reals,
  real numbers.
-/
import proofs.«133398_j52536039964809_1_alg».proof.Defs
import proofs.«133398_j52536039964809_1_alg».proof.Proof.Gen.KernelIdeal
import proofs.«133398_j52536039964809_1_alg».proof.Proof.Gen.Pre_finite_inputs
import proofs.«133398_j52536039964809_1_alg».proof.Proof.Algebra
import Idealize.ShloMosaic.Lib.ReduceAll
import Idealize.ShloMosaic.Lib.ValueIdx
import Idealize.ShloMosaic.Lib.IdealHost

noncomputable section

open scoped BigOperators

namespace Cert.Proof.Finite

open Idealize.ShloMosaic Idealize.SL.Sem Cert.PFN

/-- An extended real whose absolute value lies strictly below +∞ is a real number: −∞ and +∞ both have absolute
    value +∞. -/
theorem real_of_abs_lt_top (x : EReal) (hx : max x (-x) < (⊤ : EReal)) : ∃ r : ℝ, x = (r : EReal) := by
  induction x using EReal.rec with
  | bot => simp at hx
  | coe r => exact ⟨r, rfl⟩
  | top => simp at hx

/-- The f32 pattern 0x7F800000 (sign 0, exponent all ones, fraction 0) is +∞. -/
theorem ofBits_inf : Ideal.ofBits .f32 0x7F800000#32 = (⊤ : EReal) := by
  simp [Ideal.ofBits, Ideal.ieee]

/-- One conjunct of the precondition, read: when the conjunction over ALL entries of "the entry's absolute value is
    strictly below +∞" is 1, each entry's comparison is 1, so each entry is a real. -/
theorem allReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x) (broadcastInDim s ![] hb (constant Cert.Pre_finite_inputs.S_ .f32 0x7F800000#32)))
          (constantI Cert.Pre_finite_inputs.S_ 1 1#1) hr hu j = 1#1) :
    AllReal (x : s.Idx → EReal) := by
  intro i
  -- the rank-0 result has exactly one index
  haveI : Subsingleton Cert.Pre_finite_inputs.S_.Idx := ⟨fun a b => funext fun d => d.elim0⟩
  have h1 := Host.reduce_andi_all _ _ hr hu j e i
  refine real_of_abs_lt_top (x i) ?_
  -- the entry's comparison: |x i| = max (x i) (−x i) against the broadcast scalar +∞
  rw [ValueIdx.cmpf_apply, ValueIdx.broadcastInDim_scalar_apply, ValueIdx.constant_apply, ofBits_inf] at h1
  change BitVec.ofBool (decide (max (x i) (-(x i)) < (⊤ : EReal))) = 1#1 at h1
  by_cases hlt : max (x i) (-(x i)) < (⊤ : EReal)
  · exact hlt
  · rw [decide_eq_false hlt] at h1
    exact absurd h1 (by decide)

/-- Under the precondition each of the seven float arguments is an array of reals. -/
theorem allReal_of_pre (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0) : Cert.KernelIdeal.S4x12000x32x4.Idx → EReal)
    ∧ AllReal (m ((c.tc : Thread Cert.KernelIdeal.nD Cert.KernelIdeal.τ).loc Cert.KernelIdeal.main_arg3) : Cert.KernelIdeal.S9x64.Idx → EReal)
    ∧ AllReal (m ((c.tc : Thread Cert.KernelIdeal.nD Cert.KernelIdeal.τ).loc Cert.KernelIdeal.main_arg4) : Cert.KernelIdeal.S64.Idx → EReal)
    ∧ AllReal (m ((c.tc : Thread Cert.KernelIdeal.nD Cert.KernelIdeal.τ).loc Cert.KernelIdeal.main_arg5) : Cert.KernelIdeal.S64.Idx → EReal)
    ∧ AllReal (m ((c.tc : Thread Cert.KernelIdeal.nD Cert.KernelIdeal.τ).loc Cert.KernelIdeal.main_arg6) : Cert.KernelIdeal.S64x64.Idx → EReal)
    ∧ AllReal (m ((c.tc : Thread Cert.KernelIdeal.nD Cert.KernelIdeal.τ).loc Cert.KernelIdeal.main_arg7) : Cert.KernelIdeal.S64.Idx → EReal)
    ∧ AllReal (m ((c.tc : Thread Cert.KernelIdeal.nD Cert.KernelIdeal.τ).loc Cert.KernelIdeal.main_arg8) : Cert.KernelIdeal.S64.Idx → EReal) := by
  -- the predicate's one entry is the conjunction of seven "all entries finite" bits; a conjunction of bits is 1 only
  -- when each bit is
  have h0 := congrFun (h c) ValueIdx.ix0
  dsimp only [Cert.Pre_finite_inputs.fn, Cert.Pre_finite_inputs.fn_part1] at h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  exact ⟨allReal_of_all _ _ _ _ _ h0, allReal_of_all _ _ _ _ _ h3, allReal_of_all _ _ _ _ _ h4,
    allReal_of_all _ _ _ _ _ h5, allReal_of_all _ _ _ _ _ h6, allReal_of_all _ _ _ _ _ h7,
    allReal_of_all _ _ _ _ _ h8⟩

end Cert.Proof.Finite

end
-- ==== Proof.lean ====
/-
  The certificate of the pillar feature network kernel against its reference.

  The kernel makes three passes over the point cloud, 60 blocks of 200 pillars each. The first accumulates, per output
  channel, the total of the first linear layer over all 4 · 12000 · 32 points and the total of its squares; the host turns
  them into a mean and a variance (mean of squares minus squared mean). The second recomputes the first layer,
  normalises it with those, clips it at zero, applies the second linear layer and accumulates its two totals; the host
  again forms mean and variance. The third recomputes both layers, normalises, clips, and writes the maximum over each
  pillar's 32 slots. The reference computes the same network on whole arrays, each variance as the mean of the squared
  deviations from the mean.

  Read over the extended reals both programs are the network of Proof/Spec.lean (Proof/KChain.lean for the kernel, through
  the three passes Proof/KReg0.lean, KReg1.lean, KReg2.lean; Proof/RefRun.lean and RefNet.lean for the reference), the one
  with the variance in its first form, the other in its second. The two forms are one number over the reals, and under the
  precondition — every float argument finite — every quantity the network forms is real (Proof/Algebra.lean,
  Proof/Finite.lean). The kernel's idealization rewrote nothing, so `preserves` is trivial; the kernel's frames are the
  generated ones, the reference's frame is its run with the result dropped.
-/
import proofs.«133398_j52536039964809_1_alg».proof.Defs
import proofs.«133398_j52536039964809_1_alg».proof.Proof.Gen.Kernel
import proofs.«133398_j52536039964809_1_alg».proof.Proof.Gen.Kernel.Skeleton
import proofs.«133398_j52536039964809_1_alg».proof.Proof.Gen.Kernel.Launch
import proofs.«133398_j52536039964809_1_alg».proof.Proof.Gen.Kernel.Points
import proofs.«133398_j52536039964809_1_alg».proof.Proof.Gen.Kernel.Frame
import proofs.«133398_j52536039964809_1_alg».proof.Proof.Gen.KernelIdeal
import proofs.«133398_j52536039964809_1_alg».proof.Proof.Gen.KernelIdeal.Skeleton
import proofs.«133398_j52536039964809_1_alg».proof.Proof.Gen.KernelIdeal.Launch
import proofs.«133398_j52536039964809_1_alg».proof.Proof.Gen.KernelIdeal.Points
import proofs.«133398_j52536039964809_1_alg».proof.Proof.Gen.KernelIdeal.Frame
import proofs.«133398_j52536039964809_1_alg».proof.Proof.Gen.ReferenceIdeal
import proofs.«133398_j52536039964809_1_alg».proof.Proof.Gen.Pre_finite_inputs
import proofs.«133398_j52536039964809_1_alg».proof.Proof.KRun
import proofs.«133398_j52536039964809_1_alg».proof.Proof.KChain
import proofs.«133398_j52536039964809_1_alg».proof.Proof.RefRun
import proofs.«133398_j52536039964809_1_alg».proof.Proof.RefNet
import proofs.«133398_j52536039964809_1_alg».proof.Proof.Algebra
import proofs.«133398_j52536039964809_1_alg».proof.Proof.Finite
import Idealize.ShloMosaic.Adequacy
import Idealize.ShloMosaic.Init

noncomputable section

namespace Cert.Proof

open Idealize.ShloMosaic Idealize.SL.Sem

/-- The word-level kernel runs and leaves its arguments alone: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run, the result dropped. -/
theorem frame_ri : Cert.frame_ReferenceIdeal := fun m ρ _ =>
  (θ_run Cert.ReferenceIdeal.defs _ _).mono (fun _ h c => (h c).2) (Cert.ReferenceIdeal.Ref.run (F := Ideal) m ρ)

/-- The idealization rewrote nothing. -/
theorem preserves : Cert.preserves_Kernel_KernelIdeal := trivial

/-- Over the extended reals, from memories that agree on the arguments, the kernel's result array ends at the network's
    output with the variances as mean of squares minus squared mean, the reference's at the network's output with the
    variances as mean squared deviation: one array, because the arguments are finite. -/
theorem algebraic : Cert.algebraic_KernelIdeal_ReferenceIdeal := by
  intro m ρ m' ρ' hpre hagree
  refine ⟨fun c => Cert.PFN.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Chain.result_eq m ρ c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.Ref.run (F := Ideal) m' ρ')
    obtain ⟨e0, e1, e2, e3, e4, e5, e6, e7, e8⟩ := hagree c
    obtain ⟨r0, r3, r4, r5, r6, r7, r8⟩ := Cert.Proof.Finite.allReal_of_pre m hpre c
    rw [e0, e1, e2, e3, e4, e5, e6, e7, e8]
    exact (Cert.ReferenceIdeal.Ref.refOut_eq _ _ _ _ _ _ _ _ _).trans
      (Cert.PFN.outK_eq_outR _ _ _ _ _ _ _ _ _ r0 r3 r4 r5 r6 r7 r8).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
